-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S640000x32 : Shape := ⟨2, ![640000, 32]⟩
abbrev S50000 : Shape := ⟨1, ![50000]⟩
abbrev S290x128 : Shape := ⟨2, ![290, 128]⟩
abbrev S128 : Shape := ⟨1, ![128]⟩
abbrev S128x128 : Shape := ⟨2, ![128, 128]⟩
abbrev S257x128 : Shape := ⟨2, ![257, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S640000x32 : S_.BroadcastsInDim S640000x32 (![] : Fin 0 → Fin S640000x32.rank)
  reducesTo_S640000x32_S_d0_1 : S640000x32.ReducesTo [0, 1] S_
  bcast_S_S50000 : S_.BroadcastsInDim S50000 (![] : Fin 0 → Fin S50000.rank)
  reducesTo_S50000_S_d0 : S50000.ReducesTo [0] S_
  bcast_S_S290x128 : S_.BroadcastsInDim S290x128 (![] : Fin 0 → Fin S290x128.rank)
  reducesTo_S290x128_S_d0_1 : S290x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S257x128 : S_.BroadcastsInDim S257x128 (![] : Fin 0 → Fin S257x128.rank)
  reducesTo_S257x128_S_d0_1 : S257x128.ReducesTo [0, 1] S_
  bcast_S_S2x640000 : S_.BroadcastsInDim S2x640000 (![] : Fin 0 → Fin S2x640000.rank)
  reducesTo_S2x640000_S_d0_1 : S2x640000.ReducesTo [0, 1] S_

variable [Facts]

def fn_part4 {F : FTy → Type} [FloatOps F] (main_v63 : IVec S_ 1) (main_v65 : IVec S2x640000 1) (main_v67 : IVec S2x640000 1) : IVec S_ 1 :=
  let main_v68 : IVec S2x640000 1 := andi main_v65 main_v67
  let main_c_26 : IVec S_ 1 := constantI S_ 1 1#1
  let main_v69 : IVec S_ 1 := (fun x v => Host.reduce IntOp.andi x v reducesTo_S2x640000_S_d0_1 h_S_) main_v68 main_c_26
  let main_v70 : IVec S_ 1 := andi main_v63 main_v69
  main_v70

def fn_part3 {F : FTy → Type} [FloatOps F] (main_arg1 : IVec S2x640000 32) (main_arg12 : FVec F S128 .f32) (main_arg13 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_c_24 : IVec S_ 32 := constantI S_ 32 0#32
  let main_v64 : IVec S2x640000 32 := broadcastInDim S2x640000 ![] bcast_S_S2x640000 main_c_24
  let main_v65 : IVec S2x640000 1 := cmpi .sge main_arg1 main_v64
  let main_c_25 : IVec S_ 32 := constantI S_ 32 50000#32
  let main_v66 : IVec S2x640000 32 := broadcastInDim S2x640000 ![] bcast_S_S2x640000 main_c_25
  let main_v67 : IVec S2x640000 1 := cmpi .slt main_arg1 main_v66
  fn_part4 (F := F) main_v63 main_v65 main_v67

def fn_part2 {F : FTy → Type} [FloatOps F] (main_arg1 : IVec S2x640000 32) (main_arg8 : FVec F S257x128 .f32) (main_arg9 : FVec F S128 .f32) (main_arg10 : FVec F S128x128 .f32) (main_arg11 : FVec F S128 .f32) (main_arg12 : FVec F S128 .f32) (main_arg13 : FVec F S128 .f32) (main_v33 : IVec S_ 1) : IVec S_ 1 :=
  let main_v34 : FVec F S257x128 .f32 := Host.absf main_arg8
  let main_cst_12 : FVec F S_ .f32 := constant S_ .f32 0x7F800000#32
  let main_v35 : FVec F S257x128 .f32 := broadcastInDim S257x128 ![] bcast_S_S257x128 main_cst_12
  let main_v36 : IVec S257x128 1 := cmpf .olt main_v34 main_v35
  let main_c_13 : IVec S_ 1 := constantI S_ 1 1#1
  let main_v37 : IVec S_ 1 := (fun x v => Host.reduce IntOp.andi x v reducesTo_S257x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg1 main_arg12 main_arg13 main_v48 main_v49 main_v50

def fn_part1 {F : FTy → Type} [FloatOps F] (main_arg1 : IVec S2x640000 32) (main_arg5 : FVec F S128 .f32) (main_arg6 : FVec F S128x128 .f32) (main_arg7 : FVec F S128 .f32) (main_arg8 : FVec F S257x128 .f32) (main_arg9 : FVec F S128 .f32) (main_arg10 : FVec F S128x128 .f32) (main_arg11 : FVec F S128 .f32) (main_arg12 : FVec F S128 .f32) (main_arg13 : FVec F S128 .f32) (main_v13 : IVec S_ 1) (main_v16 : IVec S290x128 1) : IVec S_ 1 :=
  let main_c_5 : IVec S_ 1 := constantI S_ 1 1#1
  let main_v17 : IVec S_ 1 := (fun x v => Host.reduce IntOp.andi x v reducesTo_S290x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg8 main_arg9 main_arg10 main_arg11 main_arg12 main_arg13 main_v33

def fn {F : FTy → Type} [FloatOps F] (main_arg0 : FVec F S50000x128 .f32) (main_arg1 : IVec S2x640000 32) (main_arg2 : FVec F S640000x32 .f32) (main_arg3 : FVec F S50000 .f32) (main_arg4 : FVec F S290x128 .f32) (main_arg5 : FVec F S128 .f32) (main_arg6 : FVec F S128x128 .f32) (main_arg7 : FVec F S128 .f32) (main_arg8 : FVec F S257x128 .f32) (main_arg9 : FVec F S128 .f32) (main_arg10 : FVec F S128x128 .f32) (main_arg11 : FVec F S128 .f32) (main_arg12 : FVec F S128 .f32) (main_arg13 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S640000x32 .f32 := Host.absf main_arg2
  let main_cst_0 : FVec F S_ .f32 := constant S_ .f32 0x7F800000#32
  let main_v5 : FVec F S640000x32 .f32 := broadcastInDim S640000x32 ![] bcast_S_S640000x32 main_cst_0
  let main_v6 : IVec S640000x32 1 := cmpf .olt main_v4 main_v5
  let main_c_1 : IVec S_ 1 := constantI S_ 1 1#1
  let main_v7 : IVec S_ 1 := (fun x v => Host.reduce IntOp.andi x v reducesTo_S640000x32_S_d0_1 h_S_) main_v6 main_c_1
  let main_v8 : IVec S_ 1 := andi main_v3 main_v7
  let main_v9 : FVec F S50000 .f32 := Host.absf main_arg3
  let main_cst_2 : FVec F S_ .f32 := constant S_ .f32 0x7F800000#32
  let main_v10 : FVec F S50000 .f32 := broadcastInDim S50000 ![] bcast_S_S50000 main_cst_2
  let main_v11 : IVec S50000 1 := cmpf .olt main_v9 main_v10
  let main_c_3 : IVec S_ 1 := constantI S_ 1 1#1
  let main_v12 : IVec S_ 1 := (fun x v => Host.reduce IntOp.andi x v reducesTo_S50000_S_d0 h_S_) main_v11 main_c_3
  let main_v13 : IVec S_ 1 := andi main_v8 main_v12
  let main_v14 : FVec F S290x128 .f32 := Host.absf main_arg4
  let main_cst_4 : FVec F S_ .f32 := constant S_ .f32 0x7F800000#32
  let main_v15 : FVec F S290x128 .f32 := broadcastInDim S290x128 ![] bcast_S_S290x128 main_cst_4
  let main_v16 : IVec S290x128 1 := cmpf .olt main_v14 main_v15
  fn_part1 (F := F) main_arg1 main_arg5 main_arg6 main_arg7 main_arg8 main_arg9 main_arg10 main_arg11 main_arg12 main_arg13 main_v13 main_v16
-- ==== Kernel.lean ====
abbrev S50000x128 : Shape := ⟨2, ![50000, 128]⟩
abbrev S2x640000 : Shape := ⟨2, ![2, 640000]⟩
abbrev S640000x32 : Shape := ⟨2, ![640000, 32]⟩
abbrev S50000 : Shape := ⟨1, ![50000]⟩
abbrev S290x128 : Shape := ⟨2, ![290, 128]⟩
abbrev S128 : Shape := ⟨1, ![128]⟩
abbrev S128x128 : Shape := ⟨2, ![128, 128]⟩
abbrev S257x128 : Shape := ⟨2, ![257, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S1 : Shape := ⟨1, ![1]⟩
abbrev S1x1 : Shape := ⟨2, ![1, 1]⟩
abbrev S640000x128 : Shape := ⟨2, ![640000, 128]⟩
abbrev S32x128 : Shape := ⟨2, ![32, 128]⟩
abbrev S1x128 : Shape := ⟨2, ![1, 128]⟩
abbrev S6400x128 : Shape := ⟨2, ![6400, 128]⟩
abbrev S6400x32 : Shape := ⟨2, ![6400, 32]⟩
abbrev S6400x1 : Shape := ⟨2, ![6400, 1]⟩
abbrev S50000x1 : Shape := ⟨2, ![50000, 1]⟩
abbrev S5000x128 : Shape := ⟨2, ![5000, 128]⟩
abbrev S5000x1 : Shape := ⟨2, ![5000, 1]⟩
abbrev S5000 : Shape := ⟨1, ![5000]⟩

abbrev nBuf : Space → Nat
  | .hbm => 131
  | .vmem => 36
  | .smem => 0
  | _ => 0

abbrev hbmTy0_0 (i : Nat) : BufTy := match i % 128 with
  | 0 => ⟨S50000x128, .f32⟩
  | 1 => ⟨S2x640000, .i32⟩
  | 2 => ⟨S640000x32, .f32⟩
  | 3 => ⟨S50000, .f32⟩
  | 4 => ⟨S290x128, .f32⟩
  | 5 => ⟨S128, .f32⟩
  | 6 => ⟨S128x128, .f32⟩
  | 7 => ⟨S128, .f32⟩
  | 8 => ⟨S257x128, .f32⟩
  | 9 => ⟨S128, .f32⟩
  | 10 => ⟨S128x128, .f32⟩
  | 11 => ⟨S128, .f32⟩
  | 12 => ⟨S128, .f32⟩
  | 13 => ⟨S128, .f32⟩
  | 14 => ⟨S1x640000, .i32⟩
  | 15 => ⟨S640000, .i32⟩
  | 16 => ⟨S1x640000, .i32⟩
  | 17 => ⟨S640000, .i32⟩
  | 18 => ⟨S_, .i32⟩
  | 19 => ⟨S640000, .i32⟩
  | 20 => ⟨S640000, .i1⟩
  | 21 => ⟨S_, .i32⟩
  | 22 => ⟨S640000, .i32⟩
  | 23 => ⟨S640000, .i32⟩
  | 24 => ⟨S640000, .i32⟩
  | 25 => ⟨S640000x1, .i32⟩
  | 26 => ⟨S1, .i32⟩
  | 27 => ⟨S_, .i32⟩
  | 28 => ⟨S640000x1, .i32⟩
  | 29 => ⟨S640000x1, .i1⟩
  | 30 => ⟨S1x1, .i32⟩
  | 31 => ⟨S640000x1, .i32⟩
  | 32 => ⟨S640000x1, .i1⟩
  | 33 => ⟨S640000x1, .i1⟩
  | 34 => ⟨S_, .i1⟩
  | 35 => ⟨S640000, .i1⟩
  | 36 => ⟨S640000x128, .f32⟩
  | 37 => ⟨S640000x128, .i1⟩
  | 38 => ⟨S_, .f32⟩
  | 39 => ⟨S640000x128, .f32⟩
  | 40 => ⟨S640000x128, .f32⟩
  | 41 => ⟨S_, .i32⟩
  | 42 => ⟨S640000, .i32⟩
  | 43 => ⟨S640000, .i1⟩
  | 44 => ⟨S_, .i32⟩
  | 45 => ⟨S640000, .i32⟩
  | 46 => ⟨S640000, .i32⟩
  | 47 => ⟨S640000, .i32⟩
  | 48 => ⟨S640000x1, .i32⟩
  | 49 => ⟨S1, .i32⟩
  | 50 => ⟨S_, .i32⟩
  | 51 => ⟨S640000x1, .i32⟩
  | 52 => ⟨S640000x1, .i1⟩
  | 53 => ⟨S1x1, .i32⟩
  | 54 => ⟨S640000x1, .i32⟩
  | 55 => ⟨S640000x1, .i1⟩
  | 56 => ⟨S640000x1, .i1⟩
  | 57 => ⟨S_, .i1⟩
  | 58 => ⟨S640000, .i1⟩
  | 59 => ⟨S640000x128, .f32⟩
  | 60 => ⟨S640000x128, .i1⟩
  | 61 => ⟨S_, .f32⟩
  | 62 => ⟨S640000x128, .f32⟩
  | 63 => ⟨S640000x128, .f32⟩
  | 64 => ⟨S_, .i32⟩
  | 65 => ⟨S640000, .i32⟩
  | 66 => ⟨S640000, .i1⟩
  | 67 => ⟨S_, .i32⟩
  | 68 => ⟨S640000, .i32⟩
  | 69 => ⟨S640000, .i32⟩
  | 70 => ⟨S640000, .i32⟩
  | 71 => ⟨S640000x1, .i32⟩
  | 72 => ⟨S1, .i32⟩
  | 73 => ⟨S_, .i32⟩
  | 74 => ⟨S640000x1, .i32⟩
  | 75 => ⟨S640000x1, .i1⟩
  | 76 => ⟨S1x1, .i32⟩
  | 77 => ⟨S640000x1, .i32⟩
  | 78 => ⟨S640000x1, .i1⟩
  | 79 => ⟨S640000x1, .i1⟩
  | 80 => ⟨S_, .i1⟩
  | 81 => ⟨S640000, .i1⟩
  | 82 => ⟨S640000, .f32⟩
  | 83 => ⟨S_, .f32⟩
  | 84 => ⟨S640000, .f32⟩
  | 85 => ⟨S640000, .f32⟩
  | 86 => ⟨S640000x1, .f32⟩
  | 87 => ⟨S_, .i32⟩
  | 88 => ⟨S640000, .i32⟩
  | 89 => ⟨S640000, .i1⟩
  | 90 => ⟨S_, .i32⟩
  | 91 => ⟨S640000, .i32⟩
  | 92 => ⟨S640000, .i32⟩
  | 93 => ⟨S640000, .i32⟩
  | 94 => ⟨S640000x1, .i32⟩
  | 95 => ⟨S1, .i32⟩
  | 96 => ⟨S_, .i32⟩
  | 97 => ⟨S640000x1, .i32⟩
  | 98 => ⟨S640000x1, .i1⟩
  | 99 => ⟨S1x1, .i32⟩
  | 100 => ⟨S640000x1, .i32⟩
  | 101 => ⟨S640000x1, .i1⟩
  | 102 => ⟨S640000x1, .i1⟩
  | 103 => ⟨S_, .i1⟩
  | 104 => ⟨S640000, .i1⟩
  | 105 => ⟨S640000, .f32⟩
  | 106 => ⟨S_, .f32⟩
  | 107 => ⟨S640000, .f32⟩
  | 108 => ⟨S640000, .f32⟩
  | 109 => ⟨S640000x1, .f32⟩
  | 110 => ⟨S128x128, .f32⟩
  | 111 => ⟨S128x128, .f32⟩
  | 112 => ⟨S32x128, .f32⟩
  | 113 => ⟨S1x128, .f32⟩
  | 114 => ⟨S1x128, .f32⟩
  | 115 => ⟨S1x128, .f32⟩
  | 116 => ⟨S1x128, .f32⟩
  | 117 => ⟨S640000x128, .f32⟩
  | 118 => ⟨S_, .f32⟩
  | 119 => ⟨S50000x128, .f32⟩
  | 120 => ⟨S640000x1, .i32⟩
  | 121 => ⟨S50000x128, .f32⟩
  | 122 => ⟨S128x128, .f32⟩
  | 123 => ⟨S128x128, .f32⟩
  | 124 => ⟨S1x128, .f32⟩
  | 125 => ⟨S1x128, .f32⟩
  | 126 => ⟨S1x128, .f32⟩
  | 127 => ⟨S1x128, .f32⟩
  | _ => ⟨S50000x128, .f32⟩

abbrev hbmTy0_1 (i : Nat) : BufTy := match i % 128 with
  | 0 => ⟨S1x128, .f32⟩
  | 1 => ⟨S50000x1, .f32⟩
  | 2 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S6400x128, .f32⟩
  | .local _ .vmem, ⟨1, _⟩ => ⟨S6400x128, .f32⟩
  | .local _ .vmem, ⟨2, _⟩ => ⟨S6400x128, .f32⟩
  | .local _ .vmem, ⟨3, _⟩ => ⟨S6400x128, .f32⟩
  | .local _ .vmem, ⟨4, _⟩ => ⟨S6400x32, .f32⟩
  | .local _ .vmem, ⟨5, _⟩ => ⟨S6400x32, .f32⟩
  | .local _ .vmem, ⟨6, _⟩ => ⟨S6400x1, .f32⟩
  | .local _ .vmem, ⟨7, _⟩ => ⟨S6400x1, .f32⟩
  | .local _ .vmem, ⟨8, _⟩ => ⟨S6400x1, .f32⟩
  | .local _ .vmem, ⟨9, _⟩ => ⟨S6400x1, .f32⟩
  | .local _ .vmem, ⟨10, _⟩ => ⟨S128x128, .f32⟩
  | .local _ .vmem, ⟨11, _⟩ => ⟨S128x128, .f32⟩
  | .local _ .vmem, ⟨12, _⟩ => ⟨S32x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S6400x128, .f32⟩
  | .local _ .vmem, ⟨19, _⟩ => ⟨S6400x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x1, .f32⟩
  | .local _ .vmem, ⟨25, _⟩ => ⟨S5000x1, .f32⟩
  | .local _ .vmem, ⟨26, _⟩ => ⟨S128x128, .f32⟩
  | .local _ .vmem, ⟨27, _⟩ => ⟨S128x128, .f32⟩
  | .local _ .vmem, ⟨28, _⟩ => ⟨S1x128, .f32⟩
  | .local _ .vmem, ⟨29, _⟩ => ⟨S1x128, .f32⟩
  | .local _ .vmem, ⟨30, _⟩ => ⟨S128x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v4 : Ref sig .tc := ⟨.hbm, 40, rfl⟩
abbrev main_call1_c : Ref sig .tc := ⟨.hbm, 41, rfl⟩
abbrev main_call1_v0 : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_c_1 : Ref sig .tc := ⟨.hbm, 49, rfl⟩
abbrev main_call1_c_2 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_3 : Ref sig .tc := ⟨.hbm, 57, rfl⟩
abbrev main_call1_v12 : Ref sig .tc := ⟨.hbm, 58, rfl⟩
abbrev main_call1_v13 : Ref sig .tc := ⟨.hbm, 59, rfl⟩
abbrev main_call1_v14 : Ref sig .tc := ⟨.hbm, 60, rfl⟩
abbrev main_call1_cst : Ref sig .tc := ⟨.hbm, 61, rfl⟩
abbrev main_call1_v15 : Ref sig .tc := ⟨.hbm, 62, rfl⟩
abbrev main_v5 : Ref sig .tc := ⟨.hbm, 63, rfl⟩
abbrev main_call2_c : Ref sig .tc := ⟨.hbm, 64, rfl⟩
abbrev main_call2_v0 : Ref sig .tc := ⟨.hbm, 65, rfl⟩
abbrev main_call2_v1 : Ref sig .tc := ⟨.hbm, 66, rfl⟩
abbrev main_call2_c_0 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_v5 : Ref sig .tc := ⟨.hbm, 71, rfl⟩
abbrev main_call2_c_1 : Ref sig .tc := ⟨.hbm, 72, rfl⟩
abbrev main_call2_c_2 : Ref sig .tc := ⟨.hbm, 73, rfl⟩
abbrev main_call2_v6 : Ref sig .tc := ⟨.hbm, 74, rfl⟩
abbrev main_call2_v7 : Ref sig .tc := ⟨.hbm, 75, rfl⟩
abbrev main_call2_v8 : Ref sig .tc := ⟨.hbm, 76, rfl⟩
abbrev main_call2_v9 : Ref sig .tc := ⟨.hbm, 77, rfl⟩
abbrev main_call2_v10 : Ref sig .tc := ⟨.hbm, 78, rfl⟩
abbrev main_call2_v11 : Ref sig .tc := ⟨.hbm, 79, rfl⟩
abbrev main_call2_c_3 : Ref sig .tc := ⟨.hbm, 80, rfl⟩
abbrev main_call2_v12 : Ref sig .tc := ⟨.hbm, 81, rfl⟩
abbrev main_call2_v13 : Ref sig .tc := ⟨.hbm, 82, rfl⟩
abbrev main_call2_cst : Ref sig .tc := ⟨.hbm, 83, rfl⟩
abbrev main_call2_v14 : Ref sig .tc := ⟨.hbm, 84, rfl⟩
abbrev main_v6 : Ref sig .tc := ⟨.hbm, 85, rfl⟩
abbrev main_v7 : Ref sig .tc := ⟨.hbm, 86, rfl⟩
abbrev main_call3_c : Ref sig .tc := ⟨.hbm, 87, rfl⟩
abbrev main_call3_v0 : Ref sig .tc := ⟨.hbm, 88, rfl⟩
abbrev main_call3_v1 : Ref sig .tc := ⟨.hbm, 89, rfl⟩
abbrev main_call3_c_0 : Ref sig .tc := ⟨.hbm, 90, rfl⟩
abbrev main_call3_v2 : Ref sig .tc := ⟨.hbm, 91, rfl⟩
abbrev main_call3_v3 : Ref sig .tc := ⟨.hbm, 92, rfl⟩
abbrev main_call3_v4 : Ref sig .tc := ⟨.hbm, 93, rfl⟩
abbrev main_call3_v5 : Ref sig .tc := ⟨.hbm, 94, rfl⟩
abbrev main_call3_c_1 : Ref sig .tc := ⟨.hbm, 95, rfl⟩
abbrev main_call3_c_2 : Ref sig .tc := ⟨.hbm, 96, rfl⟩
abbrev main_call3_v6 : Ref sig .tc := ⟨.hbm, 97, rfl⟩
abbrev main_call3_v7 : Ref sig .tc := ⟨.hbm, 98, rfl⟩
abbrev main_call3_v8 : Ref sig .tc := ⟨.hbm, 99, rfl⟩
abbrev main_call3_v9 : Ref sig .tc := ⟨.hbm, 100, rfl⟩
abbrev main_call3_v10 : Ref sig .tc := ⟨.hbm, 101, rfl⟩
abbrev main_call3_v11 : Ref sig .tc := ⟨.hbm, 102, rfl⟩
abbrev main_call3_c_3 : Ref sig .tc := ⟨.hbm, 103, rfl⟩
abbrev main_call3_v12 : Ref sig .tc := ⟨.hbm, 104, rfl⟩
abbrev main_call3_v13 : Ref sig .tc := ⟨.hbm, 105, rfl⟩
abbrev main_call3_cst : Ref sig .tc := ⟨.hbm, 106, rfl⟩
abbrev main_call3_v14 : Ref sig .tc := ⟨.hbm, 107, rfl⟩
abbrev main_v8 : Ref sig .tc := ⟨.hbm, 108, rfl⟩
abbrev main_v9 : Ref sig .tc := ⟨.hbm, 109, rfl⟩
abbrev main_v10 : Ref sig .tc := ⟨.hbm, 110, rfl⟩
abbrev main_v11 : Ref sig .tc := ⟨.hbm, 111, rfl⟩
abbrev main_v12 : Ref sig .tc := ⟨.hbm, 112, rfl⟩
abbrev main_v13 : Ref sig .tc := ⟨.hbm, 113, rfl⟩
abbrev main_v14 : Ref sig .tc := ⟨.hbm, 114, rfl⟩
abbrev main_v15 : Ref sig .tc := ⟨.hbm, 115, rfl⟩
abbrev main_v16 : Ref sig .tc := ⟨.hbm, 116, rfl⟩
abbrev main_v17 : Ref sig .tc := ⟨.hbm, 117, rfl⟩
abbrev main_cst : Ref sig .tc := ⟨.hbm, 118, rfl⟩
abbrev main_v18 : Ref sig .tc := ⟨.hbm, 119, rfl⟩
abbrev main_v19 : Ref sig .tc := ⟨.hbm, 120, rfl⟩
abbrev main_v20 : Ref sig .tc := ⟨.hbm, 121, rfl⟩
abbrev main_v21 : Ref sig .tc := ⟨.hbm, 122, rfl⟩
abbrev main_v22 : Ref sig .tc := ⟨.hbm, 123, rfl⟩
abbrev main_v23 : Ref sig .tc := ⟨.hbm, 124, rfl⟩
abbrev main_v24 : Ref sig .tc := ⟨.hbm, 125, rfl⟩
abbrev main_v25 : Ref sig .tc := ⟨.hbm, 126, rfl⟩
abbrev main_v26 : Ref sig .tc := ⟨.hbm, 127, rfl⟩
abbrev main_v27 : Ref sig .tc := ⟨.hbm, 128, rfl⟩
abbrev main_v28 : Ref sig .tc := ⟨.hbm, 129, rfl⟩
abbrev main_v29 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg4_0 : Ref sig .tc := ⟨.vmem, 27, rfl⟩
abbrev cc1_stg5_0 : Ref sig .tc := ⟨.vmem, 28, rfl⟩
abbrev cc1_stg6_0 : Ref sig .tc := ⟨.vmem, 29, rfl⟩
abbrev cc1_stg7_0 : Ref sig .tc := ⟨.vmem, 30, rfl⟩
abbrev cc1_stg8_0 : Ref sig .tc := ⟨.vmem, 31, rfl⟩
abbrev cc1_stg9_0 : Ref sig .tc := ⟨.vmem, 32, rfl⟩
abbrev cc1_stg10_0 : Ref sig .tc := ⟨.vmem, 33, rfl⟩
abbrev cc1_stg11_0 : Ref sig .tc := ⟨.vmem, 34, rfl⟩
abbrev cc1_stg11_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem4_0 : DmaSem sig := 27
abbrev cc1_sem5_0 : DmaSem sig := 28
abbrev cc1_sem6_0 : DmaSem sig := 29
abbrev cc1_sem7_0 : DmaSem sig := 30
abbrev cc1_sem8_0 : DmaSem sig := 31
abbrev cc1_sem9_0 : DmaSem sig := 32
abbrev cc1_sem10_0 : DmaSem sig := 33
abbrev cc1_sem11_0 : DmaSem sig := 34
abbrev cc1_sem11_1 : DmaSem sig := 35

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6400x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S6400x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S6400x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S6400x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S5000x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  slices_S290x128_S128x128_0_0 : S290x128.Slices ![0, 0] S128x128
  slices_S290x128_S128x128_128_0 : S290x128.Slices ![128, 0] S128x128
  slices_S290x128_S32x128_256_0 : S290x128.Slices ![256, 0] S32x128
  slices_S290x128_S1x128_288_0 : S290x128.Slices ![288, 0] S1x128
  slices_S290x128_S1x128_289_0 : S290x128.Slices ![289, 0] S1x128
  shapeCasts_S128_S1x128 : S128.ShapeCasts S1x128
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  inb_S6400x32_S6400x32_0_0 : ∀ a, (![0, 0] : Fin 2 → Nat) a + S6400x32.size a ≤ S6400x32.size a
  h_S6400x32 : 0 < S6400x32.numel
  inb_S6400x1_S6400x1_0_0 : ∀ a, (![0, 0] : Fin 2 → Nat) a + S6400x1.size a ≤ S6400x1.size a
  h_S6400x1 : 0 < S6400x1.numel
  shapeCasts_S6400x1_S6400x1 : S6400x1.ShapeCasts S6400x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S6400x1_S6400x128 : S6400x1.Broadcasts S6400x128
  broadcasts_S1x128_S6400x128 : S1x128.Broadcasts S6400x128
  bcast_S_S50000x128 : S_.BroadcastsInDim S50000x128 (![] : Fin 0 → Fin S50000x128.rank)
  slices_S257x128_S128x128_0_0 : S257x128.Slices ![0, 0] S128x128
  slices_S257x128_S128x128_128_0 : S257x128.Slices ![128, 0] S128x128
  slices_S257x128_S1x128_256_0 : S257x128.Slices ![256, 0] S1x128
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  broadcasts_S1x128_S5000x128 : S1x128.Broadcasts S5000x128
  reduces_S5000x128_S5000 : S5000x128.Reduces [1] S5000
  shapeCasts_S5000_S5000x1 : S5000.ShapeCasts S5000x1
  gather_S50000x128_S640000x1_S640000x128_1_0_n_n_0_1_1128_wf : GatherDims.WF S50000x128 S640000x1 S640000x128 [1] [0] [] [0] [] 1 ![1, 128]
  gather_S50000_S640000x1_S640000_n_0_n_n_0_1_1_wf : GatherDims.WF S50000 S640000x1 S640000 [] [0] [] [0] [] 1 ![1]
  dot_S6400x128_S128x128_S6400x128_1_0_0_1_n_n_wf : DotDims.WF S6400x128 S128x128 S6400x128 [1] [0] [0] [1] [] []
  dot_S6400x32_S32x128_S6400x128_1_0_0_1_n_n_wf : DotDims.WF S6400x32 S32x128 S6400x128 [1] [0] [0] [1] [] []
  scatter_S50000x128_S640000x1_S640000x128_1_0_0_1_wf : ScatterDims.WF S50000x128 S640000x1 S640000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x128.size a ≤ S640000x128.size a
  hwx0_0 : ∀ i : grid0.Coords, EltTy.bits .f32 = 32 ∨ (Rect.block (s := S640000x128) S6400x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x128.size a ≤ S640000x128.size a
  hwx0_1 : ∀ i : grid0.Coords, EltTy.bits .f32 = 32 ∨ (Rect.block (s := S640000x128) S6400x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6400x32.size a ≤ S640000x32.size a
  hwx0_2 : ∀ i : grid0.Coords, EltTy.bits .f32 = 32 ∨ (Rect.block (s := S640000x32) S6400x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S6400x1.size a ≤ S640000x1.size a
  hwx0_3 : ∀ i : grid0.Coords, EltTy.bits .f32 = 32 ∨ (Rect.block (s := S640000x1) S6400x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S6400x1.size a ≤ S640000x1.size a
  hwx0_4 : ∀ i : grid0.Coords, EltTy.bits .f32 = 32 ∨ (Rect.block (s := S640000x1) S6400x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x128.size a ≤ S32x128.size a
  hwx0_7 : ∀ i : grid0.Coords, EltTy.bits .f32 = 32 ∨ (Rect.block (s := S32x128) S32x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .f32 = 32 ∨ (Rect.block (s := S128x128) S128x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S6400x128.size a ≤ S640000x128.size a
  hwx0_13 : ∀ i : grid0.Coords, EltTy.bits .f32 = 32 ∨ (Rect.block (s := S640000x128) S6400x128.size (cc0_transform_13 i) (hinb0_13 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x128.size a ≤ S1x128.size a
  hwx1_10 : ∀ i : grid1.Coords, EltTy.bits .f32 = 32 ∨ (Rect.block (s := S1x128) S1x128.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S5000x128.size a ≤ S50000x128.size a
  hwx1_11 : ∀ i : grid1.Coords, EltTy.bits .f32 = 32 ∨ (Rect.block (s := S50000x128) S5000x128.size (cc1_transform_11 i) (hinb1_11 i)).WholeWords (EltTy.packing .f32)

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def gather_S50000_S640000x1_S640000_n_0_n_n_0_1_1 : GatherDims S50000 S640000x1 S640000 where
  offsetDims := []
  collapsedSliceDims := [0]
  operandBatchingDims := []
  startIndicesBatchingDims := []
  startIndexMap := [0]
  indexVectorDim := 1
  sliceSizes := ![1]
  wf := gather_S50000_S640000x1_S640000_n_0_n_n_0_1_1_wf
def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf
def dot_S6400x32_S32x128_S6400x128_1_0_0_1_n_n : DotDims S6400x32 S32x128 S6400x128 where
  lhsContracting := [1]
  rhsContracting := [0]
  lhsNonContracting := [0]
  rhsNonContracting := [1]
  lhsBatch := []
  rhsBatch := []
  wf := dot_S6400x32_S32x128_S6400x128_1_0_0_1_n_n_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v4) S6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S6400x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S6400x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S6400x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S6400x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S32x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v14) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v15) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg6) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v16) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v17) S6400x128.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v21) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v23) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v24) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg10) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v25) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v26) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v27) S1x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v29) S5000x128.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S640000x32 : Shape := ⟨2, ![640000, 32]⟩
abbrev S50000 : Shape := ⟨1, ![50000]⟩
abbrev S290x128 : Shape := ⟨2, ![290, 128]⟩
abbrev S128 : Shape := ⟨1, ![128]⟩
abbrev S128x128 : Shape := ⟨2, ![128, 128]⟩
abbrev S257x128 : Shape := ⟨2, ![257, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S640000x290 : Shape := ⟨2, ![640000, 290]⟩
abbrev S1x128 : Shape := ⟨2, ![1, 128]⟩
abbrev S50000x1 : Shape := ⟨2, ![50000, 1]⟩
abbrev S50000x257 : Shape := ⟨2, ![50000, 257]⟩

abbrev nBuf : Space → Nat
  | .hbm => 127
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S640000x32, .f32⟩
  | .hbm, ⟨3, _⟩ => ⟨S50000, .f32⟩
  | .hbm, ⟨4, _⟩ => ⟨S290x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S257x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S1x640000, .i32⟩
  | .hbm, ⟨15, _⟩ => ⟨S640000, .i32⟩
  | .hbm, ⟨16, _⟩ => ⟨S1x640000, .i32⟩
  | .hbm, ⟨17, _⟩ => ⟨S640000, .i32⟩
  | .hbm, ⟨18, _⟩ => ⟨S_, .i32⟩
  | .hbm, ⟨19, _⟩ => ⟨S640000, .i32⟩
  | .hbm, ⟨20, _⟩ => ⟨S640000, .i1⟩
  | .hbm, ⟨21, _⟩ => ⟨S_, .i32⟩
  | .hbm, ⟨22, _⟩ => ⟨S640000, .i32⟩
  | .hbm, ⟨23, _⟩ => ⟨S640000, .i32⟩
  | .hbm, ⟨24, _⟩ => ⟨S640000, .i32⟩
  | .hbm, ⟨25, _⟩ => ⟨S640000x1, .i32⟩
  | .hbm, ⟨26, _⟩ => ⟨S640000x128, .f32⟩
  | .hbm, ⟨27, _⟩ => ⟨S_, .i32⟩
  | .hbm, ⟨28, _⟩ => ⟨S640000, .i32⟩
  | .hbm, ⟨29, _⟩ => ⟨S640000, .i1⟩
  | .hbm, ⟨30, _⟩ => ⟨S_, .i32⟩
  | .hbm, ⟨31, _⟩ => ⟨S640000, .i32⟩
  | .hbm, ⟨32, _⟩ => ⟨S640000, .i32⟩
  | .hbm, ⟨33, _⟩ => ⟨S640000, .i32⟩
  | .hbm, ⟨34, _⟩ => ⟨S640000x1, .i32⟩
  | .hbm, ⟨35, _⟩ => ⟨S640000x128, .f32⟩
  | .hbm, ⟨36, _⟩ => ⟨S_, .i32⟩
  | .hbm, ⟨37, _⟩ => ⟨S640000, .i32⟩
  | .hbm, ⟨38, _⟩ => ⟨S640000, .i1⟩
  | .hbm, ⟨39, _⟩ => ⟨S_, .i32⟩
  | .hbm, ⟨40, _⟩ => ⟨S640000, .i32⟩
  | .hbm, ⟨41, _⟩ => ⟨S640000, .i32⟩
  | .hbm, ⟨42, _⟩ => ⟨S640000, .i32⟩
  | .hbm, ⟨43, _⟩ => ⟨S640000x1, .i32⟩
  | .hbm, ⟨44, _⟩ => ⟨S640000, .f32⟩
  | .hbm, ⟨45, _⟩ => ⟨S640000x1, .f32⟩
  | .hbm, ⟨46, _⟩ => ⟨S_, .i32⟩
  | .hbm, ⟨47, _⟩ => ⟨S640000, .i32⟩
  | .hbm, ⟨48, _⟩ => ⟨S640000, .i1⟩
  | .hbm, ⟨49, _⟩ => ⟨S_, .i32⟩
  | .hbm, ⟨50, _⟩ => ⟨S640000, .i32⟩
  | .hbm, ⟨51, _⟩ => ⟨S640000, .i32⟩
  | .hbm, ⟨52, _⟩ => ⟨S640000, .i32⟩
  | .hbm, ⟨53, _⟩ => ⟨S640000x1, .i32⟩
  | .hbm, ⟨54, _⟩ => ⟨S640000, .f32⟩
  | .hbm, ⟨55, _⟩ => ⟨S640000x1, .f32⟩
  | .hbm, ⟨56, _⟩ => ⟨S640000x290, .f32⟩
  | .hbm, ⟨57, _⟩ => ⟨S640000x128, .f32⟩
  | .hbm, ⟨58, _⟩ => ⟨S1x128, .f32⟩
  | .hbm, ⟨59, _⟩ => ⟨S640000x128, .f32⟩
  | .hbm, ⟨60, _⟩ => ⟨S640000x128, .f32⟩
  | .hbm, ⟨61, _⟩ => ⟨S640000x128, .f32⟩
  | .hbm, ⟨62, _⟩ => ⟨S640000x128, .f32⟩
  | .hbm, ⟨63, _⟩ => ⟨S_, .f32⟩
  | .hbm, ⟨64, _⟩ => ⟨S640000x128, .f32⟩
  | .hbm, ⟨65, _⟩ => ⟨S640000x128, .f32⟩
  | .hbm, ⟨66, _⟩ => ⟨S_, .f32⟩
  | .hbm, ⟨67, _⟩ => ⟨S640000x128, .f32⟩
  | .hbm, ⟨68, _⟩ => ⟨S640000x128, .f32⟩
  | .hbm, ⟨69, _⟩ => ⟨S640000x128, .f32⟩
  | .hbm, ⟨70, _⟩ => ⟨S640000x128, .f32⟩
  | .hbm, ⟨71, _⟩ => ⟨S1x128, .f32⟩
  | .hbm, ⟨72, _⟩ => ⟨S640000x128, .f32⟩
  | .hbm, ⟨73, _⟩ => ⟨S640000x128, .f32⟩
  | .hbm, ⟨74, _⟩ => ⟨S_, .f32⟩
  | .hbm, ⟨75, _⟩ => ⟨S50000x128, .f32⟩
  | .hbm, ⟨76, _⟩ => ⟨S640000x1, .i32⟩
  | .hbm, ⟨77, _⟩ => ⟨S50000x128, .f32⟩
  | .hbm, ⟨78, _⟩ => ⟨S50000x1, .f32⟩
  | .hbm, ⟨79, _⟩ => ⟨S50000x257, .f32⟩
  | .hbm, ⟨80, _⟩ => ⟨S50000x128, .f32⟩
  | .hbm, ⟨81, _⟩ => ⟨S1x128, .f32⟩
  | .hbm, ⟨82, _⟩ => ⟨S50000x128, .f32⟩
  | .hbm, ⟨83, _⟩ => ⟨S50000x128, .f32⟩
  | .hbm, ⟨84, _⟩ => ⟨S50000x128, .f32⟩
  | .hbm, ⟨85, _⟩ => ⟨S50000x128, .f32⟩
  | .hbm, ⟨86, _⟩ => ⟨S_, .f32⟩
  | .hbm, ⟨87, _⟩ => ⟨S50000x128, .f32⟩
  | .hbm, ⟨88, _⟩ => ⟨S50000x128, .f32⟩
  | .hbm, ⟨89, _⟩ => ⟨S_, .f32⟩
  | .hbm, ⟨90, _⟩ => ⟨S50000x128, .f32⟩
  | .hbm, ⟨91, _⟩ => ⟨S50000x128, .f32⟩
  | .hbm, ⟨92, _⟩ => ⟨S50000x128, .f32⟩
  | .hbm, ⟨93, _⟩ => ⟨S50000x128, .f32⟩
  | .hbm, ⟨94, _⟩ => ⟨S1x128, .f32⟩
  | .hbm, ⟨95, _⟩ => ⟨S50000x128, .f32⟩
  | .hbm, ⟨96, _⟩ => ⟨S50000x128, .f32⟩
  | .hbm, ⟨97, _⟩ => ⟨S50000x128, .f32⟩
  | .hbm, ⟨98, _⟩ => ⟨S_, .f32⟩
  | .hbm, ⟨99, _⟩ => ⟨S50000, .f32⟩
  | .hbm, ⟨100, _⟩ => ⟨S50000x1, .f32⟩
  | .hbm, ⟨101, _⟩ => ⟨S_, .f32⟩
  | .hbm, ⟨102, _⟩ => ⟨S50000x1, .f32⟩
  | .hbm, ⟨103, _⟩ => ⟨S50000x1, .f32⟩
  | .hbm, ⟨104, _⟩ => ⟨S50000x128, .f32⟩
  | .hbm, ⟨105, _⟩ => ⟨S50000x128, .f32⟩
  | .hbm, ⟨106, _⟩ => ⟨S50000x128, .f32⟩
  | .hbm, ⟨107, _⟩ => ⟨S_, .f32⟩
  | .hbm, ⟨108, _⟩ => ⟨S50000, .f32⟩
  | .hbm, ⟨109, _⟩ => ⟨S50000x1, .f32⟩
  | .hbm, ⟨110, _⟩ => ⟨S_, .f32⟩
  | .hbm, ⟨111, _⟩ => ⟨S50000x1, .f32⟩
  | .hbm, ⟨112, _⟩ => ⟨S50000x1, .f32⟩
  | .hbm, ⟨113, _⟩ => ⟨S50000x128, .f32⟩
  | .hbm, ⟨114, _⟩ => ⟨S50000x128, .f32⟩
  | .hbm, ⟨115, _⟩ => ⟨S_, .f32⟩
  | .hbm, ⟨116, _⟩ => ⟨S50000x1, .f32⟩
  | .hbm, ⟨117, _⟩ => ⟨S50000x1, .f32⟩
  | .hbm, ⟨118, _⟩ => ⟨S50000x1, .f32⟩
  | .hbm, ⟨119, _⟩ => ⟨S50000x128, .f32⟩
  | .hbm, ⟨120, _⟩ => ⟨S50000x128, .f32⟩
  | .hbm, ⟨121, _⟩ => ⟨S1x128, .f32⟩
  | .hbm, ⟨122, _⟩ => ⟨S50000x128, .f32⟩
  | .hbm, ⟨123, _⟩ => ⟨S50000x128, .f32⟩
  | .hbm, ⟨124, _⟩ => ⟨S1x128, .f32⟩
  | .hbm, ⟨125, _⟩ => ⟨S50000x128, .f32⟩
  | .hbm, ⟨126, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_1 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_5 : Ref sig .tc := ⟨.hbm, 46, rfl⟩
abbrev main_v26 : Ref sig .tc := ⟨.hbm, 47, rfl⟩
abbrev main_v27 : Ref sig .tc := ⟨.hbm, 48, rfl⟩
abbrev main_c_6 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_call0_v0 : Ref sig .tc := ⟨.hbm, 61, rfl⟩
abbrev main_call0_v1 : Ref sig .tc := ⟨.hbm, 62, rfl⟩
abbrev main_call0_cst : Ref sig .tc := ⟨.hbm, 63, rfl⟩
abbrev main_call0_v2 : Ref sig .tc := ⟨.hbm, 64, rfl⟩
abbrev main_call0_v3 : Ref sig .tc := ⟨.hbm, 65, rfl⟩
abbrev main_call0_cst_0 : Ref sig .tc := ⟨.hbm, 66, rfl⟩
abbrev main_call0_v4 : Ref sig .tc := ⟨.hbm, 67, rfl⟩
abbrev main_call0_v5 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_call1_v0 : Ref sig .tc := ⟨.hbm, 84, rfl⟩
abbrev main_call1_v1 : Ref sig .tc := ⟨.hbm, 85, rfl⟩
abbrev main_call1_cst : Ref sig .tc := ⟨.hbm, 86, rfl⟩
abbrev main_call1_v2 : Ref sig .tc := ⟨.hbm, 87, rfl⟩
abbrev main_call1_v3 : Ref sig .tc := ⟨.hbm, 88, rfl⟩
abbrev main_call1_cst_0 : Ref sig .tc := ⟨.hbm, 89, rfl⟩
abbrev main_call1_v4 : Ref sig .tc := ⟨.hbm, 90, rfl⟩
abbrev main_call1_v5 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_cst_7 : Ref sig .tc := ⟨.hbm, 98, rfl⟩
abbrev main_v59 : Ref sig .tc := ⟨.hbm, 99, rfl⟩
abbrev main_v60 : Ref sig .tc := ⟨.hbm, 100, rfl⟩
abbrev main_cst_8 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_cst_9 : Ref sig .tc := ⟨.hbm, 107, rfl⟩
abbrev main_v66 : Ref sig .tc := ⟨.hbm, 108, rfl⟩
abbrev main_v67 : Ref sig .tc := ⟨.hbm, 109, rfl⟩
abbrev main_cst_10 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_cst_11 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x128_S640000x32_S640000x1_S640000x1_S640000x290_d1 : Shape.Concatenates [S640000x128, S640000x128, S640000x32, S640000x1, S640000x1] S640000x290 1
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  concatenates_S50000x128_S50000x128_S50000x1_S50000x257_d1 : Shape.Concatenates [S50000x128, S50000x128, S50000x1] S50000x257 1
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  gather_S50000x128_S640000x1_S640000x128_1_0_n_n_0_1_1128_wf : GatherDims.WF S50000x128 S640000x1 S640000x128 [1] [0] [] [0] [] 1 ![1, 128]
  gather_S50000_S640000x1_S640000_n_0_n_n_0_1_1_wf : GatherDims.WF S50000 S640000x1 S640000 [] [0] [] [0] [] 1 ![1]
  dot_S640000x290_S290x128_S640000x128_1_0_0_1_n_n_wf : DotDims.WF S640000x290 S290x128 S640000x128 [1] [0] [0] [1] [] []
  dot_S640000x128_S128x128_S640000x128_1_0_0_1_n_n_wf : DotDims.WF S640000x128 S128x128 S640000x128 [1] [0] [0] [1] [] []
  scatter_S50000x128_S640000x1_S640000x128_1_0_0_1_wf : ScatterDims.WF S50000x128 S640000x1 S640000x128 [1] [0] [0] 1
  dot_S50000x257_S257x128_S50000x128_1_0_0_1_n_n_wf : DotDims.WF S50000x257 S257x128 S50000x128 [1] [0] [0] [1] [] []
  dot_S50000x128_S128x128_S50000x128_1_0_0_1_n_n_wf : DotDims.WF S50000x128 S128x128 S50000x128 [1] [0] [0] [1] [] []

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def gather_S50000_S640000x1_S640000_n_0_n_n_0_1_1 : GatherDims S50000 S640000x1 S640000 where
  offsetDims := []
  collapsedSliceDims := [0]
  operandBatchingDims := []
  startIndicesBatchingDims := []
  startIndexMap := [0]
  indexVectorDim := 1
  sliceSizes := ![1]
  wf := gather_S50000_S640000x1_S640000_n_0_n_n_0_1_1_wf
def dot_S640000x290_S290x128_S640000x128_1_0_0_1_n_n : DotDims S640000x290 S290x128 S640000x128 where
  lhsContracting := [1]
  rhsContracting := [0]
  lhsNonContracting := [0]
  rhsNonContracting := [1]
  lhsBatch := []
  rhsBatch := []
  wf := dot_S640000x290_S290x128_S640000x128_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S50000x257_S257x128_S50000x128_1_0_0_1_n_n : DotDims S50000x257 S257x128 S50000x128 where
  lhsContracting := [1]
  rhsContracting := [0]
  lhsNonContracting := [0]
  rhsNonContracting := [1]
  lhsBatch := []
  rhsBatch := []
  wf := dot_S50000x257_S257x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  The layer both programs compute, entry by entry over the extended reals.

  An edge `e` with gathered endpoint rows `ns e`, `nd e`, its own features `ef e` and the two gathered
  coordination numbers `cs e`, `cd e` gets the message
      msg e = silu (ns e · Wa + nd e · Wb + ef e · Wc + cs e · wcs + cd e · wcd + b1) · W2 + b2,
  where `Wa, Wb, Wc, wcs, wcd` are the row bands 0–127, 128–255, 256–287, 288, 289 of the first weight matrix.
  The messages are summed into their destination nodes (`aggf`, kept abstract), and a node `n` becomes
      out n = layerNorm (nf n + silu (nf n · Ua + agg n · Ub + co n · uc + ub1) · U2 + ub2),
  with `Ua, Ub, uc` the row bands 0–127, 128–255, 256 of the update's first weight matrix and the layer norm
  over the 128 features: centred by the mean, scaled by `rsqrt (variance + ε)`, then by `γ`, shifted by `β`.

  Everything is generic in the number of rows, so that one definition reads a block of rows and the whole array.
-/
import Idealize.ShloMosaic.PureOps.Ideal.Laws
import Idealize.ShloMosaic.Lib.ValueIdx

noncomputable section

open scoped BigOperators

namespace Cert.Spec

open Idealize.ShloMosaic Idealize.ShloMosaic.ValueIdx

/-- The single-precision word of 1.0 denotes the real 1. -/
theorem ofBits_one_f32 : Ideal.ofBits .f32 0x3F800000#32 = 1 := by
  simp [Ideal.ofBits, Ideal.ieee, -EReal.coe_mul]; norm_num

/-- Every entry of the edge list is a node number: `0 ≤ v < 50000` read as a signed integer. -/
def InRange (x1 : (⟨2, ![2, 640000]⟩ : Shape).Idx → BitVec 32) : Prop :=
  ∀ i, 0 ≤ (x1 i).toInt ∧ (x1 i).toInt < 50000

/-- `silu x = x · σ(x)`, with `σ` the logistic function `1 / (1 + e⁻ˣ)`. -/
def silu (x : EReal) : EReal := x * Ideal.logistic x

/-- Rows `off … off + n − 1` of a matrix with 128 columns. -/
def rowsOf {R n : ℕ} (W : (⟨2, ![R, 128]⟩ : Shape).Idx → EReal) (off : ℕ) (h : off + n ≤ R) :
    (⟨2, ![n, 128]⟩ : Shape).Idx → EReal :=
  fun i => W (ix2 (⟨off + (i 0).val, Nat.lt_of_lt_of_le (Nat.add_lt_add_left (i 0).isLt off) h⟩ : Fin R) (i 1))

/-- A vector of 128 entries as one row. -/
def rowVec (b : (⟨1, ![128]⟩ : Shape).Idx → EReal) : (⟨2, ![1, 128]⟩ : Shape).Idx → EReal := fun i => b (ix1 (i 1))

/-- A vector as one column. -/
def colVec {M : ℕ} (v : (⟨1, ![M]⟩ : Shape).Idx → EReal) : (⟨2, ![M, 1]⟩ : Shape).Idx → EReal := fun i => v (ix1 (i 0))

section Edge
variable {M : ℕ}
  (ns nd : (⟨2, ![M, 128]⟩ : Shape).Idx → EReal) (ef : (⟨2, ![M, 32]⟩ : Shape).Idx → EReal)
  (cs cd : (⟨2, ![M, 1]⟩ : Shape).Idx → EReal)
  (Wa Wb : (⟨2, ![128, 128]⟩ : Shape).Idx → EReal) (Wc : (⟨2, ![32, 128]⟩ : Shape).Idx → EReal)
  (wcs wcd b1 : (⟨2, ![1, 128]⟩ : Shape).Idx → EReal)
  (W2 : (⟨2, ![128, 128]⟩ : Shape).Idx → EReal) (b2 : (⟨2, ![1, 128]⟩ : Shape).Idx → EReal)

/-- The first layer of the edge network before its activation, at edge `e` and feature `j`. -/
def edgePre (e : Fin M) (j : Fin 128) : EReal :=
  (∑ k : Fin 128, ns (ix2 e k) * Wa (ix2 k j)) + (∑ k : Fin 128, nd (ix2 e k) * Wb (ix2 k j))
    + (∑ k : Fin 32, ef (ix2 e k) * Wc (ix2 k j))
    + cs (ix2 e (0 : Fin 1)) * wcs (ix2 (0 : Fin 1) j) + cd (ix2 e (0 : Fin 1)) * wcd (ix2 (0 : Fin 1) j)
    + b1 (ix2 (0 : Fin 1) j)

/-- The message of edge `e`, feature `j`. -/
def edgeMsg (e : Fin M) (j : Fin 128) : EReal :=
  (∑ k : Fin 128, silu (edgePre ns nd ef cs cd Wa Wb Wc wcs wcd b1 e k) * W2 (ix2 k j)) + b2 (ix2 (0 : Fin 1) j)

end Edge

/-- The divisor of a mean over 128 features, and the layer norm's ε, as the words both programs carry. -/
def c128 : EReal := Ideal.ofBits .f32 0x43000000#32
def ceps : EReal := Ideal.ofBits .f32 0x3727C5AC#32

/-- The mean of a row of 128 features. -/
def rowMean (r : Fin 128 → EReal) : EReal := Ideal.div (∑ k : Fin 128, r k) c128

/-- The layer norm of a row, at feature `j`. -/
def layerNorm (r : Fin 128 → EReal) (g be : (⟨2, ![1, 128]⟩ : Shape).Idx → EReal) (j : Fin 128) : EReal :=
  (r j - rowMean r) * Ideal.rsqrt (rowMean (fun k => (r k - rowMean r) * (r k - rowMean r)) + ceps)
    * g (ix2 (0 : Fin 1) j) + be (ix2 (0 : Fin 1) j)

section Node
variable {M : ℕ}
  (nf agg : (⟨2, ![M, 128]⟩ : Shape).Idx → EReal) (co : (⟨2, ![M, 1]⟩ : Shape).Idx → EReal)
  (Ua Ub : (⟨2, ![128, 128]⟩ : Shape).Idx → EReal) (uc ub1 : (⟨2, ![1, 128]⟩ : Shape).Idx → EReal)
  (U2 : (⟨2, ![128, 128]⟩ : Shape).Idx → EReal) (ub2 g be : (⟨2, ![1, 128]⟩ : Shape).Idx → EReal)

/-- The first layer of the update network before its activation, at node `n` and feature `j`. -/
def nodePre (n : Fin M) (j : Fin 128) : EReal :=
  (∑ k : Fin 128, nf (ix2 n k) * Ua (ix2 k j)) + (∑ k : Fin 128, agg (ix2 n k) * Ub (ix2 k j))
    + co (ix2 n (0 : Fin 1)) * uc (ix2 (0 : Fin 1) j) + ub1 (ix2 (0 : Fin 1) j)

/-- The node's features plus its update, before the layer norm. -/
def resid (n : Fin M) (j : Fin 128) : EReal :=
  nf (ix2 n j) + ((∑ k : Fin 128, silu (nodePre nf agg co Ua Ub uc ub1 n k) * U2 (ix2 k j)) + ub2 (ix2 (0 : Fin 1) j))

/-- The layer's output at node `n`, feature `j`. -/
def nodeOut (n : Fin M) (j : Fin 128) : EReal :=
  layerNorm (fun k => resid nf agg co Ua Ub uc ub1 U2 ub2 n k) g be j

end Node

/-- The whole layer from the gathered edge operands, the aggregation `aggf` of messages into nodes, and the
    arguments as launched. -/
def layer (ns nd : (⟨2, ![640000, 128]⟩ : Shape).Idx → EReal) (ef : (⟨2, ![640000, 32]⟩ : Shape).Idx → EReal)
    (cs cd : (⟨2, ![640000, 1]⟩ : Shape).Idx → EReal)
    (aggf : ((⟨2, ![640000, 128]⟩ : Shape).Idx → EReal) → ((⟨2, ![50000, 128]⟩ : Shape).Idx → EReal))
    (nf : (⟨2, ![50000, 128]⟩ : Shape).Idx → EReal) (co : (⟨1, ![50000]⟩ : Shape).Idx → EReal)
    (W1 : (⟨2, ![290, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (U1 : (⟨2, ![257, 128]⟩ : Shape).Idx → EReal) (ub1 : (⟨1, ![128]⟩ : Shape).Idx → EReal)
    (U2 : (⟨2, ![128, 128]⟩ : Shape).Idx → EReal) (ub2 g be : (⟨1, ![128]⟩ : Shape).Idx → EReal) :
    (⟨2, ![50000, 128]⟩ : Shape).Idx → EReal :=
  fun i =>
    nodeOut nf
      (aggf fun i' =>
        edgeMsg ns nd ef cs cd (rowsOf (n := 128) W1 0 (by decide)) (rowsOf (n := 128) W1 128 (by decide))
          (rowsOf (n := 32) W1 256 (by decide)) (rowsOf (n := 1) W1 288 (by decide)) (rowsOf (n := 1) W1 289 (by decide))
          (rowVec b1) W2 (rowVec b2) (i' 0) (i' 1))
      (colVec co) (rowsOf (n := 128) U1 0 (by decide)) (rowsOf (n := 128) U1 128 (by decide))
      (rowsOf (n := 1) U1 256 (by decide)) (rowVec ub1) U2 (rowVec ub2) (rowVec g) (rowVec be) (i 0) (i 1)

end Cert.Spec

end
-- ==== Proof.LibColumn.lean ====
/-
  Column vectors and one-axis reductions of a matrix, read at an index given by coordinates.

  A reduction of an `[a, b]` matrix with `keepdims` goes through three layout steps the library reads only in their
  row forms: the reduced `[a]` vector is cast to the column `[a, 1]`, and the column is broadcast back over
  `[a, b]`. Here those two are read at `(r, c)`, together with the reductions themselves at the ideal instance:
  the sum of a matrix along its columns or its rows as a `Fin`-indexed sum over `ix2`, and the maximum along the
  columns as the fold of `max` over the row — for the vector unit's reduction and for the host's alike.
-/
import Idealize.ShloMosaic.Lib.Pipeline.Value
import Idealize.ShloMosaic.Lib.ValueIdx
import Idealize.ShloMosaic.PureOps.Ideal.Laws

noncomputable section

open scoped BigOperators

namespace Cert.LibColumn

open Idealize.ShloMosaic Idealize.ShloMosaic.ValueIdx

/-! ## The layout steps of a keepdims reduction -/

section Layout
variable {α : Type}

/-- An `[a]` vector cast to the column `[a, 1]` reads, at `(r, u)`, the vector at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `[a, b]` reads, at `(r, c)`, the column's entry of row `r`. -/
theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Layout

/-! ## Which source index a reduced index and a coordinate name -/

/-- Reducing `[a, b]` along axis 1: over row `r`, coordinate `k` put back is `(r, k)`. -/
theorem lift_axis1 {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- Reducing `[a, b]` along axis 0: over column `t`, coordinate `k` put back is `(k, t)`. -/
theorem lift_axis0 {a b : ℕ} (h : (⟨2, ![a, b]⟩ : Shape).Reduces [0] (⟨1, ![b]⟩ : Shape)) (t : Fin b)
    (k : Fin ((⟨2, ![a, b]⟩ : Shape).size 0)) : h.lift (ix1 t) k = ix2 (⟨k.val, k.isLt⟩ : Fin a) t := by
  funext c; apply Fin.ext
  fin_cases c <;> rfl

/-! ## The reductions at the ideal instance -/

section Reductions
variable {φ : FTy}

/-- The vector unit's sum of a matrix along its columns is, at row `r`, the sum of that row. -/
theorem sumAxis1_apply {a b : ℕ} (v : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] ⟨1, ![a]⟩ v acc h hφ hacc (ix1 r) = ∑ k : Fin b, v (ix2 r k) :=
  (Ideal.multiReduction_add_single v acc h hφ hacc (ix1 r)).trans
    (Finset.sum_congr rfl fun k _ => congrArg v (lift_axis1 h r k))

/-- The vector unit's sum of a matrix along its rows is, at column `t`, the sum of that column. -/
theorem sumAxis0_apply {a b : ℕ} (v : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (t : Fin b) :
    multiReduction .add [0] ⟨1, ![b]⟩ v acc h hφ hacc (ix1 t) = ∑ k : Fin a, v (ix2 k t) :=
  (Ideal.multiReduction_add_single v acc h hφ hacc (ix1 t)).trans
    (Finset.sum_congr rfl fun k _ => congrArg v (lift_axis0 h t k))

/-- The vector unit's maximum of a matrix along its columns is, at row `r`, the fold of `max` over that row from
    the accumulator's value. -/
theorem maxAxis1_apply {a b : ℕ} (v : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ v acc h hφ hacc (ix1 r)
      = (Finset.univ : Finset (Fin b)).fold max (Ideal.ofBits φ acc) (fun k => v (ix2 r k)) :=
  (Ideal.multiReduction_maximumf_single v acc h hφ hacc (ix1 r)).trans
    (congrArg (fun f => (Finset.univ : Finset (Fin b)).fold max (Ideal.ofBits φ acc) f)
      (funext fun k => congrArg v (lift_axis1 h r k)))

/-- The host's reduce with a maximum body along the columns is, at row `r`, the same fold from the initial value. -/
theorem hostMaxAxis1_apply {a b : ℕ} {u : Shape} (x : FVec Ideal ⟨2, ![a, b]⟩ φ) (init : u.Idx → Ideal φ)
    (h' : (⟨2, ![a, b]⟩ : Shape).ReducesTo [1] (⟨1, ![a]⟩ : Shape))
    (h : (⟨2, ![a, b]⟩ : Shape).Reduces [1] (⟨1, ![a]⟩ : Shape)) (hu : 0 < u.numel) (r : Fin a) :
    Host.reduce FloatOps.maximumf x init h' hu (ix1 r)
      = (Finset.univ : Finset (Fin b)).fold max (init (Shape.Idx.first hu)) (fun k => x (ix2 r k)) :=
  (Host.reduce_eq_fold_single FloatOps.maximumf x init h' h hu (ix1 r)).trans
    (congrArg (fun f => (Finset.univ : Finset (Fin b)).fold max (init (Shape.Idx.first hu)) f)
      (funext fun k => congrArg x (lift_axis1 h r k)))

end Reductions

end Cert.LibColumn

end
-- ==== Proof.KVal0.lean ====
/-
  The edge network's launch: the array of messages it leaves.

  Grid point `t` stages rows `6400 t … 6400 t + 6399` of the five edge operands and the whole of every weight
  operand, and writes back the same rows of the output. A row of the output block depends only on the same row of
  the edge blocks, so block `t` of the result is the restriction of one function of the whole arrays, and the
  hundred blocks tile the 640000 rows.
-/
import proofs.«408877_j34849364640430_1_alg».proof.Proof.Gen.KernelIdeal.Frame
import proofs.«408877_j34849364640430_1_alg».proof.Proof.Spec
import proofs.«408877_j34849364640430_1_alg».proof.Proof.LibColumn
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

open scoped BigOperators

namespace Cert.KVal0

open Idealize.ShloMosaic Idealize.ShloMosaic.TcCoe Idealize.ShloMosaic.ValueIdx Idealize.SL.Sem
open Cert.KernelIdeal Cert.KernelIdeal.Gen

/-! ## The matrix products read at an entry

A product of a `[6400, K]` block with a `[K, 128]` weight into a zero accumulator is, at row `p` and column `q`,
the sum over `k < K` of the block's `(p, k)` entry times the weight's `(k, q)` entry: the contraction runs over the
block's axis 1 and the weight's axis 0, and each operand's other axis is carried by the output's. -/

theorem lhs128_0 (i : S6400x128.Idx) (r : dot_S6400x128_S128x128_S6400x128_1_0_0_1_n_n.contr.Idx) :
    (dot_S6400x128_S128x128_S6400x128_1_0_0_1_n_n.lhsIdx i r 0).val = (i 0).val := by
  unfold DotDims.lhsIdx
  rw [dif_neg (show ¬(0 : Fin S6400x128.rank) ∈ dot_S6400x128_S128x128_S6400x128_1_0_0_1_n_n.lhsBatch by decide), dif_pos (show (0 : Fin S6400x128.rank) ∈ dot_S6400x128_S128x128_S6400x128_1_0_0_1_n_n.lhsNonContracting by decide)]
  rfl
theorem lhs128_1 (i : S6400x128.Idx) (r : dot_S6400x128_S128x128_S6400x128_1_0_0_1_n_n.contr.Idx) :
    (dot_S6400x128_S128x128_S6400x128_1_0_0_1_n_n.lhsIdx i r 1).val = (r ⟨0, by decide⟩).val :=
  dot_S6400x128_S128x128_S6400x128_1_0_0_1_n_n.lhsIdx_val_of_single rfl i r
theorem rhs128_0 (i : S6400x128.Idx) (r : dot_S6400x128_S128x128_S6400x128_1_0_0_1_n_n.contr.Idx) :
    (dot_S6400x128_S128x128_S6400x128_1_0_0_1_n_n.rhsIdx i r 0).val = (r ⟨0, by decide⟩).val :=
  dot_S6400x128_S128x128_S6400x128_1_0_0_1_n_n.rhsIdx_val_of_single rfl i r
theorem rhs128_1 (i : S6400x128.Idx) (r : dot_S6400x128_S128x128_S6400x128_1_0_0_1_n_n.contr.Idx) :
    (dot_S6400x128_S128x128_S6400x128_1_0_0_1_n_n.rhsIdx i r 1).val = (i 1).val := by
  unfold DotDims.rhsIdx
  rw [dif_neg (show ¬(1 : Fin S128x128.rank) ∈ dot_S6400x128_S128x128_S6400x128_1_0_0_1_n_n.rhsBatch by decide), dif_pos (show (1 : Fin S128x128.rank) ∈ dot_S6400x128_S128x128_S6400x128_1_0_0_1_n_n.rhsNonContracting by decide)]
  rfl

/-- A `[6400, 128]` block times a `[128, 128]` weight, at `(p, q)`. -/
theorem matmul128_apply (x : FVec Ideal S6400x128 .f32) (w : FVec Ideal S128x128 .f32) (p : Fin 6400) (q : Fin 128) :
    matmul dot_S6400x128_S128x128_S6400x128_1_0_0_1_n_n none x w (constant (F := Ideal) S6400x128 .f32 0x00000000#32) (ix2 p q)
      = ∑ k : Fin 128, x (ix2 p k) * w (ix2 k q) := by
  show FloatOps.matmul dot_S6400x128_S128x128_S6400x128_1_0_0_1_n_n none x w (constant (F := Ideal) S6400x128 .f32 0x00000000#32) (ix2 p q) = _
  rw [Ideal.matmul_constant_zero_apply, ← Equiv.sum_comp (contrEquiv1 dot_S6400x128_S128x128_S6400x128_1_0_0_1_n_n 128 rfl rfl).symm]
  refine Finset.sum_congr rfl fun k _ => ?_
  have hk := contrEquiv1_symm_val dot_S6400x128_S128x128_S6400x128_1_0_0_1_n_n 128 rfl rfl k
  have el : dot_S6400x128_S128x128_S6400x128_1_0_0_1_n_n.lhsIdx (ix2 p q) ((contrEquiv1 dot_S6400x128_S128x128_S6400x128_1_0_0_1_n_n 128 rfl rfl).symm k) = ix2 p k := funext fun a => Fin.ext (by
    match a with
    | ⟨0, _⟩ => exact lhs128_0 _ _
    | ⟨1, _⟩ => exact (lhs128_1 _ _).trans hk)
  have er : dot_S6400x128_S128x128_S6400x128_1_0_0_1_n_n.rhsIdx (ix2 p q) ((contrEquiv1 dot_S6400x128_S128x128_S6400x128_1_0_0_1_n_n 128 rfl rfl).symm k) = ix2 k q := funext fun a => Fin.ext (by
    match a with
    | ⟨0, _⟩ => exact (rhs128_0 _ _).trans hk
    | ⟨1, _⟩ => exact rhs128_1 _ _)
  rw [el, er]

theorem lhs32_0 (i : S6400x128.Idx) (r : dot_S6400x32_S32x128_S6400x128_1_0_0_1_n_n.contr.Idx) :
    (dot_S6400x32_S32x128_S6400x128_1_0_0_1_n_n.lhsIdx i r 0).val = (i 0).val := by
  unfold DotDims.lhsIdx
  rw [dif_neg (show ¬(0 : Fin S6400x32.rank) ∈ dot_S6400x32_S32x128_S6400x128_1_0_0_1_n_n.lhsBatch by decide), dif_pos (show (0 : Fin S6400x32.rank) ∈ dot_S6400x32_S32x128_S6400x128_1_0_0_1_n_n.lhsNonContracting by decide)]
  rfl
theorem lhs32_1 (i : S6400x128.Idx) (r : dot_S6400x32_S32x128_S6400x128_1_0_0_1_n_n.contr.Idx) :
    (dot_S6400x32_S32x128_S6400x128_1_0_0_1_n_n.lhsIdx i r 1).val = (r ⟨0, by decide⟩).val :=
  dot_S6400x32_S32x128_S6400x128_1_0_0_1_n_n.lhsIdx_val_of_single rfl i r
theorem rhs32_0 (i : S6400x128.Idx) (r : dot_S6400x32_S32x128_S6400x128_1_0_0_1_n_n.contr.Idx) :
    (dot_S6400x32_S32x128_S6400x128_1_0_0_1_n_n.rhsIdx i r 0).val = (r ⟨0, by decide⟩).val :=
  dot_S6400x32_S32x128_S6400x128_1_0_0_1_n_n.rhsIdx_val_of_single rfl i r
theorem rhs32_1 (i : S6400x128.Idx) (r : dot_S6400x32_S32x128_S6400x128_1_0_0_1_n_n.contr.Idx) :
    (dot_S6400x32_S32x128_S6400x128_1_0_0_1_n_n.rhsIdx i r 1).val = (i 1).val := by
  unfold DotDims.rhsIdx
  rw [dif_neg (show ¬(1 : Fin S32x128.rank) ∈ dot_S6400x32_S32x128_S6400x128_1_0_0_1_n_n.rhsBatch by decide), dif_pos (show (1 : Fin S32x128.rank) ∈ dot_S6400x32_S32x128_S6400x128_1_0_0_1_n_n.rhsNonContracting by decide)]
  rfl

/-- A `[6400, 32]` block times a `[32, 128]` weight, at `(p, q)`. -/
theorem matmul32_apply (x : FVec Ideal S6400x32 .f32) (w : FVec Ideal S32x128 .f32) (p : Fin 6400) (q : Fin 128) :
    matmul dot_S6400x32_S32x128_S6400x128_1_0_0_1_n_n none x w (constant (F := Ideal) S6400x128 .f32 0x00000000#32) (ix2 p q)
      = ∑ k : Fin 32, x (ix2 p k) * w (ix2 k q) := by
  show FloatOps.matmul dot_S6400x32_S32x128_S6400x128_1_0_0_1_n_n none x w (constant (F := Ideal) S6400x128 .f32 0x00000000#32) (ix2 p q) = _
  rw [Ideal.matmul_constant_zero_apply, ← Equiv.sum_comp (contrEquiv1 dot_S6400x32_S32x128_S6400x128_1_0_0_1_n_n 32 rfl rfl).symm]
  refine Finset.sum_congr rfl fun k _ => ?_
  have hk := contrEquiv1_symm_val dot_S6400x32_S32x128_S6400x128_1_0_0_1_n_n 32 rfl rfl k
  have el : dot_S6400x32_S32x128_S6400x128_1_0_0_1_n_n.lhsIdx (ix2 p q) ((contrEquiv1 dot_S6400x32_S32x128_S6400x128_1_0_0_1_n_n 32 rfl rfl).symm k) = ix2 p k := funext fun a => Fin.ext (by
    match a with
    | ⟨0, _⟩ => exact lhs32_0 _ _
    | ⟨1, _⟩ => exact (lhs32_1 _ _).trans hk)
  have er : dot_S6400x32_S32x128_S6400x128_1_0_0_1_n_n.rhsIdx (ix2 p q) ((contrEquiv1 dot_S6400x32_S32x128_S6400x128_1_0_0_1_n_n 32 rfl rfl).symm k) = ix2 k q := funext fun a => Fin.ext (by
    match a with
    | ⟨0, _⟩ => exact (rhs32_0 _ _).trans hk
    | ⟨1, _⟩ => exact rhs32_1 _ _)
  rw [el, er]

/-! ## The body's arithmetic at an entry -/

/-- The first layer before its bias, at `(p, q)`: three matrix products and two column-times-row products. -/
theorem pay2_apply (x0 x1 : Vec Ideal S6400x128 .f32) (x2 : Vec Ideal S6400x32 .f32) (x3 x4 : Vec Ideal S6400x1 .f32)
    (x5 x6 : Vec Ideal S128x128 .f32) (x7 : Vec Ideal S32x128 .f32) (x8 x9 : Vec Ideal S1x128 .f32) (p : Fin 6400) (q : Fin 128) :
    k0_pay2 (F := Ideal) x0 x1 x2 x3 x4 x5 x6 x7 x8 x9 (ix2 p q)
      = (∑ k : Fin 128, x0 (ix2 p k) * x5 (ix2 k q)) + (∑ k : Fin 128, x1 (ix2 p k) * x6 (ix2 k q))
        + (∑ k : Fin 32, x2 (ix2 p k) * x7 (ix2 k q))
        + x3 (ix2 p (0 : Fin 1)) * x8 (ix2 (0 : Fin 1) q) + x4 (ix2 p (0 : Fin 1)) * x9 (ix2 (0 : Fin 1) q) := by
  unfold k0_pay2
  simp only [shapeCast_self, addf_apply, mulf_apply]
  rw [matmul128_apply, matmul128_apply, matmul32_apply, Cert.LibColumn.broadcastTo_a1_ab_apply, Cert.LibColumn.broadcastTo_a1_ab_apply,
    broadcastTo_1b_ab_apply, broadcastTo_1b_ab_apply]

/-- The activation, the second layer and its bias, at `(p, q)`, from the first layer's values before its bias. -/
theorem pay1_apply (h : FVec Ideal S6400x128 .f32) (b1 : FVec Ideal S1x128 .f32) (w2 : Vec Ideal S128x128 .f32) (b2 : Vec Ideal S1x128 .f32)
    (p : Fin 6400) (q : Fin 128) :
    k0_pay1 (F := Ideal) h b1 w2 b2 (ix2 p q)
      = (∑ k : Fin 128, Spec.silu (h (ix2 p k) + b1 (ix2 (0 : Fin 1) k)) * w2 (ix2 k q)) + b2 (ix2 (0 : Fin 1) q) := by
  unfold k0_pay1
  simp only [shapeCast_self, addf_apply]
  rw [matmul128_apply, broadcastTo_1b_ab_apply]
  refine congrArg (· + b2 (ix2 (0 : Fin 1) q)) (Finset.sum_congr rfl fun k _ => ?_)
  have hl : logistic (addf h (broadcastTo S6400x128 b1 broadcasts_S1x128_S6400x128)) (ix2 p k)
      = Ideal.logistic (h (ix2 p k) + b1 (ix2 (0 : Fin 1) k)) := by
    show FloatOps.logistic (addf h (broadcastTo S6400x128 b1 broadcasts_S1x128_S6400x128) (ix2 p k)) = _
    rw [Ideal.logistic_def, addf_apply, broadcastTo_1b_ab_apply]
  rw [mulf_apply, addf_apply, broadcastTo_1b_ab_apply, hl]
  rfl

/-- The body's payload at `(p, q)` is the message of row `p`, feature `q`, of its thirteen blocks. -/
theorem pay_apply (x0 x1 : Vec Ideal S6400x128 .f32) (x2 : Vec Ideal S6400x32 .f32) (x3 x4 : Vec Ideal S6400x1 .f32)
    (x5 x6 : Vec Ideal S128x128 .f32) (x7 : Vec Ideal S32x128 .f32) (x8 x9 x10 : Vec Ideal S1x128 .f32)
    (x11 : Vec Ideal S128x128 .f32) (x12 : Vec Ideal S1x128 .f32) (p : Fin 6400) (q : Fin 128) :
    k0_pay1 (F := Ideal) (k0_pay2 (F := Ideal) x0 x1 x2 x3 x4 x5 x6 x7 x8 x9) (k0_pay3 (F := Ideal) x10) x11 x12 (ix2 p q)
      = Spec.edgeMsg x0 x1 x2 x3 x4 x5 x6 x7 x8 x9 x10 x11 x12 p q := by
  rw [pay1_apply]
  unfold Spec.edgeMsg Spec.edgePre
  refine congrArg (· + x12 (ix2 (0 : Fin 1) q)) (Finset.sum_congr rfl fun k _ => ?_)
  rw [pay2_apply]
  unfold k0_pay3
  rw [shapeCast_self]

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The block index maps, decided over the grid: the five edge operands and the output are at block `(t, 0)` at
    point `t`, every weight operand at block `(0, 0)`. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = t.val ∧ win0_13.index t (1 : Fin 2) = 0) :=
  (by decide +kernel : ∀ t : Fin grid0.N, _)

/-! ### Each staged block read off its array -/

/-- Row `p` of the first endpoint block at point `t` is row `6400 t + p` of the array. -/
theorem blk0_apply (c : Dev nD) (t : Fin cfg0.N) (p : Fin 6400) (k : Fin 128) (e : Fin 640000) (he : e.val = t.val * 6400 + p.val) :
    (iblk0 V c 0 t : Vec Ideal S6400x128 .f32) (ix2 p k) = (V c main_v4 : Vec Ideal S640000x128 .f32) (ix2 e k) := by
  obtain ⟨⟨h0, h1⟩, -⟩ := idx_facts t
  unfold iblk0
  rw [View.read_apply]
  show V c main_v4 _ = V c main_v4 _
  refine congrArg (V c main_v4) (funext fun a => Fin.ext ?_)
  match a with
  | ⟨0, _⟩ => show win0_0.index t (0 : Fin 2) * 6400 + 1 * p.val = e.val; rw [h0, he]; omega
  | ⟨1, _⟩ => show win0_0.index t (1 : Fin 2) * 128 + 1 * k.val = k.val; rw [h1]; omega

/-- The same for the second endpoint block. -/
theorem blk1_apply (c : Dev nD) (t : Fin cfg0.N) (p : Fin 6400) (k : Fin 128) (e : Fin 640000) (he : e.val = t.val * 6400 + p.val) :
    (iblk0 V c 1 t : Vec Ideal S6400x128 .f32) (ix2 p k) = (V c main_v5 : Vec Ideal S640000x128 .f32) (ix2 e k) := by
  obtain ⟨-, ⟨h0, h1⟩, -⟩ := idx_facts t
  unfold iblk0
  rw [View.read_apply]
  show V c main_v5 _ = V c main_v5 _
  refine congrArg (V c main_v5) (funext fun a => Fin.ext ?_)
  match a with
  | ⟨0, _⟩ => show win0_1.index t (0 : Fin 2) * 6400 + 1 * p.val = e.val; rw [h0, he]; omega
  | ⟨1, _⟩ => show win0_1.index t (1 : Fin 2) * 128 + 1 * k.val = k.val; rw [h1]; omega

/-- The same for the block of edge features. -/
theorem blk2_apply (c : Dev nD) (t : Fin cfg0.N) (p : Fin 6400) (k : Fin 32) (e : Fin 640000) (he : e.val = t.val * 6400 + p.val) :
    (iblk0 V c 2 t : Vec Ideal S6400x32 .f32) (ix2 p k) = (V c main_arg2 : Vec Ideal S640000x32 .f32) (ix2 e k) := by
  obtain ⟨-, -, ⟨h0, h1⟩, -⟩ := idx_facts t
  unfold iblk0
  rw [View.read_apply]
  show V c main_arg2 _ = V c main_arg2 _
  refine congrArg (V c main_arg2) (funext fun a => Fin.ext ?_)
  match a with
  | ⟨0, _⟩ => show win0_2.index t (0 : Fin 2) * 6400 + 1 * p.val = e.val; rw [h0, he]; omega
  | ⟨1, _⟩ => show win0_2.index t (1 : Fin 2) * 32 + 1 * k.val = k.val; rw [h1]; omega

/-- The same for the first column of coordination numbers. -/
theorem blk3_apply (c : Dev nD) (t : Fin cfg0.N) (p : Fin 6400) (k : Fin 1) (e : Fin 640000) (he : e.val = t.val * 6400 + p.val) :
    (iblk0 V c 3 t : Vec Ideal S6400x1 .f32) (ix2 p k) = (V c main_v7 : Vec Ideal S640000x1 .f32) (ix2 e k) := by
  obtain ⟨-, -, -, ⟨h0, h1⟩, -⟩ := idx_facts t
  unfold iblk0
  rw [View.read_apply]
  show V c main_v7 _ = V c main_v7 _
  refine congrArg (V c main_v7) (funext fun a => Fin.ext ?_)
  match a with
  | ⟨0, _⟩ => show win0_3.index t (0 : Fin 2) * 6400 + 1 * p.val = e.val; rw [h0, he]; omega
  | ⟨1, _⟩ => show win0_3.index t (1 : Fin 2) * 1 + 1 * k.val = k.val; rw [h1]; omega

/-- The same for the second column of coordination numbers. -/
theorem blk4_apply (c : Dev nD) (t : Fin cfg0.N) (p : Fin 6400) (k : Fin 1) (e : Fin 640000) (he : e.val = t.val * 6400 + p.val) :
    (iblk0 V c 4 t : Vec Ideal S6400x1 .f32) (ix2 p k) = (V c main_v9 : Vec Ideal S640000x1 .f32) (ix2 e k) := by
  obtain ⟨-, -, -, -, ⟨h0, h1⟩, -⟩ := idx_facts t
  unfold iblk0
  rw [View.read_apply]
  show V c main_v9 _ = V c main_v9 _
  refine congrArg (V c main_v9) (funext fun a => Fin.ext ?_)
  match a with
  | ⟨0, _⟩ => show win0_4.index t (0 : Fin 2) * 6400 + 1 * p.val = e.val; rw [h0, he]; omega
  | ⟨1, _⟩ => show win0_4.index t (1 : Fin 2) * 1 + 1 * k.val = k.val; rw [h1]; omega

/-- Weight operand 5 is staged whole at every point. -/
theorem blk5_eq (c : Dev nD) (t : Fin cfg0.N) :
    (iblk0 V c 5 t : Vec Ideal S128x128 .f32) = (V c main_v10 : Vec Ideal S128x128 .f32) := by
  obtain ⟨-, -, -, -, -, ⟨h0, h1⟩, -⟩ := idx_facts t
  funext y
  unfold iblk0
  rw [View.read_apply]
  show V c main_v10 _ = V c main_v10 y
  refine congrArg (V c main_v10) (funext fun a => Fin.ext ?_)
  match a with
  | ⟨0, _⟩ => show win0_5.index t (0 : Fin 2) * 128 + 1 * (y 0).val = (y 0).val; rw [h0]; omega
  | ⟨1, _⟩ => show win0_5.index t (1 : Fin 2) * 128 + 1 * (y 1).val = (y 1).val; rw [h1]; omega

/-- Weight operand 6 is staged whole at every point. -/
theorem blk6_eq (c : Dev nD) (t : Fin cfg0.N) :
    (iblk0 V c 6 t : Vec Ideal S128x128 .f32) = (V c main_v11 : Vec Ideal S128x128 .f32) := by
  obtain ⟨-, -, -, -, -, -, ⟨h0, h1⟩, -⟩ := idx_facts t
  funext y
  unfold iblk0
  rw [View.read_apply]
  show V c main_v11 _ = V c main_v11 y
  refine congrArg (V c main_v11) (funext fun a => Fin.ext ?_)
  match a with
  | ⟨0, _⟩ => show win0_6.index t (0 : Fin 2) * 128 + 1 * (y 0).val = (y 0).val; rw [h0]; omega
  | ⟨1, _⟩ => show win0_6.index t (1 : Fin 2) * 128 + 1 * (y 1).val = (y 1).val; rw [h1]; omega

/-- Weight operand 7 is staged whole at every point. -/
theorem blk7_eq (c : Dev nD) (t : Fin cfg0.N) :
    (iblk0 V c 7 t : Vec Ideal S32x128 .f32) = (V c main_v12 : Vec Ideal S32x128 .f32) := by
  obtain ⟨-, -, -, -, -, -, -, ⟨h0, h1⟩, -⟩ := idx_facts t
  funext y
  unfold iblk0
  rw [View.read_apply]
  show V c main_v12 _ = V c main_v12 y
  refine congrArg (V c main_v12) (funext fun a => Fin.ext ?_)
  match a with
  | ⟨0, _⟩ => show win0_7.index t (0 : Fin 2) * 32 + 1 * (y 0).val = (y 0).val; rw [h0]; omega
  | ⟨1, _⟩ => show win0_7.index t (1 : Fin 2) * 128 + 1 * (y 1).val = (y 1).val; rw [h1]; omega

/-- Weight operand 8 is staged whole at every point. -/
theorem blk8_eq (c : Dev nD) (t : Fin cfg0.N) :
    (iblk0 V c 8 t : Vec Ideal S1x128 .f32) = (V c main_v13 : Vec Ideal S1x128 .f32) := by
  obtain ⟨-, -, -, -, -, -, -, -, ⟨h0, h1⟩, -⟩ := idx_facts t
  funext y
  unfold iblk0
  rw [View.read_apply]
  show V c main_v13 _ = V c main_v13 y
  refine congrArg (V c main_v13) (funext fun a => Fin.ext ?_)
  match a with
  | ⟨0, _⟩ => show win0_8.index t (0 : Fin 2) * 1 + 1 * (y 0).val = (y 0).val; rw [h0]; omega
  | ⟨1, _⟩ => show win0_8.index t (1 : Fin 2) * 128 + 1 * (y 1).val = (y 1).val; rw [h1]; omega

/-- Weight operand 9 is staged whole at every point. -/
theorem blk9_eq (c : Dev nD) (t : Fin cfg0.N) :
    (iblk0 V c 9 t : Vec Ideal S1x128 .f32) = (V c main_v14 : Vec Ideal S1x128 .f32) := by
  obtain ⟨-, -, -, -, -, -, -, -, -, ⟨h0, h1⟩, -⟩ := idx_facts t
  funext y
  unfold iblk0
  rw [View.read_apply]
  show V c main_v14 _ = V c main_v14 y
  refine congrArg (V c main_v14) (funext fun a => Fin.ext ?_)
  match a with
  | ⟨0, _⟩ => show win0_9.index t (0 : Fin 2) * 1 + 1 * (y 0).val = (y 0).val; rw [h0]; omega
  | ⟨1, _⟩ => show win0_9.index t (1 : Fin 2) * 128 + 1 * (y 1).val = (y 1).val; rw [h1]; omega

/-- Weight operand 10 is staged whole at every point. -/
theorem blk10_eq (c : Dev nD) (t : Fin cfg0.N) :
    (iblk0 V c 10 t : Vec Ideal S1x128 .f32) = (V c main_v15 : Vec Ideal S1x128 .f32) := by
  obtain ⟨-, -, -, -, -, -, -, -, -, -, ⟨h0, h1⟩, -⟩ := idx_facts t
  funext y
  unfold iblk0
  rw [View.read_apply]
  show V c main_v15 _ = V c main_v15 y
  refine congrArg (V c main_v15) (funext fun a => Fin.ext ?_)
  match a with
  | ⟨0, _⟩ => show win0_10.index t (0 : Fin 2) * 1 + 1 * (y 0).val = (y 0).val; rw [h0]; omega
  | ⟨1, _⟩ => show win0_10.index t (1 : Fin 2) * 128 + 1 * (y 1).val = (y 1).val; rw [h1]; omega

/-- Weight operand 11 is staged whole at every point. -/
theorem blk11_eq (c : Dev nD) (t : Fin cfg0.N) :
    (iblk0 V c 11 t : Vec Ideal S128x128 .f32) = (V c main_arg6 : Vec Ideal S128x128 .f32) := by
  obtain ⟨-, -, -, -, -, -, -, -, -, -, -, ⟨h0, h1⟩, -⟩ := idx_facts t
  funext y
  unfold iblk0
  rw [View.read_apply]
  show V c main_arg6 _ = V c main_arg6 y
  refine congrArg (V c main_arg6) (funext fun a => Fin.ext ?_)
  match a with
  | ⟨0, _⟩ => show win0_11.index t (0 : Fin 2) * 128 + 1 * (y 0).val = (y 0).val; rw [h0]; omega
  | ⟨1, _⟩ => show win0_11.index t (1 : Fin 2) * 128 + 1 * (y 1).val = (y 1).val; rw [h1]; omega

/-- Weight operand 12 is staged whole at every point. -/
theorem blk12_eq (c : Dev nD) (t : Fin cfg0.N) :
    (iblk0 V c 12 t : Vec Ideal S1x128 .f32) = (V c main_v16 : Vec Ideal S1x128 .f32) := by
  obtain ⟨-, -, -, -, -, -, -, -, -, -, -, -, ⟨h0, h1⟩, -⟩ := idx_facts t
  funext y
  unfold iblk0
  rw [View.read_apply]
  show V c main_v16 _ = V c main_v16 y
  refine congrArg (V c main_v16) (funext fun a => Fin.ext ?_)
  match a with
  | ⟨0, _⟩ => show win0_12.index t (0 : Fin 2) * 1 + 1 * (y 0).val = (y 0).val; rw [h0]; omega
  | ⟨1, _⟩ => show win0_12.index t (1 : Fin 2) * 128 + 1 * (y 1).val = (y 1).val; rw [h1]; omega

/-! ### A message depends on its own row of the edge operands only -/

/-- Two families of edge operands that agree on row `e` of the one and row `e'` of the other give, with the same
    weights, the same message there. -/
theorem edgeMsg_rows {M M' : ℕ}
    (ns nd : (⟨2, ![M, 128]⟩ : Shape).Idx → EReal) (ef : (⟨2, ![M, 32]⟩ : Shape).Idx → EReal) (cs cd : (⟨2, ![M, 1]⟩ : Shape).Idx → EReal)
    (ns' nd' : (⟨2, ![M', 128]⟩ : Shape).Idx → EReal) (ef' : (⟨2, ![M', 32]⟩ : Shape).Idx → EReal) (cs' cd' : (⟨2, ![M', 1]⟩ : Shape).Idx → EReal)
    (Wa Wb : (⟨2, ![128, 128]⟩ : Shape).Idx → EReal) (Wc : (⟨2, ![32, 128]⟩ : Shape).Idx → EReal)
    (wcs wcd b1 : (⟨2, ![1, 128]⟩ : Shape).Idx → EReal) (W2 : (⟨2, ![128, 128]⟩ : Shape).Idx → EReal) (b2 : (⟨2, ![1, 128]⟩ : Shape).Idx → EReal)
    (e : Fin M) (e' : Fin M') (j : Fin 128)
    (h0 : ∀ k, ns (ix2 e k) = ns' (ix2 e' k)) (h1 : ∀ k, nd (ix2 e k) = nd' (ix2 e' k)) (h2 : ∀ k, ef (ix2 e k) = ef' (ix2 e' k))
    (h3 : ∀ k, cs (ix2 e k) = cs' (ix2 e' k)) (h4 : ∀ k, cd (ix2 e k) = cd' (ix2 e' k)) :
    Spec.edgeMsg ns nd ef cs cd Wa Wb Wc wcs wcd b1 W2 b2 e j = Spec.edgeMsg ns' nd' ef' cs' cd' Wa Wb Wc wcs wcd b1 W2 b2 e' j := by
  unfold Spec.edgeMsg Spec.edgePre
  simp only [h0, h1, h2, h3, h4]

/-! ### What a point writes back, the cover, the array -/

/-- The array of messages computed from the operand arrays as the region found them. -/
abbrev msgs (c : Dev nD) : Vec Ideal S640000x128 .f32 := fun i =>
  Spec.edgeMsg (V c main_v4) (V c main_v5) (V c main_arg2) (V c main_v7) (V c main_v9) (V c main_v10) (V c main_v11)
    (V c main_v12) (V c main_v13) (V c main_v14) (V c main_v15) (V c main_arg6) (V c main_v16) (i 0) (i 1)

/-- The message of row `p` computed from the blocks staged at point `t` is the message of row `6400 t + p` computed
    from the arrays. -/
theorem msg_of_blocks (c : Dev nD) (t : Fin cfg0.N) (p : Fin 6400) (q : Fin 128) (e : Fin 640000) (he : e.val = t.val * 6400 + p.val) :
    Spec.edgeMsg (iblk0 V c 0 t : Vec Ideal S6400x128 .f32) (iblk0 V c 1 t : Vec Ideal S6400x128 .f32) (iblk0 V c 2 t : Vec Ideal S6400x32 .f32)
        (iblk0 V c 3 t : Vec Ideal S6400x1 .f32) (iblk0 V c 4 t : Vec Ideal S6400x1 .f32) (V c main_v10) (V c main_v11)
        (V c main_v12) (V c main_v13) (V c main_v14) (V c main_v15) (V c main_arg6) (V c main_v16) p q
      = msgs V c (ix2 e q) :=
  edgeMsg_rows (iblk0 V c 0 t : Vec Ideal S6400x128 .f32) (iblk0 V c 1 t : Vec Ideal S6400x128 .f32) (iblk0 V c 2 t : Vec Ideal S6400x32 .f32)
    (iblk0 V c 3 t : Vec Ideal S6400x1 .f32) (iblk0 V c 4 t : Vec Ideal S6400x1 .f32)
    (V c main_v4 : Vec Ideal S640000x128 .f32) (V c main_v5 : Vec Ideal S640000x128 .f32) (V c main_arg2 : Vec Ideal S640000x32 .f32)
    (V c main_v7 : Vec Ideal S640000x1 .f32) (V c main_v9 : Vec Ideal S640000x1 .f32)
    (V c main_v10) (V c main_v11) (V c main_v12) (V c main_v13) (V c main_v14) (V c main_v15) (V c main_arg6) (V c main_v16) p e q
    (fun k => blk0_apply V c t p k e he) (fun k => blk1_apply V c t p k e he) (fun k => blk2_apply V c t p k e he)
    (fun k => blk3_apply V c t p k e he) (fun k => blk4_apply V c t p k e he)

/-- What point `t` writes back is block `t` of the array of messages. -/
theorem flushed_eq (c : Dev nD) (t : Fin cfg0.N) :
    (dat0 (F := Ideal) V c).flushed 13 t = ((cfg0.win 13).blk t).view.read (Elt Ideal) (msgs V c) := by
  show (cfg0.win 13).cut (grid0.coords t) ((dat0 (F := Ideal) V c).after 13 t) = _
  rw [after0_13]
  unfold out0_13
  rw [View.canon_unit_zero hz]
  simp only [View.ld_unit_zero (S := S6400x128) hz, View.ld_unit_zero (S := S6400x32) hz, View.ld_unit_zero (S := S6400x1) hz,
    View.ld_unit_zero (S := S128x128) hz, View.ld_unit_zero (S := S32x128) hz, View.ld_unit_zero (S := S1x128) hz]
  obtain ⟨-, -, -, -, -, -, -, -, -, -, -, -, -, ⟨h0, h1⟩⟩ := idx_facts t
  refine funext fun j : S6400x128.Idx => ?_
  obtain ⟨p, q, rfl⟩ : ∃ (p : Fin 6400) (q : Fin 128), j = ix2 p q := ⟨j 0, j 1, eq_ix2 j⟩
  have ht : t.val < 100 := Nat.lt_of_lt_of_eq t.isLt N_0
  have hlt : t.val * 6400 + p.val < 640000 := by have := p.isLt; omega
  refine (pay_apply (iblk0 V c 0 t) (iblk0 V c 1 t) (iblk0 V c 2 t) (iblk0 V c 3 t) (iblk0 V c 4 t) (iblk0 V c 5 t) (iblk0 V c 6 t)
    (iblk0 V c 7 t) (iblk0 V c 8 t) (iblk0 V c 9 t) (iblk0 V c 10 t) (iblk0 V c 11 t) (iblk0 V c 12 t) p q).trans ?_
  rw [blk5_eq V c t, blk6_eq V c t, blk7_eq V c t, blk8_eq V c t, blk9_eq V c t, blk10_eq V c t, blk11_eq V c t, blk12_eq V c t]
  rw [View.read_apply]
  show _ = msgs V c (((cfg0.win 13).blk t).view.emb (ix2 p q))
  have hemb : ((cfg0.win 13).blk t).view.emb (ix2 p q) = (ix2 (⟨t.val * 6400 + p.val, hlt⟩ : Fin 640000) q : S640000x128.Idx) :=
    funext fun a => Fin.ext (by
      match a with
      | ⟨0, _⟩ => show win0_13.index t (0 : Fin 2) * 6400 + 1 * p.val = t.val * 6400 + p.val; rw [h0]; omega
      | ⟨1, _⟩ => show win0_13.index t (1 : Fin 2) * 128 + 1 * q.val = q.val; rw [h1]; omega)
  rw [hemb]
  exact msg_of_blocks V c t p q ⟨t.val * 6400 + p.val, hlt⟩ rfl

/-- An entry of the array is in point `t`'s block iff each coordinate is in the block's range on its axis. -/
theorem mem_blk (t : Fin cfg0.N) (i : S640000x128.Idx) :
    i ∈ ((cfg0.win 13).blk t).view.set ↔ ∀ a : Fin 2, win0_13.index t a * S6400x128.size a ≤ (i a).val
      ∧ (i a).val < win0_13.index t a * S6400x128.size a + S6400x128.size a := by
  show i ∈ ((View.whole main_v17).slice (win0_13.rect t)).set ↔ _
  rw [View.set_slice_whole, Rect.mem_set_unit]
  exact Iff.rfl

/-- The hundred blocks tile the array: row `r` is in the block of point `r / 6400`. -/
theorem cover (i : S640000x128.Idx) :
    ∃ t : Fin cfg0.N, (cfg0.win 13).flush t = true ∧ i ∈ ((cfg0.win 13).blk t).view.set := by
  have hi0 : (i 0).val < 640000 := (i 0).isLt
  have hi1 : (i 1).val < 128 := (i 1).isLt
  have hN : cfg0.N = 100 := N_0
  obtain ⟨t, ht⟩ : ∃ t : Fin cfg0.N, t.val = (i 0).val / 6400 := ⟨⟨(i 0).val / 6400, by rw [hN]; omega⟩, rfl⟩
  obtain ⟨-, -, -, -, -, -, -, -, -, -, -, -, -, ⟨h0, h1⟩⟩ := idx_facts t
  refine ⟨t, flush0_13 t, ?_⟩
  rw [mem_blk]
  intro a
  match a with
  | ⟨0, _⟩ =>
    show win0_13.index t (0 : Fin 2) * 6400 ≤ (i 0).val ∧ (i 0).val < win0_13.index t (0 : Fin 2) * 6400 + 6400
    rw [h0, ht]; omega
  | ⟨1, _⟩ =>
    show win0_13.index t (1 : Fin 2) * 128 ≤ (i 1).val ∧ (i 1).val < win0_13.index t (1 : Fin 2) * 128 + 128
    rw [h1]; omega

/-- After the hundred grid points the output array holds, at edge `e` and feature `j`, the message of that edge
    computed from the operand arrays as the region found them. -/
theorem arr0 (c : Dev nD) :
    (dat0 (F := Ideal) V c).arrAt 13 cfg0.N = fun i =>
      Spec.edgeMsg (V c main_v4) (V c main_v5) (V c main_arg2) (V c main_v7) (V c main_v9) (V c main_v10) (V c main_v11)
        (V c main_v12) (V c main_v13) (V c main_v14) (V c main_v15) (V c main_arg6) (V c main_v16) (i 0) (i 1) :=
  (dat0 (F := Ideal) V c).arrAt_eq_of_cover 13 (msgs V c) (fun t _ => flushed_eq V c t) cover

end Cert.KVal0

end
-- ==== Proof.KVal1.lean ====
/-
  The update network's pallas_call: the array of new node features it leaves.

  Grid point `t` stages rows `5000 t … 5000 t + 4999` of the node features, the aggregated messages and the
  coordination column, and the whole of every weight operand, and writes back the same rows of the output. The
  layer norm runs along a row, so again a row of the output block depends only on the same row of the node blocks,
  and the ten blocks tile the 50000 rows.
-/
import proofs.«408877_j34849364640430_1_alg».proof.Proof.Gen.KernelIdeal.Frame
import proofs.«408877_j34849364640430_1_alg».proof.Proof.Spec
import proofs.«408877_j34849364640430_1_alg».proof.Proof.LibColumn
import Idealize.ShloMosaic.Lib.ValueLayout

set_option maxRecDepth 16384

noncomputable section

open scoped BigOperators

namespace Cert.KVal1

open Idealize.ShloMosaic Idealize.ShloMosaic.TcCoe Idealize.ShloMosaic.ValueIdx Idealize.SL.Sem
open Cert.KernelIdeal Cert.KernelIdeal.Gen

/-! ## A product of a block of rows with a 128 × 128 matrix, at an index -/

theorem lhs_dot_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_dot_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_dot_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_dot_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matrix unit's product into the zero accumulator is, at row `p` and column `q`, the sum over the 128 shared
    coordinates of the products of the row's and the column's entries. -/
theorem matmul_at (x : FVec Ideal S5000x128 .f32) (w : FVec Ideal S128x128 .f32) (p : Fin 5000) (q : Fin 128) :
    matmul dot_S5000x128_S128x128_S5000x128_1_0_0_1_n_n none x w (constant (F := Ideal) S5000x128 .f32 0x00000000#32) (ix2 p q)
      = ∑ k : Fin 128, x (ix2 p k) * w (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-- The lane sum of a block of rows, with the zero word as its accumulator, is at row `p` the sum of that row. -/
theorem laneSum_at (v : FVec Ideal S5000x128 .f32)
    (hacc : (0x00000000#32 : BitVec 32) = 0x00000000#32) (p : Fin 5000) :
    multiReduction (F := Ideal) .add [1] S5000 v 0x00000000#32 reduces_S5000x128_S5000 (.inl rfl) hacc (ix1 p)
      = ∑ k : Fin 128, v (ix2 p k) :=
  Cert.LibColumn.sumAxis1_apply v 0x00000000#32 reduces_S5000x128_S5000 (.inl rfl) hacc p

/-! ## The update network's payloads at an index -/

section Payload
variable (x0 x1 : Vec Ideal S5000x128 .f32) (x2 : Vec Ideal S5000x1 .f32) (x3 x4 : Vec Ideal S128x128 .f32)
  (x5 x6 : Vec Ideal S1x128 .f32) (x7 : Vec Ideal S128x128 .f32) (x8 x9 x10 : Vec Ideal S1x128 .f32)

/-- The residual stream of a block of rows: the payload that adds the update onto the node features is the
    specification's `resid` of the blocks, entry by entry. -/
theorem pay2_at (p : Fin 5000) (q : Fin 128) :
    k1_pay2 (F := Ideal) x0 x1 x2 x3 x4 x5 x6 x7 x8 (ix2 p q) = Spec.resid x0 x1 x2 x3 x4 x5 x6 x7 x8 p q := by
  unfold k1_pay2
  simp only [shapeCast_self]
  simp only [addf_apply]
  rw [matmul_at, broadcastTo_1b_ab_apply]
  unfold Spec.resid
  refine congrArg (fun z => x0 (ix2 p q) + (z + x8 (ix2 (0 : Fin 1) q))) ?_
  refine Finset.sum_congr rfl fun k _ => ?_
  refine congrArg (fun z => z * x7 (ix2 k q)) ?_
  simp only [mulf_apply, addf_apply, logistic, Ideal.logistic_def]
  rw [matmul_at, matmul_at, Cert.LibColumn.broadcastTo_a1_ab_apply, broadcastTo_1b_ab_apply, broadcastTo_1b_ab_apply]
  rfl

/-- The mean column: the lane sum of the residual stream, cast to a column and divided by the word of 128, is at
    row `p` the mean of that row of `resid`. -/
theorem pay3_at (p : Fin 5000) :
    k1_pay3 (F := Ideal) x0 x1 x2 x3 x4 x5 x6 x7 x8 (ix2 p (0 : Fin 1))
      = Spec.rowMean (fun k => Spec.resid x0 x1 x2 x3 x4 x5 x6 x7 x8 p k) := by
  unfold k1_pay3
  simp only [divf_apply, broadcast_apply]
  rw [Cert.LibColumn.shapeCast_a_a1_apply, laneSum_at]
  unfold Spec.rowMean
  refine congrArg (fun z => Ideal.div z Spec.c128) ?_
  exact Finset.sum_congr rfl fun k _ => pay2_at x0 x1 x2 x3 x4 x5 x6 x7 x8 p k

/-- The mean column spread back over the 128 lanes. -/
theorem pay4_at (p : Fin 5000) (q : Fin 128) :
    k1_pay4 (F := Ideal) x0 x1 x2 x3 x4 x5 x6 x7 x8 (ix2 p q)
      = Spec.rowMean (fun k => Spec.resid x0 x1 x2 x3 x4 x5 x6 x7 x8 p k) := by
  unfold k1_pay4
  rw [Cert.LibColumn.broadcastTo_a1_ab_apply]
  exact pay3_at x0 x1 x2 x3 x4 x5 x6 x7 x8 p

/-- The layer norm of a block of rows, over any residual stream `v30`, mean column `v34` and spread mean `v35`
    that read, along row `p`, a row `r` and its mean. -/
theorem pay1_at (v30 : FVec Ideal S5000x128 .f32) (v34 : FVec Ideal S5000x1 .f32) (v35 : FVec Ideal S5000x128 .f32)
    (g be : Vec Ideal S1x128 .f32) (p : Fin 5000) (q : Fin 128) (r : Fin 128 → EReal)
    (h30 : ∀ k, v30 (ix2 p k) = r k) (h34 : v34 (ix2 p (0 : Fin 1)) = Spec.rowMean r)
    (h35 : ∀ k, v35 (ix2 p k) = Spec.rowMean r) :
    k1_pay1 (F := Ideal) v30 v34 v35 g be (ix2 p q) = Spec.layerNorm r g be q := by
  unfold k1_pay1
  simp only [shapeCast_self]
  simp only [addf_apply, mulf_apply]
  rw [broadcastTo_1b_ab_apply, broadcastTo_1b_ab_apply, Cert.LibColumn.broadcastTo_a1_ab_apply]
  simp only [subf_apply, rsqrt, addf_apply, divf_apply, broadcast_apply, Ideal.rsqrt_def]
  rw [Cert.LibColumn.broadcastTo_a1_ab_apply, Cert.LibColumn.shapeCast_a_a1_apply, laneSum_at]
  simp only [mulf_apply, subf_apply, h30, h34, h35]
  rfl

/-- THE PAYLOAD AT AN INDEX: what the body stores at row `p`, lane `q` of the output block is the specification's
    layer output of the eleven input blocks at that row and lane. -/
theorem pay_at (p : Fin 5000) (q : Fin 128) :
    k1_pay1 (F := Ideal) (k1_pay2 x0 x1 x2 x3 x4 x5 x6 x7 x8) (k1_pay3 x0 x1 x2 x3 x4 x5 x6 x7 x8)
        (k1_pay4 x0 x1 x2 x3 x4 x5 x6 x7 x8) x9 x10 (ix2 p q)
      = Spec.nodeOut x0 x1 x2 x3 x4 x5 x6 x7 x8 x9 x10 p q :=
  pay1_at _ _ _ x9 x10 p q (fun k => Spec.resid x0 x1 x2 x3 x4 x5 x6 x7 x8 p k)
    (fun k => pay2_at x0 x1 x2 x3 x4 x5 x6 x7 x8 p k) (pay3_at x0 x1 x2 x3 x4 x5 x6 x7 x8 p)
    (fun k => pay4_at x0 x1 x2 x3 x4 x5 x6 x7 x8 p k)

end Payload

/-! ## From the ten blocks to the array -/

theorem hz : (![0, 0] : Fin 2 → Nat) = fun _ => 0 := funext fun a => by fin_cases a <;> rfl

/-- The printed index maps over the grid: the three node windows and the output window are at block row `t`,
    block column 0; every weight window stays at block (0, 0). -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0)
    ∧ (win1_10.index t (0 : Fin 2) = 0 ∧ win1_10.index t (1 : Fin 2) = 0)
    ∧ (win1_11.index t (0 : Fin 2) = t.val ∧ win1_11.index t (1 : Fin 2) = 0) :=
  (by decide +kernel : ∀ t : Fin grid1.N, _)

/-- The layer's output depends, at node `n`, only on row `n` of the three node operands: two sets of operands
    whose node rows agree (row `p` of one with row `n` of the other) and whose weights are equal give the same output. -/
theorem nodeOut_of_rows {M M' : ℕ}
    (x0 x1 : (⟨2, ![M, 128]⟩ : Shape).Idx → EReal) (x2 : (⟨2, ![M, 1]⟩ : Shape).Idx → EReal)
    (a0 a1 : (⟨2, ![M', 128]⟩ : Shape).Idx → EReal) (a2 : (⟨2, ![M', 1]⟩ : Shape).Idx → EReal)
    (x3 x4 a3 a4 : (⟨2, ![128, 128]⟩ : Shape).Idx → EReal) (x5 x6 a5 a6 : (⟨2, ![1, 128]⟩ : Shape).Idx → EReal)
    (x7 a7 : (⟨2, ![128, 128]⟩ : Shape).Idx → EReal) (x8 x9 x10 a8 a9 a10 : (⟨2, ![1, 128]⟩ : Shape).Idx → EReal)
    (p : Fin M) (n : Fin M') (q : Fin 128)
    (h0 : ∀ k, x0 (ix2 p k) = a0 (ix2 n k)) (h1 : ∀ k, x1 (ix2 p k) = a1 (ix2 n k))
    (h2 : x2 (ix2 p (0 : Fin 1)) = a2 (ix2 n (0 : Fin 1)))
    (h3 : x3 = a3) (h4 : x4 = a4) (h5 : x5 = a5) (h6 : x6 = a6) (h7 : x7 = a7) (h8 : x8 = a8) (h9 : x9 = a9)
    (h10 : x10 = a10) :
    Spec.nodeOut x0 x1 x2 x3 x4 x5 x6 x7 x8 x9 x10 p q = Spec.nodeOut a0 a1 a2 a3 a4 a5 a6 a7 a8 a9 a10 n q := by
  subst h3 h4 h5 h6 h7 h8 h9 h10
  unfold Spec.nodeOut Spec.resid Spec.nodePre
  simp only [h0, h1, h2]

section Blocks
variable (V : (c : Dev nD) → (b : Ref sig .tc) → Buf (Elt Ideal) ((c : Thread nD τ).loc b))

/-- Row `p` of the node-feature block at point `t` is row `5000 t + p` of the array. -/
theorem blk0_at (c : Dev nD) (t : Fin cfg1.N) (p : Fin 5000) (k : Fin 128) (n : Fin 50000)
    (hn : n.val = t.val * 5000 + p.val) :
    (iblk1 V c 0 t : Vec Ideal S5000x128 .f32) (ix2 p k) = (V c main_arg0 : S50000x128.Idx → EReal) (ix2 n k) := by
  obtain ⟨⟨e0, e1⟩, -⟩ := idx_facts t
  unfold iblk1
  rw [View.read_apply]
  show V c main_arg0 (((cfg1.win 0).blk t).view.emb (ix2 p k)) = V c main_arg0 (ix2 n k)
  refine congrArg (V c main_arg0) (funext fun a => Fin.ext ?_)
  match a with
  | ⟨0, _⟩ => show win1_0.index t (0 : Fin 2) * 5000 + 1 * p.val = n.val; omega
  | ⟨1, _⟩ => show win1_0.index t (1 : Fin 2) * 128 + 1 * k.val = k.val; omega

/-- Row `p` of the aggregated-message block at point `t` is row `5000 t + p` of the array. -/
theorem blk1_at (c : Dev nD) (t : Fin cfg1.N) (p : Fin 5000) (k : Fin 128) (n : Fin 50000)
    (hn : n.val = t.val * 5000 + p.val) :
    (iblk1 V c 1 t : Vec Ideal S5000x128 .f32) (ix2 p k) = (V c main_v20 : S50000x128.Idx → EReal) (ix2 n k) := by
  obtain ⟨-, ⟨e0, e1⟩, -⟩ := idx_facts t
  unfold iblk1
  rw [View.read_apply]
  show V c main_v20 (((cfg1.win 1).blk t).view.emb (ix2 p k)) = V c main_v20 (ix2 n k)
  refine congrArg (V c main_v20) (funext fun a => Fin.ext ?_)
  match a with
  | ⟨0, _⟩ => show win1_1.index t (0 : Fin 2) * 5000 + 1 * p.val = n.val; omega
  | ⟨1, _⟩ => show win1_1.index t (1 : Fin 2) * 128 + 1 * k.val = k.val; omega

/-- Entry `p` of the coordination column's block at point `t` is entry `5000 t + p` of the column. -/
theorem blk2_at (c : Dev nD) (t : Fin cfg1.N) (p : Fin 5000) (n : Fin 50000)
    (hn : n.val = t.val * 5000 + p.val) :
    (iblk1 V c 2 t : Vec Ideal S5000x1 .f32) (ix2 p (0 : Fin 1))
      = (V c main_v28 : S50000x1.Idx → EReal) (ix2 n (0 : Fin 1)) := by
  obtain ⟨-, -, ⟨e0, e1⟩, -⟩ := idx_facts t
  unfold iblk1
  rw [View.read_apply]
  show V c main_v28 (((cfg1.win 2).blk t).view.emb (ix2 p (0 : Fin 1))) = V c main_v28 (ix2 n (0 : Fin 1))
  refine congrArg (V c main_v28) (funext fun a => Fin.ext ?_)
  match a with
  | ⟨0, _⟩ => show win1_2.index t (0 : Fin 2) * 5000 + 1 * p.val = n.val; omega
  | ⟨1, _⟩ => show win1_2.index t (1 : Fin 2) * 1 + 1 * 0 = 0; omega

/-- The first weight band is staged whole at every point. -/
theorem blk3_eq (c : Dev nD) (t : Fin cfg1.N) :
    (iblk1 V c 3 t : Vec Ideal S128x128 .f32) = (V c main_v21 : S128x128.Idx → EReal) := by
  obtain ⟨-, -, -, ⟨e0, e1⟩, -⟩ := idx_facts t
  unfold iblk1
  funext y
  rw [View.read_apply]
  show V c main_v21 (((cfg1.win 3).blk t).view.emb y) = V c main_v21 y
  refine congrArg (V c main_v21) (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- The second weight band is staged whole at every point. -/
theorem blk4_eq (c : Dev nD) (t : Fin cfg1.N) :
    (iblk1 V c 4 t : Vec Ideal S128x128 .f32) = (V c main_v22 : S128x128.Idx → EReal) := by
  obtain ⟨-, -, -, -, ⟨e0, e1⟩, -⟩ := idx_facts t
  unfold iblk1
  funext y
  rw [View.read_apply]
  show V c main_v22 (((cfg1.win 4).blk t).view.emb y) = V c main_v22 y
  refine congrArg (V c main_v22) (funext fun a => Fin.ext ?_)
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- The coordination row of the first weight matrix is staged whole at every point. -/
theorem blk5_eq (c : Dev nD) (t : Fin cfg1.N) :
    (iblk1 V c 5 t : Vec Ideal S1x128 .f32) = (V c main_v23 : S1x128.Idx → EReal) := by
  obtain ⟨-, -, -, -, -, ⟨e0, e1⟩, -⟩ := idx_facts t
  unfold iblk1
  funext y
  rw [View.read_apply]
  show V c main_v23 (((cfg1.win 5).blk t).view.emb y) = V c main_v23 y
  refine congrArg (V c main_v23) (funext fun a => Fin.ext ?_)
  match a with
  | ⟨0, _⟩ => show win1_5.index t (0 : Fin 2) * 1 + 1 * (y 0).val = (y 0).val; omega
  | ⟨1, _⟩ => show win1_5.index t (1 : Fin 2) * 128 + 1 * (y 1).val = (y 1).val; omega

/-- The first bias row is staged whole at every point. -/
theorem blk6_eq (c : Dev nD) (t : Fin cfg1.N) :
    (iblk1 V c 6 t : Vec Ideal S1x128 .f32) = (V c main_v24 : S1x128.Idx → EReal) := by
  obtain ⟨-, -, -, -, -, -, ⟨e0, e1⟩, -⟩ := idx_facts t
  unfold iblk1
  funext y
  rw [View.read_apply]
  show V c main_v24 (((cfg1.win 6).blk t).view.emb y) = V c main_v24 y
  refine congrArg (V c main_v24) (funext fun a => Fin.ext ?_)
  match a with
  | ⟨0, _⟩ => show win1_6.index t (0 : Fin 2) * 1 + 1 * (y 0).val = (y 0).val; omega
  | ⟨1, _⟩ => show win1_6.index t (1 : Fin 2) * 128 + 1 * (y 1).val = (y 1).val; omega

/-- The second weight matrix is staged whole at every point. -/
theorem blk7_eq (c : Dev nD) (t : Fin cfg1.N) :
    (iblk1 V c 7 t : Vec Ideal S128x128 .f32) = (V c main_arg10 : S128x128.Idx → EReal) := by
  obtain ⟨-, -, -, -, -, -, -, ⟨e0, e1⟩, -⟩ := idx_facts t
  unfold iblk1
  funext y
  rw [View.read_apply]
  show V c main_arg10 (((cfg1.win 7).blk t).view.emb y) = V c main_arg10 y
  refine congrArg (V c main_arg10) (funext fun a => Fin.ext ?_)
  match a with
  | ⟨0, _⟩ => show win1_7.index t (0 : Fin 2) * 128 + 1 * (y 0).val = (y 0).val; omega
  | ⟨1, _⟩ => show win1_7.index t (1 : Fin 2) * 128 + 1 * (y 1).val = (y 1).val; omega

/-- The second bias row is staged whole at every point. -/
theorem blk8_eq (c : Dev nD) (t : Fin cfg1.N) :
    (iblk1 V c 8 t : Vec Ideal S1x128 .f32) = (V c main_v25 : S1x128.Idx → EReal) := by
  obtain ⟨-, -, -, -, -, -, -, -, ⟨e0, e1⟩, -⟩ := idx_facts t
  unfold iblk1
  funext y
  rw [View.read_apply]
  show V c main_v25 (((cfg1.win 8).blk t).view.emb y) = V c main_v25 y
  refine congrArg (V c main_v25) (funext fun a => Fin.ext ?_)
  match a with
  | ⟨0, _⟩ => show win1_8.index t (0 : Fin 2) * 1 + 1 * (y 0).val = (y 0).val; omega
  | ⟨1, _⟩ => show win1_8.index t (1 : Fin 2) * 128 + 1 * (y 1).val = (y 1).val; omega

/-- The layer norm's scale row is staged whole at every point. -/
theorem blk9_eq (c : Dev nD) (t : Fin cfg1.N) :
    (iblk1 V c 9 t : Vec Ideal S1x128 .f32) = (V c main_v26 : S1x128.Idx → EReal) := by
  obtain ⟨-, -, -, -, -, -, -, -, -, ⟨e0, e1⟩, -⟩ := idx_facts t
  unfold iblk1
  funext y
  rw [View.read_apply]
  show V c main_v26 (((cfg1.win 9).blk t).view.emb y) = V c main_v26 y
  refine congrArg (V c main_v26) (funext fun a => Fin.ext ?_)
  match a with
  | ⟨0, _⟩ => show win1_9.index t (0 : Fin 2) * 1 + 1 * (y 0).val = (y 0).val; omega
  | ⟨1, _⟩ => show win1_9.index t (1 : Fin 2) * 128 + 1 * (y 1).val = (y 1).val; omega

/-- The layer norm's shift row is staged whole at every point. -/
theorem blk10_eq (c : Dev nD) (t : Fin cfg1.N) :
    (iblk1 V c 10 t : Vec Ideal S1x128 .f32) = (V c main_v27 : S1x128.Idx → EReal) := by
  obtain ⟨-, -, -, -, -, -, -, -, -, -, ⟨e0, e1⟩, -⟩ := idx_facts t
  unfold iblk1
  funext y
  rw [View.read_apply]
  show V c main_v27 (((cfg1.win 10).blk t).view.emb y) = V c main_v27 y
  refine congrArg (V c main_v27) (funext fun a => Fin.ext ?_)
  match a with
  | ⟨0, _⟩ => show win1_10.index t (0 : Fin 2) * 1 + 1 * (y 0).val = (y 0).val; omega
  | ⟨1, _⟩ => show win1_10.index t (1 : Fin 2) * 128 + 1 * (y 1).val = (y 1).val; omega

/-- The layer's output over the whole operand arrays, as a function of the output array's index. -/
abbrev outArr (c : Dev nD) : S50000x128.Idx → EReal := fun i =>
  Spec.nodeOut (V c main_arg0) (V c main_v20) (V c main_v28) (V c main_v21) (V c main_v22) (V c main_v23) (V c main_v24)
    (V c main_arg10) (V c main_v25) (V c main_v26) (V c main_v27) (i 0) (i 1)

/-- WHAT POINT `t` WRITES BACK is block `t` of the layer's output over the whole arrays. -/
theorem flushed_eq (c : Dev nD) (t : Fin cfg1.N) :
    (dat1 (F := Ideal) V c).flushed 11 t = ((cfg1.win 11).blk t).view.read (Elt Ideal) (outArr V c) := by
  show (cfg1.win 11).cut (grid1.coords t) ((dat1 (F := Ideal) V c).after 11 t) = _
  rw [after1_11]
  unfold out1_11
  rw [View.canon_unit_zero hz]
  simp only [View.ld_unit_zero (S := S5000x128) hz, View.ld_unit_zero (S := S5000x1) hz,
    View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  have hN : grid1.N = 10 := N_1
  have ht : t.val < 10 := by have h : t.val < grid1.N := t.isLt; omega
  obtain ⟨-, -, -, -, -, -, -, -, -, -, -, ⟨e0, e1⟩⟩ := idx_facts t
  have hn : t.val * 5000 + p.val < 50000 := by have := p.isLt; omega
  have he : ((cfg1.win 11).blk t).view.emb (ix2 p q) = ix2 (⟨t.val * 5000 + p.val, hn⟩ : Fin 50000) q :=
    funext fun a => Fin.ext (by
      match a with
      | ⟨0, _⟩ => show win1_11.index t (0 : Fin 2) * 5000 + 1 * p.val = t.val * 5000 + p.val; omega
      | ⟨1, _⟩ => show win1_11.index t (1 : Fin 2) * 128 + 1 * q.val = q.val; omega)
  refine (pay_at (iblk1 V c 0 t) (iblk1 V c 1 t) (iblk1 V c 2 t) (iblk1 V c 3 t) (iblk1 V c 4 t) (iblk1 V c 5 t)
    (iblk1 V c 6 t) (iblk1 V c 7 t) (iblk1 V c 8 t) (iblk1 V c 9 t) (iblk1 V c 10 t) p q).trans ?_
  refine Eq.trans ?_ (congrArg (outArr V c) he).symm
  exact nodeOut_of_rows (iblk1 V c 0 t) (iblk1 V c 1 t) (iblk1 V c 2 t) (V c main_arg0) (V c main_v20) (V c main_v28)
    (iblk1 V c 3 t) (iblk1 V c 4 t) (V c main_v21) (V c main_v22) (iblk1 V c 5 t) (iblk1 V c 6 t) (V c main_v23)
    (V c main_v24) (iblk1 V c 7 t) (V c main_arg10) (iblk1 V c 8 t) (iblk1 V c 9 t) (iblk1 V c 10 t) (V c main_v25)
    (V c main_v26) (V c main_v27) p ⟨t.val * 5000 + p.val, hn⟩ q
    (fun k => blk0_at V c t p k _ rfl) (fun k => blk1_at V c t p k _ rfl) (blk2_at V c t p _ rfl)
    (blk3_eq V c t) (blk4_eq V c t) (blk5_eq V c t) (blk6_eq V c t) (blk7_eq V c t) (blk8_eq V c t) (blk9_eq V c t)
    (blk10_eq V c t)

/-- An index of the output array is in point `t`'s block iff each coordinate is in the block's range on its axis. -/
theorem mem_blk (t : Fin cfg1.N) (i : S50000x128.Idx) :
    i ∈ ((cfg1.win 11).blk t).view.set ↔ ∀ a : Fin 2, win1_11.index t a * S5000x128.size a ≤ (i a).val
      ∧ (i a).val < win1_11.index t a * S5000x128.size a + S5000x128.size a := by
  show i ∈ ((View.whole main_v29).slice (win1_11.rect t)).set ↔ _
  rw [View.set_slice_whole, Rect.mem_set_unit]
  exact Iff.rfl

/-- The ten blocks of 5000 rows tile the 50000 rows: row `r` is in the block of point `r / 5000`. -/
theorem cover (i : S50000x128.Idx) :
    ∃ t : Fin cfg1.N, (cfg1.win 11).flush t = true ∧ i ∈ ((cfg1.win 11).blk t).view.set := by
  have hi0 : (i 0).val < 50000 := (i 0).isLt
  have hi1 : (i 1).val < 128 := (i 1).isLt
  have hN : grid1.N = 10 := N_1
  have hlt : (i 0).val / 5000 < cfg1.N := by show _ < grid1.N; omega
  obtain ⟨-, -, -, -, -, -, -, -, -, -, -, ⟨e0, e1⟩⟩ := idx_facts ⟨(i 0).val / 5000, hlt⟩
  refine ⟨⟨(i 0).val / 5000, hlt⟩, flush1_11 _, ?_⟩
  rw [mem_blk]
  intro a
  match a with
  | ⟨0, _⟩ =>
    show win1_11.index ⟨(i 0).val / 5000, hlt⟩ (0 : Fin 2) * 5000 ≤ (i 0).val
      ∧ (i 0).val < win1_11.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win1_11.index ⟨(i 0).val / 5000, hlt⟩ (1 : Fin 2) * 128 ≤ (i 1).val
      ∧ (i 1).val < win1_11.index ⟨(i 0).val / 5000, hlt⟩ (1 : Fin 2) * 128 + 128
    omega

end Blocks

variable (V : (c : Dev nD) → (b : Ref sig .tc) → Buf (Elt Ideal) ((c : Thread nD τ).loc b))

/-- After the ten grid points the output array holds, at node `n` and feature `j`, the layer's output for that
    node computed from the operand arrays as the region found them. -/
theorem arr1 (c : Dev nD) :
    (dat1 (F := Ideal) V c).arrAt 11 cfg1.N = fun i =>
      Spec.nodeOut (V c main_arg0) (V c main_v20) (V c main_v28) (V c main_v21) (V c main_v22) (V c main_v23) (V c main_v24)
        (V c main_arg10) (V c main_v25) (V c main_v26) (V c main_v27) (i 0) (i 1) :=
  (dat1 (F := Ideal) V c).arrAt_eq_of_cover 11 (outArr V c) (fun t _ => flushed_eq V c t) cover

end Cert.KVal1

end
-- ==== Proof.KHost.lean ====
/-
  What the host operations leave in the arrays each pallas_call stages, as functions of the arguments as launched.

  Before the edge network's call the program gathers the endpoint rows and coordination numbers of every edge,
  cuts the first weight matrix into its five row bands and lays the two bias vectors out as rows. A gather of this
  program fills the rows of an out-of-range index with a not-a-number word; where every entry of the edge list is a
  node number nothing is out of range and the gather is the plain one. Between the two calls the messages are summed
  into their destination nodes, the update's first weight matrix is cut into its three row bands, and the vectors are
  laid out as rows and the coordination numbers as a column.
-/
import proofs.«408877_j34849364640430_1_alg».proof.Proof.Gen.KernelIdeal.Frame
import proofs.«408877_j34849364640430_1_alg».proof.Proof.Spec
import Idealize.ShloMosaic.Lib.Pipeline.Value

set_option maxRecDepth 16384

noncomputable section

open scoped BigOperators

namespace Cert.KHost

open Idealize.ShloMosaic Idealize.ShloMosaic.TcCoe Idealize.ShloMosaic.ValueIdx Idealize.SL.Sem Idealize.ShloMosaic.StableHlo
open Cert.KernelIdeal Cert.KernelIdeal.Gen

/-- Row 0 of the edge list (the sources) and row 1 (the destinations), each as a vector. -/
def srcRow (x1 : (⟨S2x640000, .i32⟩ : BufTy).Contents (Elt Ideal)) : (⟨S640000, .i32⟩ : BufTy).Contents (Elt Ideal) :=
  shapeCast _ (extractStridedSlice S1x640000 ![0, 0] x1 slices_S2x640000_S1x640000_0_0) shapeCasts_S1x640000_S640000
def dstRow (x1 : (⟨S2x640000, .i32⟩ : BufTy).Contents (Elt Ideal)) : (⟨S640000, .i32⟩ : BufTy).Contents (Elt Ideal) :=
  shapeCast _ (extractStridedSlice S1x640000 ![1, 0] x1 slices_S2x640000_S1x640000_1_0) shapeCasts_S1x640000_S640000

/-- The column of start indices a gather takes: a negative entry counts from the end. -/
def normCol (r : (⟨S640000, .i32⟩ : BufTy).Contents (Elt Ideal)) : (⟨S640000x1, .i32⟩ : BufTy).Contents (Elt Ideal) :=
  broadcastInDim S640000x1 ![0] bcast_S640000_S640000x1_0
    (select (cmpi .slt r (broadcastInDim S640000 ![] bcast_S_S640000 (constantI S_ 32 0#32)))
      (addi r (broadcastInDim S640000 ![] bcast_S_S640000 (constantI S_ 32 50000#32))) r)

/-- The column of segment numbers the sum into nodes takes: the entries as they are. -/
def rawCol (r : (⟨S640000, .i32⟩ : BufTy).Contents (Elt Ideal)) : (⟨S640000x1, .i32⟩ : BufTy).Contents (Elt Ideal) :=
  broadcastInDim S640000x1 ![0] bcast_S640000_S640000x1_0 r

variable (m : (ℓ : Loc nD τ sig) → Buf (Elt Ideal) ℓ) (ρ : Dev nD → PrngReg)

/-! ## Which buffers each stretch of host operations writes

The seven stretches before the edge network's call, in order: the two rows cut out of the edge list, the four gathers (each a
called function's body), the two broadcasts to columns, the slices and reshapes of the weights. A buffer outside a stretch's list
holds after the stretch what it held before. -/

private noncomputable def wr0 : List (Ref sig .tc) :=
  [main_v0, main_v1, main_v2, main_v3]
private noncomputable def wr1 : List (Ref sig .tc) :=
  [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v4]
private noncomputable def wr2 : List (Ref sig .tc) :=
  [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v5]
private noncomputable def wr3 : List (Ref sig .tc) :=
  [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_cst, main_call2_v14, main_v6]
private noncomputable def wr4 : List (Ref sig .tc) :=
  [main_v7]
private noncomputable def wr5 : List (Ref sig .tc) :=
  [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_cst, main_call3_v14, main_v8]
private noncomputable def wr6 : List (Ref sig .tc) :=
  [main_v9, main_v10, main_v11, main_v12, main_v13, main_v14, main_v15, main_v16]

private theorem single_sub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))
private theorem sub0 : (hostOps0 (F := Ideal)).Forall fun op => op.writes ⊆ (wr0.map (Proc.devRef (τ := τ) .tc)).toFinset := by
  simp only [hostOps0, List.Forall, StableHlo.nullary_writes, StableHlo.unary_writes, StableHlo.binary_writes, StableHlo.ternary_writes, StableHlo.reshape_writes]
  repeat' apply And.intro
  all_goals exact single_sub (by decide)
private theorem sub1 : (hostOps0_1 (F := Ideal)).Forall fun op => op.writes ⊆ (wr1.map (Proc.devRef (τ := τ) .tc)).toFinset := by
  simp only [hostOps0_1, List.Forall, StableHlo.nullary_writes, StableHlo.unary_writes, StableHlo.binary_writes, StableHlo.ternary_writes, StableHlo.reshape_writes]
  repeat' apply And.intro
  all_goals exact single_sub (by decide)
private theorem sub2 : (hostOps0_2 (F := Ideal)).Forall fun op => op.writes ⊆ (wr2.map (Proc.devRef (τ := τ) .tc)).toFinset := by
  simp only [hostOps0_2, List.Forall, StableHlo.nullary_writes, StableHlo.unary_writes, StableHlo.binary_writes, StableHlo.ternary_writes, StableHlo.reshape_writes]
  repeat' apply And.intro
  all_goals exact single_sub (by decide)
private theorem sub3 : (hostOps0_3 (F := Ideal)).Forall fun op => op.writes ⊆ (wr3.map (Proc.devRef (τ := τ) .tc)).toFinset := by
  simp only [hostOps0_3, List.Forall, StableHlo.nullary_writes, StableHlo.unary_writes, StableHlo.binary_writes, StableHlo.ternary_writes, StableHlo.reshape_writes]
  repeat' apply And.intro
  all_goals exact single_sub (by decide)
private theorem sub4 : (hostOps0_4 (F := Ideal)).Forall fun op => op.writes ⊆ (wr4.map (Proc.devRef (τ := τ) .tc)).toFinset := by
  simp only [hostOps0_4, List.Forall, StableHlo.nullary_writes, StableHlo.unary_writes, StableHlo.binary_writes, StableHlo.ternary_writes, StableHlo.reshape_writes]
  repeat' apply And.intro
  all_goals exact single_sub (by decide)
private theorem sub5 : (hostOps0_5 (F := Ideal)).Forall fun op => op.writes ⊆ (wr5.map (Proc.devRef (τ := τ) .tc)).toFinset := by
  simp only [hostOps0_5, List.Forall, StableHlo.nullary_writes, StableHlo.unary_writes, StableHlo.binary_writes, StableHlo.ternary_writes, StableHlo.reshape_writes]
  repeat' apply And.intro
  all_goals exact single_sub (by decide)
private theorem sub6 : (hostOps0_6 (F := Ideal)).Forall fun op => op.writes ⊆ (wr6.map (Proc.devRef (τ := τ) .tc)).toFinset := by
  simp only [hostOps0_6, List.Forall, StableHlo.nullary_writes, StableHlo.unary_writes, StableHlo.binary_writes, StableHlo.ternary_writes, StableHlo.reshape_writes]
  repeat' apply And.intro
  all_goals exact single_sub (by decide)

/-! ### A buffer no stretch has written yet holds what it held at launch -/

private theorem W1_launch (c : Dev nD) (r : Ref sig .tc) (h0 : r ∉ wr0) :
    W1 m ρ c (Proc.devRef .tc r) = m ((c : Thread nD τ).loc r) :=
  StableHlo.after_of_writes_sub _ _ sub0 h0
private theorem W2_launch (c : Dev nD) (r : Ref sig .tc) (h0 : r ∉ wr0) (h1 : r ∉ wr1) :
    W2 m ρ c (Proc.devRef .tc r) = m ((c : Thread nD τ).loc r) :=
  (StableHlo.after_of_writes_sub _ _ sub1 h1).trans (W1_launch m ρ c r h0)
private theorem W3_launch (c : Dev nD) (r : Ref sig .tc) (h0 : r ∉ wr0) (h1 : r ∉ wr1) (h2 : r ∉ wr2) :
    W3 m ρ c (Proc.devRef .tc r) = m ((c : Thread nD τ).loc r) :=
  (StableHlo.after_of_writes_sub _ _ sub2 h2).trans (W2_launch m ρ c r h0 h1)
private theorem W4_launch (c : Dev nD) (r : Ref sig .tc) (h0 : r ∉ wr0) (h1 : r ∉ wr1) (h2 : r ∉ wr2) (h3 : r ∉ wr3) :
    W4 m ρ c (Proc.devRef .tc r) = m ((c : Thread nD τ).loc r) :=
  (StableHlo.after_of_writes_sub _ _ sub3 h3).trans (W3_launch m ρ c r h0 h1 h2)
private theorem W5_launch (c : Dev nD) (r : Ref sig .tc) (h0 : r ∉ wr0) (h1 : r ∉ wr1) (h2 : r ∉ wr2) (h3 : r ∉ wr3)
    (h4 : r ∉ wr4) : W5 m ρ c (Proc.devRef .tc r) = m ((c : Thread nD τ).loc r) :=
  (StableHlo.after_of_writes_sub _ _ sub4 h4).trans (W4_launch m ρ c r h0 h1 h2 h3)
private theorem W6_launch (c : Dev nD) (r : Ref sig .tc) (h0 : r ∉ wr0) (h1 : r ∉ wr1) (h2 : r ∉ wr2) (h3 : r ∉ wr3)
    (h4 : r ∉ wr4) (h5 : r ∉ wr5) : W6 m ρ c (Proc.devRef .tc r) = m ((c : Thread nD τ).loc r) :=
  (StableHlo.after_of_writes_sub _ _ sub5 h5).trans (W5_launch m ρ c r h0 h1 h2 h3 h4)
private theorem W7_launch (c : Dev nD) (r : Ref sig .tc) (h0 : r ∉ wr0) (h1 : r ∉ wr1) (h2 : r ∉ wr2) (h3 : r ∉ wr3)
    (h4 : r ∉ wr4) (h5 : r ∉ wr5) (h6 : r ∉ wr6) : W7 m ρ c (Proc.devRef .tc r) = m ((c : Thread nD τ).loc r) :=
  (StableHlo.after_of_writes_sub _ _ sub6 h6).trans (W6_launch m ρ c r h0 h1 h2 h3 h4 h5)

/-! ### The slices and reshapes of the weights, read at an index -/

/-- A band of rows cut out of a matrix with 128 columns. -/
private theorem slice_rows {R n : ℕ} (off : ℕ) (h : off + n ≤ R) (W : (⟨2, ![R, 128]⟩ : Shape).Idx → EReal)
    (hs : (⟨2, ![R, 128]⟩ : Shape).Slices ![off, 0] ⟨2, ![n, 128]⟩) :
    extractStridedSlice ⟨2, ![n, 128]⟩ ![off, 0] W hs = Spec.rowsOf W off h := by
  funext i
  have h0 : (i 0).val < n := (i 0).isLt
  refine (extractStridedSlice_apply _ _ _ i (ix2 ⟨off + (i 0).val, by omega⟩ (i 1)) ?_).trans rfl
  intro a
  match a with
  | ⟨0, _⟩ => rfl
  | ⟨1, _⟩ => show (i 1).val = 0 + (i 1).val; omega

/-- A vector of 128 entries reshaped to one row. -/
private theorem cast_row (b : (⟨1, ![128]⟩ : Shape).Idx → EReal) (hs : (⟨1, ![128]⟩ : Shape).ShapeCasts ⟨2, ![1, 128]⟩) :
    shapeCast ⟨2, ![1, 128]⟩ b hs = Spec.rowVec b := by
  funext i
  have h0 : (i 0).val < 1 := (i 0).isLt
  refine (shapeCast_apply _ _ i (ix1 (i 1)) ?_).trans rfl
  rw [Shape.rowMajor_val_one, Shape.rowMajor_val_two]
  show (i 1).val = (i 0).val * 128 + (i 1).val
  omega

/-- A vector reshaped to one column. -/
private theorem cast_col {M : ℕ} (v : (⟨1, ![M]⟩ : Shape).Idx → EReal) (hs : (⟨1, ![M]⟩ : Shape).ShapeCasts ⟨2, ![M, 1]⟩) :
    shapeCast ⟨2, ![M, 1]⟩ v hs = Spec.colVec v := by
  funext i
  have h1 : (i 1).val < 1 := (i 1).isLt
  refine (shapeCast_apply _ _ i (ix1 (i 0)) ?_).trans rfl
  rw [Shape.rowMajor_val_one, Shape.rowMajor_val_two]
  show (i 0).val = (i 0).val * 1 + (i 1).val
  omega

/-! ## A gather's range test

Per row of the column of start indices: the index is at least 0 and at most 49999 (the last node number); the conjunction
folded over the column's one entry per row. -/

/-- The range test of a column of start indices, one word per row. -/
private def inBounds (col : (⟨S640000x1, .i32⟩ : BufTy).Contents (Elt Ideal)) : (⟨S640000, .i1⟩ : BufTy).Contents (Elt Ideal) :=
  Host.reduce IntOp.andi
    (andi (cmpi .sge col (broadcastInDim S640000x1 ![] bcast_S_S640000x1 (constantI S_ 32 0#32)))
      (cmpi .sle col (broadcastInDim S640000x1 ![0, 1] bcast_S1x1_S640000x1_0_1
        (broadcastInDim S1x1 ![1] bcast_S1_S1x1_1 (constantI S1 32 49999#32)))))
    (constantI S_ 1 1#1) reducesTo_S640000x1_S640000_d1 h_S_

/-! ### Reading a typed reference's buffer through a stretch of a called function's operations -/

/-- What the buffer of a typed reference holds, at the reference's own type. -/
private def rd {T : BufTy} (x : StableHlo.TRef sig T) (F : Valuation τ sig (Elt Ideal)) : T.Contents (Elt Ideal) :=
  x.ofBuf (F (Proc.devRef .tc x.ref))

private theorem ofBuf_toBuf {T : BufTy} (y : StableHlo.TRef sig T) (v : T.Contents (Elt Ideal)) :
    y.ofBuf (Val := Elt Ideal) (y.toBuf v) = v := by
  obtain ⟨r, rfl, h1, h2⟩ := y; rfl

section Reads
variable {T Tx Ta Tb Tc Ty : BufTy}

/-- An operation's own result buffer holds its function of its operands' contents … -/
private theorem rd_nullary (y : StableHlo.TRef sig Ty) (v : Ty.Contents (Elt Ideal)) (F : Valuation τ sig (Elt Ideal)) :
    rd y ((StableHlo.TRef.nullary (τ := τ) y v).result F) = v := by
  show y.ofBuf ((StableHlo.nullary y.ref _ _).result F (Proc.devRef .tc y.ref)) = _
  rw [StableHlo.nullary_result]; exact ofBuf_toBuf y _
private theorem rd_unary (x : StableHlo.TRef sig Tx) (y : StableHlo.TRef sig Ty) (f : Tx.Contents (Elt Ideal) → Ty.Contents (Elt Ideal))
    (F : Valuation τ sig (Elt Ideal)) : rd y ((StableHlo.TRef.unary (τ := τ) x y f).result F) = f (rd x F) := by
  show y.ofBuf ((StableHlo.unary x.ref y.ref _ _ _).result F (Proc.devRef .tc y.ref)) = _
  rw [StableHlo.unary_result]; exact ofBuf_toBuf y _
private theorem rd_binary (a : StableHlo.TRef sig Ta) (b : StableHlo.TRef sig Tb) (y : StableHlo.TRef sig Ty)
    (f : Ta.Contents (Elt Ideal) → Tb.Contents (Elt Ideal) → Ty.Contents (Elt Ideal)) (F : Valuation τ sig (Elt Ideal)) :
    rd y ((StableHlo.TRef.binary (τ := τ) a b y f).result F) = f (rd a F) (rd b F) := by
  show y.ofBuf ((StableHlo.binary a.ref b.ref y.ref _ _ _ _).result F (Proc.devRef .tc y.ref)) = _
  rw [StableHlo.binary_result]; exact ofBuf_toBuf y _
private theorem rd_ternary (c : StableHlo.TRef sig Tc) (a : StableHlo.TRef sig Ta) (b : StableHlo.TRef sig Tb) (y : StableHlo.TRef sig Ty)
    (f : Tc.Contents (Elt Ideal) → Ta.Contents (Elt Ideal) → Tb.Contents (Elt Ideal) → Ty.Contents (Elt Ideal))
    (F : Valuation τ sig (Elt Ideal)) :
    rd y ((StableHlo.TRef.ternary (τ := τ) c a b y f).result F) = f (rd c F) (rd a F) (rd b F) := by
  show y.ofBuf ((StableHlo.ternary c.ref a.ref b.ref y.ref _ _ _ _ _).result F (Proc.devRef .tc y.ref)) = _
  rw [StableHlo.ternary_result]; exact ofBuf_toBuf y _

/-- … and every other buffer what it held. -/
private theorem rd_nullary_ne (r : StableHlo.TRef sig T) (y : StableHlo.TRef sig Ty) (v : Ty.Contents (Elt Ideal))
    (F : Valuation τ sig (Elt Ideal)) (h : r.ref ≠ y.ref) : rd r ((StableHlo.TRef.nullary (τ := τ) y v).result F) = rd r F := by
  show r.ofBuf ((StableHlo.nullary y.ref _ _).result F (Proc.devRef .tc r.ref)) = _
  rw [StableHlo.nullary_result_ne _ _ _ _ h]; rfl
private theorem rd_unary_ne (r : StableHlo.TRef sig T) (x : StableHlo.TRef sig Tx) (y : StableHlo.TRef sig Ty)
    (f : Tx.Contents (Elt Ideal) → Ty.Contents (Elt Ideal)) (F : Valuation τ sig (Elt Ideal)) (h : r.ref ≠ y.ref) :
    rd r ((StableHlo.TRef.unary (τ := τ) x y f).result F) = rd r F := by
  show r.ofBuf ((StableHlo.unary x.ref y.ref _ _ _).result F (Proc.devRef .tc r.ref)) = _
  rw [StableHlo.unary_result_ne _ _ _ _ _ _ h]; rfl
private theorem rd_binary_ne (r : StableHlo.TRef sig T) (a : StableHlo.TRef sig Ta) (b : StableHlo.TRef sig Tb) (y : StableHlo.TRef sig Ty)
    (f : Ta.Contents (Elt Ideal) → Tb.Contents (Elt Ideal) → Ty.Contents (Elt Ideal)) (F : Valuation τ sig (Elt Ideal))
    (h : r.ref ≠ y.ref) : rd r ((StableHlo.TRef.binary (τ := τ) a b y f).result F) = rd r F := by
  show r.ofBuf ((StableHlo.binary a.ref b.ref y.ref _ _ _ _).result F (Proc.devRef .tc r.ref)) = _
  rw [StableHlo.binary_result_ne _ _ _ _ _ _ _ _ h]; rfl
private theorem rd_ternary_ne (r : StableHlo.TRef sig T) (c : StableHlo.TRef sig Tc) (a : StableHlo.TRef sig Ta) (b : StableHlo.TRef sig Tb)
    (y : StableHlo.TRef sig Ty)
    (f : Tc.Contents (Elt Ideal) → Ta.Contents (Elt Ideal) → Tb.Contents (Elt Ideal) → Ty.Contents (Elt Ideal))
    (F : Valuation τ sig (Elt Ideal)) (h : r.ref ≠ y.ref) :
    rd r ((StableHlo.TRef.ternary (τ := τ) c a b y f).result F) = rd r F := by
  show r.ofBuf ((StableHlo.ternary c.ref a.ref b.ref y.ref _ _ _ _ _).result F (Proc.devRef .tc r.ref)) = _
  rw [StableHlo.ternary_result_ne _ _ _ _ _ _ _ _ _ _ h]; rfl

end Reads

/-! ## The rows of the edge list, as the later stretches find them -/

private theorem s0_v1 (X : Valuation τ sig (Elt Ideal)) :
    StableHlo.after hostOps0 X (Proc.devRef .tc main_v1) = srcRow (X (Proc.devRef .tc main_arg1)) := by
  after_results <;> rfl
private theorem s0_v3 (X : Valuation τ sig (Elt Ideal)) :
    StableHlo.after hostOps0 X (Proc.devRef .tc main_v3) = dstRow (X (Proc.devRef .tc main_arg1)) := by
  after_results <;> rfl

private theorem W1_v1 (c : Dev nD) : W1 m ρ c (Proc.devRef .tc main_v1) = srcRow (m ((c : Thread nD τ).loc main_arg1)) :=
  s0_v1 (W0 m ρ c)
private theorem W3_v1 (c : Dev nD) : W3 m ρ c (Proc.devRef .tc main_v1) = srcRow (m ((c : Thread nD τ).loc main_arg1)) :=
    (StableHlo.after_of_writes_sub _ _ sub2 (by decide)).trans <|
    (StableHlo.after_of_writes_sub _ _ sub1 (by decide)).trans <|
    W1_v1 m ρ c
private theorem W1_v3 (c : Dev nD) : W1 m ρ c (Proc.devRef .tc main_v3) = dstRow (m ((c : Thread nD τ).loc main_arg1)) :=
  s0_v3 (W0 m ρ c)
private theorem W2_v3 (c : Dev nD) : W2 m ρ c (Proc.devRef .tc main_v3) = dstRow (m ((c : Thread nD τ).loc main_arg1)) :=
    (StableHlo.after_of_writes_sub _ _ sub1 (by decide)).trans <|
    W1_v3 m ρ c
private theorem W5_v3 (c : Dev nD) : W5 m ρ c (Proc.devRef .tc main_v3) = dstRow (m ((c : Thread nD τ).loc main_arg1)) :=
    (StableHlo.after_of_writes_sub _ _ sub4 (by decide)).trans <|
    (StableHlo.after_of_writes_sub _ _ sub3 (by decide)).trans <|
    (StableHlo.after_of_writes_sub _ _ sub2 (by decide)).trans <|
    (StableHlo.after_of_writes_sub _ _ sub1 (by decide)).trans <|
    W1_v3 m ρ c

/-! ## What each gather's stretch leaves in its result, over any contents before it

The printed gather is `select mask (gather x idx) (not-a-number splat)`, `idx` the column `normCol` of the row and
`mask` the range test `inBounds idx`, per row, broadcast along the features. -/

private theorem t1_v4 (X : Valuation τ sig (Elt Ideal)) :
    rd (.of main_v4 : StableHlo.TRef sig ⟨S640000x128, .f32⟩) (StableHlo.after hostOps0_1 X)
      = select (broadcastInDim S640000x128 ![0] bcast_S640000_S640000x128_0
            (inBounds (normCol (rd (.of main_v1 : StableHlo.TRef sig ⟨S640000, .i32⟩) X))))
          (Host.gather gather_S50000x128_S640000x1_S640000x128_1_0_n_n_0_1_1128
            (rd (.of main_arg0 : StableHlo.TRef sig ⟨S50000x128, .f32⟩) X)
            (normCol (rd (.of main_v1 : StableHlo.TRef sig ⟨S640000, .i32⟩) X)))
          (broadcastInDim S640000x128 ![] bcast_S_S640000x128 (constant (F := Ideal) S_ .f32 0x7FC00000#32)) := by
  unfold inBounds normCol
  simp (disch := decide) only [StableHlo.after_cons, StableHlo.after_nil, rd_nullary, rd_unary, rd_binary, rd_ternary,
    rd_nullary_ne, rd_unary_ne, rd_binary_ne, rd_ternary_ne]

private theorem t2_v5 (X : Valuation τ sig (Elt Ideal)) :
    rd (.of main_v5 : StableHlo.TRef sig ⟨S640000x128, .f32⟩) (StableHlo.after hostOps0_2 X)
      = select (broadcastInDim S640000x128 ![0] bcast_S640000_S640000x128_0
            (inBounds (normCol (rd (.of main_v3 : StableHlo.TRef sig ⟨S640000, .i32⟩) X))))
          (Host.gather gather_S50000x128_S640000x1_S640000x128_1_0_n_n_0_1_1128
            (rd (.of main_arg0 : StableHlo.TRef sig ⟨S50000x128, .f32⟩) X)
            (normCol (rd (.of main_v3 : StableHlo.TRef sig ⟨S640000, .i32⟩) X)))
          (broadcastInDim S640000x128 ![] bcast_S_S640000x128 (constant (F := Ideal) S_ .f32 0x7FC00000#32)) := by
  unfold inBounds normCol
  simp (disch := decide) only [StableHlo.after_cons, StableHlo.after_nil, rd_nullary, rd_unary, rd_binary, rd_ternary,
    rd_nullary_ne, rd_unary_ne, rd_binary_ne, rd_ternary_ne]

private theorem t3_v6 (X : Valuation τ sig (Elt Ideal)) :
    rd (.of main_v6 : StableHlo.TRef sig ⟨S640000, .f32⟩) (StableHlo.after hostOps0_3 X)
      = select (inBounds (normCol (rd (.of main_v1 : StableHlo.TRef sig ⟨S640000, .i32⟩) X)))
          (Host.gather gather_S50000_S640000x1_S640000_n_0_n_n_0_1_1
            (rd (.of main_arg3 : StableHlo.TRef sig ⟨S50000, .f32⟩) X)
            (normCol (rd (.of main_v1 : StableHlo.TRef sig ⟨S640000, .i32⟩) X)))
          (broadcastInDim S640000 ![] bcast_S_S640000 (constant (F := Ideal) S_ .f32 0x7FC00000#32)) := by
  unfold inBounds normCol
  simp (disch := decide) only [StableHlo.after_cons, StableHlo.after_nil, rd_nullary, rd_unary, rd_binary, rd_ternary,
    rd_nullary_ne, rd_unary_ne, rd_binary_ne, rd_ternary_ne]

private theorem t5_v8 (X : Valuation τ sig (Elt Ideal)) :
    rd (.of main_v8 : StableHlo.TRef sig ⟨S640000, .f32⟩) (StableHlo.after hostOps0_5 X)
      = select (inBounds (normCol (rd (.of main_v3 : StableHlo.TRef sig ⟨S640000, .i32⟩) X)))
          (Host.gather gather_S50000_S640000x1_S640000_n_0_n_n_0_1_1
            (rd (.of main_arg3 : StableHlo.TRef sig ⟨S50000, .f32⟩) X)
            (normCol (rd (.of main_v3 : StableHlo.TRef sig ⟨S640000, .i32⟩) X)))
          (broadcastInDim S640000 ![] bcast_S_S640000 (constant (F := Ideal) S_ .f32 0x7FC00000#32)) := by
  unfold inBounds normCol
  simp (disch := decide) only [StableHlo.after_cons, StableHlo.after_nil, rd_nullary, rd_unary, rd_binary, rd_ternary,
    rd_nullary_ne, rd_unary_ne, rd_binary_ne, rd_ternary_ne]

private theorem s4_v7 (X : Valuation τ sig (Elt Ideal)) :
    StableHlo.after hostOps0_4 X (Proc.devRef .tc main_v7)
      = broadcastInDim S640000x1 ![0] bcast_S640000_S640000x1_0 (X (Proc.devRef .tc main_v6)) := by
  after_results <;> rfl
private theorem s6_v9 (X : Valuation τ sig (Elt Ideal)) :
    StableHlo.after hostOps0_6 X (Proc.devRef .tc main_v9)
      = broadcastInDim S640000x1 ![0] bcast_S640000_S640000x1_0 (X (Proc.devRef .tc main_v8)) := by
  after_results <;> rfl

/-! ### Words: a node number read as a signed word -/

/-- A word that is not negative is not below zero … -/
private theorem slt_zero_word (v : BitVec 32) (h0 : 0 ≤ v.toInt) : IntOp.cmpi .slt v 0#32 = 0#1 := by
  have e : v.slt 0#32 = false := by
    rw [BitVec.slt, decide_eq_false_iff_not, BitVec.toInt_zero]; omega
  show BitVec.ofBool (v.slt 0#32) = 0#1
  rw [e]; rfl
/-- … it is at least zero … -/
private theorem sge_zero_word (v : BitVec 32) (h0 : 0 ≤ v.toInt) : IntOp.cmpi .sge v 0#32 = 1#1 := by
  have e : (0#32).sle v = true := by
    rw [BitVec.sle, decide_eq_true_iff, BitVec.toInt_zero]; exact h0
  show BitVec.ofBool ((0#32).sle v) = 1#1
  rw [e]; rfl
/-- … and one that is at most the last node number compares so. -/
private theorem sle_last_word (v : BitVec 32) (h1 : v.toInt ≤ 49999) : IntOp.cmpi .sle v 49999#32 = 1#1 := by
  have e : v.sle 49999#32 = true := by
    rw [BitVec.sle, decide_eq_true_iff, show (49999#32 : BitVec 32).toInt = 49999 from by decide]; exact h1
  show BitVec.ofBool (v.sle 49999#32) = 1#1
  rw [e]; rfl
/-- Counting a word that is not negative from the end leaves it as it is. -/
private theorem norm_word (v : BitVec 32) (h0 : 0 ≤ v.toInt) :
    Scalar.select (IntOp.cmpi .slt v 0#32) (IntOp.addi v 50000#32) v = v := by
  rw [slt_zero_word v h0, select_zero]

/-- A fold by `and` from 1 over words that are all 1 is 1. -/
private theorem foldl_andi_ones {ι : Type} (f : ι → BitVec 1) (hf : ∀ i, f i = 1#1) :
    ∀ l : List ι, l.foldl (fun r n => IntOp.andi r (f n)) 1#1 = 1#1
  | [] => rfl
  | a :: l => by
    rw [List.foldl_cons, hf a, show IntOp.andi (1#1 : BitVec 1) 1#1 = 1#1 from by decide]
    exact foldl_andi_ones f hf l
/-- A reduction by `and` from 1 of an array of ones is 1 everywhere. -/
private theorem reduce_andi_ones {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  exact foldl_andi_ones x hx _
/-- A select on a condition that is 1 everywhere is its first branch. -/
private theorem select_ones {s : Shape} {α : Type} (cnd : IVec s 1) (a b : s.Idx → α) (h : ∀ i, cnd i = 1#1) :
    select cnd a b = a := by
  funext i; rw [select_apply, h i, select_one]

/-! ### Under the range hypothesis every gather's mask is all ones -/

/-- The rows of an edge list of node numbers hold node numbers. -/
private theorem srcRow_range (x1 : (⟨S2x640000, .i32⟩ : BufTy).Contents (Elt Ideal)) (h : Spec.InRange x1)
    (p : S640000.Idx) : 0 ≤ ((srcRow x1 p : BitVec 32)).toInt ∧ ((srcRow x1 p : BitVec 32)).toInt < 50000 := by
  obtain ⟨k, hk⟩ : ∃ k, (srcRow x1 p : BitVec 32) = x1 k := ⟨_, rfl⟩
  rw [hk]; exact h k
private theorem dstRow_range (x1 : (⟨S2x640000, .i32⟩ : BufTy).Contents (Elt Ideal)) (h : Spec.InRange x1)
    (p : S640000.Idx) : 0 ≤ ((dstRow x1 p : BitVec 32)).toInt ∧ ((dstRow x1 p : BitVec 32)).toInt < 50000 := by
  obtain ⟨k, hk⟩ : ∃ k, (dstRow x1 p : BitVec 32) = x1 k := ⟨_, rfl⟩
  rw [hk]; exact h k
/-- The column of start indices made from a row of node numbers holds the row's entries, so node numbers. -/
private theorem normCol_range (r : (⟨S640000, .i32⟩ : BufTy).Contents (Elt Ideal))
    (hr : ∀ p : S640000.Idx, 0 ≤ ((r p : BitVec 32)).toInt ∧ ((r p : BitVec 32)).toInt < 50000) (j : S640000x1.Idx) :
    0 ≤ ((normCol r j : BitVec 32)).toInt ∧ ((normCol r j : BitVec 32)).toInt ≤ 49999 := by
  obtain ⟨k, hk⟩ : ∃ k : S640000.Idx, (normCol r j : BitVec 32)
      = Scalar.select (IntOp.cmpi .slt (r k : BitVec 32) 0#32) (IntOp.addi (r k : BitVec 32) 50000#32) (r k : BitVec 32) := ⟨_, rfl⟩
  have := hr k
  rw [hk, norm_word _ (hr k).1]; omega
/-- The range test of a column of node numbers is 1 at every row. -/
private theorem inBounds_ones (col : (⟨S640000x1, .i32⟩ : BufTy).Contents (Elt Ideal))
    (hc : ∀ j : S640000x1.Idx, 0 ≤ ((col j : BitVec 32)).toInt ∧ ((col j : BitVec 32)).toInt ≤ 49999) (p : S640000.Idx) :
    (inBounds col p : BitVec 1) = 1#1 := by
  refine reduce_andi_ones _ _ _ _ (fun j => ?_) rfl p
  show IntOp.andi (IntOp.cmpi .sge (col j : BitVec 32) 0#32) (IntOp.cmpi .sle (col j : BitVec 32) 49999#32) = 1#1
  rw [sge_zero_word _ (hc j).1, sle_last_word _ (hc j).2]; decide

/-- The per-row test broadcast along the features is 1 everywhere once it is 1 at every row. -/
private theorem mask_rows_ones (msk : (⟨S640000, .i1⟩ : BufTy).Contents (Elt Ideal)) (hm : ∀ p : S640000.Idx, (msk p : BitVec 1) = 1#1)
    (j : S640000x128.Idx) :
    (broadcastInDim S640000x128 ![0] bcast_S640000_S640000x128_0 msk j : BitVec 1) = 1#1 := hm _

/-! ## At the edge network's call -/

theorem V7_v4 (c : Dev nD) (h : Spec.InRange (m ((c : Thread nD τ).loc main_arg1))) :
    V7 m ρ c main_v4 = Host.gather gather_S50000x128_S640000x1_S640000x128_1_0_n_n_0_1_1128
      (m ((c : Thread nD τ).loc main_arg0)) (normCol (srcRow (m ((c : Thread nD τ).loc main_arg1)))) := by
  have e : W7 m ρ c (Proc.devRef .tc main_v4) = W2 m ρ c (Proc.devRef .tc main_v4) :=
    (StableHlo.after_of_writes_sub _ _ sub6 (by decide)).trans <|
    (StableHlo.after_of_writes_sub _ _ sub5 (by decide)).trans <|
    (StableHlo.after_of_writes_sub _ _ sub4 (by decide)).trans <|
    (StableHlo.after_of_writes_sub _ _ sub3 (by decide)).trans <|
    (StableHlo.after_of_writes_sub _ _ sub2 (by decide))
  refine e.trans (Eq.trans (t1_v4 (W1 m ρ c)) ?_)
  have e1 : rd (.of main_v1 : StableHlo.TRef sig ⟨S640000, .i32⟩) (W1 m ρ c) = srcRow (m ((c : Thread nD τ).loc main_arg1)) :=
    W1_v1 m ρ c
  have e0 : rd (.of main_arg0 : StableHlo.TRef sig ⟨S50000x128, .f32⟩) (W1 m ρ c) = m ((c : Thread nD τ).loc main_arg0) :=
    W1_launch m ρ c main_arg0 (by decide)
  rw [e1, e0]
  exact select_ones _ _ _ fun j => mask_rows_ones _ (fun p => inBounds_ones _ (normCol_range _ (srcRow_range _ h)) p) j
theorem V7_v5 (c : Dev nD) (h : Spec.InRange (m ((c : Thread nD τ).loc main_arg1))) :
    V7 m ρ c main_v5 = Host.gather gather_S50000x128_S640000x1_S640000x128_1_0_n_n_0_1_1128
      (m ((c : Thread nD τ).loc main_arg0)) (normCol (dstRow (m ((c : Thread nD τ).loc main_arg1)))) := by
  have e : W7 m ρ c (Proc.devRef .tc main_v5) = W3 m ρ c (Proc.devRef .tc main_v5) :=
    (StableHlo.after_of_writes_sub _ _ sub6 (by decide)).trans <|
    (StableHlo.after_of_writes_sub _ _ sub5 (by decide)).trans <|
    (StableHlo.after_of_writes_sub _ _ sub4 (by decide)).trans <|
    (StableHlo.after_of_writes_sub _ _ sub3 (by decide))
  refine e.trans (Eq.trans (t2_v5 (W2 m ρ c)) ?_)
  have e1 : rd (.of main_v3 : StableHlo.TRef sig ⟨S640000, .i32⟩) (W2 m ρ c) = dstRow (m ((c : Thread nD τ).loc main_arg1)) :=
    W2_v3 m ρ c
  have e0 : rd (.of main_arg0 : StableHlo.TRef sig ⟨S50000x128, .f32⟩) (W2 m ρ c) = m ((c : Thread nD τ).loc main_arg0) :=
    W2_launch m ρ c main_arg0 (by decide) (by decide)
  rw [e1, e0]
  exact select_ones _ _ _ fun j => mask_rows_ones _ (fun p => inBounds_ones _ (normCol_range _ (dstRow_range _ h)) p) j
theorem V7_arg2 (c : Dev nD) : V7 m ρ c main_arg2 = m ((c : Thread nD τ).loc main_arg2) :=
  W7_launch m ρ c main_arg2 (by decide) (by decide) (by decide) (by decide) (by decide) (by decide) (by decide)
theorem V7_v7 (c : Dev nD) (h : Spec.InRange (m ((c : Thread nD τ).loc main_arg1))) :
    V7 m ρ c main_v7 = broadcastInDim S640000x1 ![0] bcast_S640000_S640000x1_0
      (Host.gather gather_S50000_S640000x1_S640000_n_0_n_n_0_1_1 (m ((c : Thread nD τ).loc main_arg3))
        (normCol (srcRow (m ((c : Thread nD τ).loc main_arg1))))) := by
  have e : W7 m ρ c (Proc.devRef .tc main_v7) = W5 m ρ c (Proc.devRef .tc main_v7) :=
    (StableHlo.after_of_writes_sub _ _ sub6 (by decide)).trans <|
    (StableHlo.after_of_writes_sub _ _ sub5 (by decide))
  refine e.trans ((s4_v7 (W4 m ρ c)).trans (congrArg _ ?_))
  refine Eq.trans (t3_v6 (W3 m ρ c)) ?_
  have e1 : rd (.of main_v1 : StableHlo.TRef sig ⟨S640000, .i32⟩) (W3 m ρ c) = srcRow (m ((c : Thread nD τ).loc main_arg1)) :=
    W3_v1 m ρ c
  have e3 : rd (.of main_arg3 : StableHlo.TRef sig ⟨S50000, .f32⟩) (W3 m ρ c) = m ((c : Thread nD τ).loc main_arg3) :=
    W3_launch m ρ c main_arg3 (by decide) (by decide) (by decide)
  rw [e1, e3]
  exact select_ones _ _ _ fun p => inBounds_ones _ (normCol_range _ (srcRow_range _ h)) p
theorem V7_v9 (c : Dev nD) (h : Spec.InRange (m ((c : Thread nD τ).loc main_arg1))) :
    V7 m ρ c main_v9 = broadcastInDim S640000x1 ![0] bcast_S640000_S640000x1_0
      (Host.gather gather_S50000_S640000x1_S640000_n_0_n_n_0_1_1 (m ((c : Thread nD τ).loc main_arg3))
        (normCol (dstRow (m ((c : Thread nD τ).loc main_arg1))))) := by
  refine (s6_v9 (W6 m ρ c)).trans (congrArg _ ?_)
  refine Eq.trans (t5_v8 (W5 m ρ c)) ?_
  have e1 : rd (.of main_v3 : StableHlo.TRef sig ⟨S640000, .i32⟩) (W5 m ρ c) = dstRow (m ((c : Thread nD τ).loc main_arg1)) :=
    W5_v3 m ρ c
  have e3 : rd (.of main_arg3 : StableHlo.TRef sig ⟨S50000, .f32⟩) (W5 m ρ c) = m ((c : Thread nD τ).loc main_arg3) :=
    W5_launch m ρ c main_arg3 (by decide) (by decide) (by decide) (by decide) (by decide)
  rw [e1, e3]
  exact select_ones _ _ _ fun p => inBounds_ones _ (normCol_range _ (dstRow_range _ h)) p

private theorem s6_v10 (X : Valuation τ sig (Elt Ideal)) :
    StableHlo.after hostOps0_6 X (Proc.devRef .tc main_v10)
      = extractStridedSlice S128x128 ![0, 0] (X (Proc.devRef .tc main_arg4)) slices_S290x128_S128x128_0_0 := by
  after_results <;> rfl
theorem V7_v10 (c : Dev nD) : V7 m ρ c main_v10 = Spec.rowsOf (n := 128) (m ((c : Thread nD τ).loc main_arg4)) 0 (by decide) := by
  refine (s6_v10 (W6 m ρ c)).trans ?_
  rw [W6_launch m ρ c main_arg4 (by decide) (by decide) (by decide) (by decide) (by decide) (by decide)]
  exact slice_rows 0 _ _ _

private theorem s6_v11 (X : Valuation τ sig (Elt Ideal)) :
    StableHlo.after hostOps0_6 X (Proc.devRef .tc main_v11)
      = extractStridedSlice S128x128 ![128, 0] (X (Proc.devRef .tc main_arg4)) slices_S290x128_S128x128_128_0 := by
  after_results <;> rfl
theorem V7_v11 (c : Dev nD) : V7 m ρ c main_v11 = Spec.rowsOf (n := 128) (m ((c : Thread nD τ).loc main_arg4)) 128 (by decide) := by
  refine (s6_v11 (W6 m ρ c)).trans ?_
  rw [W6_launch m ρ c main_arg4 (by decide) (by decide) (by decide) (by decide) (by decide) (by decide)]
  exact slice_rows 128 _ _ _

private theorem s6_v12 (X : Valuation τ sig (Elt Ideal)) :
    StableHlo.after hostOps0_6 X (Proc.devRef .tc main_v12)
      = extractStridedSlice S32x128 ![256, 0] (X (Proc.devRef .tc main_arg4)) slices_S290x128_S32x128_256_0 := by
  after_results <;> rfl
theorem V7_v12 (c : Dev nD) : V7 m ρ c main_v12 = Spec.rowsOf (n := 32) (m ((c : Thread nD τ).loc main_arg4)) 256 (by decide) := by
  refine (s6_v12 (W6 m ρ c)).trans ?_
  rw [W6_launch m ρ c main_arg4 (by decide) (by decide) (by decide) (by decide) (by decide) (by decide)]
  exact slice_rows 256 _ _ _

private theorem s6_v13 (X : Valuation τ sig (Elt Ideal)) :
    StableHlo.after hostOps0_6 X (Proc.devRef .tc main_v13)
      = extractStridedSlice S1x128 ![288, 0] (X (Proc.devRef .tc main_arg4)) slices_S290x128_S1x128_288_0 := by
  after_results <;> rfl
theorem V7_v13 (c : Dev nD) : V7 m ρ c main_v13 = Spec.rowsOf (n := 1) (m ((c : Thread nD τ).loc main_arg4)) 288 (by decide) := by
  refine (s6_v13 (W6 m ρ c)).trans ?_
  rw [W6_launch m ρ c main_arg4 (by decide) (by decide) (by decide) (by decide) (by decide) (by decide)]
  exact slice_rows 288 _ _ _

private theorem s6_v14 (X : Valuation τ sig (Elt Ideal)) :
    StableHlo.after hostOps0_6 X (Proc.devRef .tc main_v14)
      = extractStridedSlice S1x128 ![289, 0] (X (Proc.devRef .tc main_arg4)) slices_S290x128_S1x128_289_0 := by
  after_results <;> rfl
theorem V7_v14 (c : Dev nD) : V7 m ρ c main_v14 = Spec.rowsOf (n := 1) (m ((c : Thread nD τ).loc main_arg4)) 289 (by decide) := by
  refine (s6_v14 (W6 m ρ c)).trans ?_
  rw [W6_launch m ρ c main_arg4 (by decide) (by decide) (by decide) (by decide) (by decide) (by decide)]
  exact slice_rows 289 _ _ _

private theorem s6_v15 (X : Valuation τ sig (Elt Ideal)) :
    StableHlo.after hostOps0_6 X (Proc.devRef .tc main_v15)
      = shapeCast S1x128 (X (Proc.devRef .tc main_arg5)) shapeCasts_S128_S1x128 := by
  after_results <;> rfl
theorem V7_v15 (c : Dev nD) : V7 m ρ c main_v15 = Spec.rowVec (m ((c : Thread nD τ).loc main_arg5)) := by
  refine (s6_v15 (W6 m ρ c)).trans ?_
  rw [W6_launch m ρ c main_arg5 (by decide) (by decide) (by decide) (by decide) (by decide) (by decide)]
  exact cast_row _ _
theorem V7_arg6 (c : Dev nD) : V7 m ρ c main_arg6 = m ((c : Thread nD τ).loc main_arg6) :=
  W7_launch m ρ c main_arg6 (by decide) (by decide) (by decide) (by decide) (by decide) (by decide) (by decide)

private theorem s6_v16 (X : Valuation τ sig (Elt Ideal)) :
    StableHlo.after hostOps0_6 X (Proc.devRef .tc main_v16)
      = shapeCast S1x128 (X (Proc.devRef .tc main_arg7)) shapeCasts_S128_S1x128 := by
  after_results <;> rfl
theorem V7_v16 (c : Dev nD) : V7 m ρ c main_v16 = Spec.rowVec (m ((c : Thread nD τ).loc main_arg7)) := by
  refine (s6_v16 (W6 m ρ c)).trans ?_
  rw [W6_launch m ρ c main_arg7 (by decide) (by decide) (by decide) (by decide) (by decide) (by decide)]
  exact cast_row _ _

end Cert.KHost

end
-- ==== Proof.KHost9.lean ====
/-
  What the host operations between the two launches leave in the arrays the update network stages, as functions of
  the arguments as launched and of the edge network's output array.

  The messages are summed into their destination nodes (the segment numbers are the destination row of the edge list,
  as it is), the update's first weight matrix is cut into its three row bands, the four vectors are laid out as rows
  and the coordination numbers as a column. The node features reach the second launch untouched.
-/
import proofs.«408877_j34849364640430_1_alg».proof.Proof.Gen.KernelIdeal.Frame
import proofs.«408877_j34849364640430_1_alg».proof.Proof.Spec
import Idealize.ShloMosaic.Lib.Pipeline.Value

set_option maxRecDepth 16384

noncomputable section

open scoped BigOperators

namespace Cert.KHost9

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

/-! ### The buffers each stretch of host operations writes -/

private def wr0 : List (Ref sig .tc) := [main_v0, main_v1, main_v2, main_v3]
private def wr1 : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v4]
private def wr2 : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v5]
private def wr3 : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_cst, main_call2_v14, main_v6]
private def wr4 : List (Ref sig .tc) := [main_v7]
private def wr5 : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_cst, main_call3_v14, main_v8]
private def wr6 : List (Ref sig .tc) := [main_v9, main_v10, main_v11, main_v12, main_v13, main_v14, main_v15, main_v16]
private def wr7 : List (Ref sig .tc) := [main_cst, main_v18, main_v19, main_v20, main_v21, main_v22, main_v23, main_v24, main_v25, main_v26, main_v27, main_v28]

private theorem single_sub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))
private theorem sub0 : (hostOps0 (F := Ideal)).Forall fun op => op.writes ⊆ (wr0.map (Proc.devRef (τ := τ) .tc)).toFinset := by
  simp only [hostOps0, List.Forall, StableHlo.nullary_writes, StableHlo.unary_writes, StableHlo.binary_writes, StableHlo.ternary_writes, StableHlo.reshape_writes]
  repeat' apply And.intro
  all_goals exact single_sub (by decide)
private theorem sub1 : (hostOps0_1 (F := Ideal)).Forall fun op => op.writes ⊆ (wr1.map (Proc.devRef (τ := τ) .tc)).toFinset := by
  simp only [hostOps0_1, List.Forall, StableHlo.nullary_writes, StableHlo.unary_writes, StableHlo.binary_writes, StableHlo.ternary_writes, StableHlo.reshape_writes]
  repeat' apply And.intro
  all_goals exact single_sub (by decide)
private theorem sub2 : (hostOps0_2 (F := Ideal)).Forall fun op => op.writes ⊆ (wr2.map (Proc.devRef (τ := τ) .tc)).toFinset := by
  simp only [hostOps0_2, List.Forall, StableHlo.nullary_writes, StableHlo.unary_writes, StableHlo.binary_writes, StableHlo.ternary_writes, StableHlo.reshape_writes]
  repeat' apply And.intro
  all_goals exact single_sub (by decide)
private theorem sub3 : (hostOps0_3 (F := Ideal)).Forall fun op => op.writes ⊆ (wr3.map (Proc.devRef (τ := τ) .tc)).toFinset := by
  simp only [hostOps0_3, List.Forall, StableHlo.nullary_writes, StableHlo.unary_writes, StableHlo.binary_writes, StableHlo.ternary_writes, StableHlo.reshape_writes]
  repeat' apply And.intro
  all_goals exact single_sub (by decide)
private theorem sub4 : (hostOps0_4 (F := Ideal)).Forall fun op => op.writes ⊆ (wr4.map (Proc.devRef (τ := τ) .tc)).toFinset := by
  simp only [hostOps0_4, List.Forall, StableHlo.nullary_writes, StableHlo.unary_writes, StableHlo.binary_writes, StableHlo.ternary_writes, StableHlo.reshape_writes]
  repeat' apply And.intro
  all_goals exact single_sub (by decide)
private theorem sub5 : (hostOps0_5 (F := Ideal)).Forall fun op => op.writes ⊆ (wr5.map (Proc.devRef (τ := τ) .tc)).toFinset := by
  simp only [hostOps0_5, List.Forall, StableHlo.nullary_writes, StableHlo.unary_writes, StableHlo.binary_writes, StableHlo.ternary_writes, StableHlo.reshape_writes]
  repeat' apply And.intro
  all_goals exact single_sub (by decide)
private theorem sub6 : (hostOps0_6 (F := Ideal)).Forall fun op => op.writes ⊆ (wr6.map (Proc.devRef (τ := τ) .tc)).toFinset := by
  simp only [hostOps0_6, List.Forall, StableHlo.nullary_writes, StableHlo.unary_writes, StableHlo.binary_writes, StableHlo.ternary_writes, StableHlo.reshape_writes]
  repeat' apply And.intro
  all_goals exact single_sub (by decide)
private theorem sub7 : (hostOps1 (F := Ideal)).Forall fun op => op.writes ⊆ (wr7.map (Proc.devRef (τ := τ) .tc)).toFinset := by
  simp only [hostOps1, List.Forall, StableHlo.nullary_writes, StableHlo.unary_writes, StableHlo.binary_writes, StableHlo.ternary_writes, StableHlo.reshape_writes]
  repeat' apply And.intro
  all_goals exact single_sub (by decide)

/-! ### A buffer no stretch has written yet holds what it held at launch -/

private theorem W1_launch (c : Dev nD) (r : Ref sig .tc) (h0 : r ∉ wr0) :
    W1 m ρ c (Proc.devRef .tc r) = m ((c : Thread nD τ).loc r) :=
  StableHlo.after_of_writes_sub _ _ sub0 h0
private theorem W2_launch (c : Dev nD) (r : Ref sig .tc) (h0 : r ∉ wr0) (h1 : r ∉ wr1) :
    W2 m ρ c (Proc.devRef .tc r) = m ((c : Thread nD τ).loc r) :=
  (StableHlo.after_of_writes_sub _ _ sub1 h1).trans (W1_launch m ρ c r h0)
private theorem W3_launch (c : Dev nD) (r : Ref sig .tc) (h0 : r ∉ wr0) (h1 : r ∉ wr1) (h2 : r ∉ wr2) :
    W3 m ρ c (Proc.devRef .tc r) = m ((c : Thread nD τ).loc r) :=
  (StableHlo.after_of_writes_sub _ _ sub2 h2).trans (W2_launch m ρ c r h0 h1)
private theorem W4_launch (c : Dev nD) (r : Ref sig .tc) (h0 : r ∉ wr0) (h1 : r ∉ wr1) (h2 : r ∉ wr2) (h3 : r ∉ wr3) :
    W4 m ρ c (Proc.devRef .tc r) = m ((c : Thread nD τ).loc r) :=
  (StableHlo.after_of_writes_sub _ _ sub3 h3).trans (W3_launch m ρ c r h0 h1 h2)
private theorem W5_launch (c : Dev nD) (r : Ref sig .tc) (h0 : r ∉ wr0) (h1 : r ∉ wr1) (h2 : r ∉ wr2) (h3 : r ∉ wr3)
    (h4 : r ∉ wr4) : W5 m ρ c (Proc.devRef .tc r) = m ((c : Thread nD τ).loc r) :=
  (StableHlo.after_of_writes_sub _ _ sub4 h4).trans (W4_launch m ρ c r h0 h1 h2 h3)
private theorem W6_launch (c : Dev nD) (r : Ref sig .tc) (h0 : r ∉ wr0) (h1 : r ∉ wr1) (h2 : r ∉ wr2) (h3 : r ∉ wr3)
    (h4 : r ∉ wr4) (h5 : r ∉ wr5) : W6 m ρ c (Proc.devRef .tc r) = m ((c : Thread nD τ).loc r) :=
  (StableHlo.after_of_writes_sub _ _ sub5 h5).trans (W5_launch m ρ c r h0 h1 h2 h3 h4)
private theorem W7_launch (c : Dev nD) (r : Ref sig .tc) (h0 : r ∉ wr0) (h1 : r ∉ wr1) (h2 : r ∉ wr2) (h3 : r ∉ wr3)
    (h4 : r ∉ wr4) (h5 : r ∉ wr5) (h6 : r ∉ wr6) : W7 m ρ c (Proc.devRef .tc r) = m ((c : Thread nD τ).loc r) :=
  (StableHlo.after_of_writes_sub _ _ sub6 h6).trans (W6_launch m ρ c r h0 h1 h2 h3 h4 h5)
/-- The first launch leaves every buffer that is none of its arrays as it found it. -/
private theorem W8_launch (c : Dev nD) (r : Ref sig .tc) (h0 : r ∉ wr0) (h1 : r ∉ wr1) (h2 : r ∉ wr2) (h3 : r ∉ wr3)
    (h4 : r ∉ wr4) (h5 : r ∉ wr5) (h6 : r ∉ wr6) (h8 : ∀ w, Pipeline.arrRef spec0 w ≠ r) :
    W8 m ρ c (Proc.devRef .tc r) = m ((c : Thread nD τ).loc r) :=
  (W8_of_ne m ρ c r h8).trans (W7_launch m ρ c r h0 h1 h2 h3 h4 h5 h6)
private theorem W9_launch (c : Dev nD) (r : Ref sig .tc) (h0 : r ∉ wr0) (h1 : r ∉ wr1) (h2 : r ∉ wr2) (h3 : r ∉ wr3)
    (h4 : r ∉ wr4) (h5 : r ∉ wr5) (h6 : r ∉ wr6) (h8 : ∀ w, Pipeline.arrRef spec0 w ≠ r) (h7 : r ∉ wr7) :
    W9 m ρ c (Proc.devRef .tc r) = m ((c : Thread nD τ).loc r) :=
  (StableHlo.after_of_writes_sub _ _ sub7 h7).trans (W8_launch m ρ c r h0 h1 h2 h3 h4 h5 h6 h8)

/-! ### The slices and reshapes of the weights, read at an index -/

/-- A band of rows cut out of a matrix with 128 columns: entry (i, j) of the band is entry (off + i, j) of the matrix. -/
private theorem slice_rows {R n : ℕ} (off : ℕ) (h : off + n ≤ R) (W : (⟨2, ![R, 128]⟩ : Shape).Idx → EReal)
    (hs : (⟨2, ![R, 128]⟩ : Shape).Slices ![off, 0] ⟨2, ![n, 128]⟩) :
    extractStridedSlice ⟨2, ![n, 128]⟩ ![off, 0] W hs = Spec.rowsOf W off h := by
  funext i
  have h0 : (i 0).val < n := (i 0).isLt
  refine (extractStridedSlice_apply _ _ _ i (ix2 ⟨off + (i 0).val, by omega⟩ (i 1)) ?_).trans rfl
  intro a
  match a with
  | ⟨0, _⟩ => rfl
  | ⟨1, _⟩ => show (i 1).val = 0 + (i 1).val; omega

/-- A vector of 128 entries reshaped to one row: the row-major position of (0, j) is j. -/
private theorem cast_row (b : (⟨1, ![128]⟩ : Shape).Idx → EReal) (hs : (⟨1, ![128]⟩ : Shape).ShapeCasts ⟨2, ![1, 128]⟩) :
    shapeCast ⟨2, ![1, 128]⟩ b hs = Spec.rowVec b := by
  funext i
  have h0 : (i 0).val < 1 := (i 0).isLt
  refine (shapeCast_apply _ _ i (ix1 (i 1)) ?_).trans rfl
  rw [Shape.rowMajor_val_one, Shape.rowMajor_val_two]
  show (i 1).val = (i 0).val * 128 + (i 1).val
  omega

/-- A vector reshaped to one column: the row-major position of (i, 0) is i. -/
private theorem cast_col {M : ℕ} (v : (⟨1, ![M]⟩ : Shape).Idx → EReal) (hs : (⟨1, ![M]⟩ : Shape).ShapeCasts ⟨2, ![M, 1]⟩) :
    shapeCast ⟨2, ![M, 1]⟩ v hs = Spec.colVec v := by
  funext i
  have h1 : (i 1).val < 1 := (i 1).isLt
  refine (shapeCast_apply _ _ i (ix1 (i 0)) ?_).trans rfl
  rw [Shape.rowMajor_val_one, Shape.rowMajor_val_two]
  show (i 0).val = (i 0).val * 1 + (i 1).val
  omega

/-! ### What the last stretch writes, over any contents it starts from -/

private theorem s7_v21 (X : Valuation τ sig (Elt Ideal)) :
    StableHlo.after hostOps1 X (Proc.devRef .tc main_v21)
      = extractStridedSlice S128x128 ![0, 0] (X (Proc.devRef .tc main_arg8)) slices_S257x128_S128x128_0_0 := by
  after_results <;> rfl
private theorem s7_v22 (X : Valuation τ sig (Elt Ideal)) :
    StableHlo.after hostOps1 X (Proc.devRef .tc main_v22)
      = extractStridedSlice S128x128 ![128, 0] (X (Proc.devRef .tc main_arg8)) slices_S257x128_S128x128_128_0 := by
  after_results <;> rfl
private theorem s7_v23 (X : Valuation τ sig (Elt Ideal)) :
    StableHlo.after hostOps1 X (Proc.devRef .tc main_v23)
      = extractStridedSlice S1x128 ![256, 0] (X (Proc.devRef .tc main_arg8)) slices_S257x128_S1x128_256_0 := by
  after_results <;> rfl
private theorem s7_v24 (X : Valuation τ sig (Elt Ideal)) :
    StableHlo.after hostOps1 X (Proc.devRef .tc main_v24)
      = shapeCast S1x128 (X (Proc.devRef .tc main_arg9)) shapeCasts_S128_S1x128 := by
  after_results <;> rfl
private theorem s7_v25 (X : Valuation τ sig (Elt Ideal)) :
    StableHlo.after hostOps1 X (Proc.devRef .tc main_v25)
      = shapeCast S1x128 (X (Proc.devRef .tc main_arg11)) shapeCasts_S128_S1x128 := by
  after_results <;> rfl
private theorem s7_v26 (X : Valuation τ sig (Elt Ideal)) :
    StableHlo.after hostOps1 X (Proc.devRef .tc main_v26)
      = shapeCast S1x128 (X (Proc.devRef .tc main_arg12)) shapeCasts_S128_S1x128 := by
  after_results <;> rfl
private theorem s7_v27 (X : Valuation τ sig (Elt Ideal)) :
    StableHlo.after hostOps1 X (Proc.devRef .tc main_v27)
      = shapeCast S1x128 (X (Proc.devRef .tc main_arg13)) shapeCasts_S128_S1x128 := by
  after_results <;> rfl
private theorem s7_v28 (X : Valuation τ sig (Elt Ideal)) :
    StableHlo.after hostOps1 X (Proc.devRef .tc main_v28)
      = shapeCast S50000x1 (X (Proc.devRef .tc main_arg3)) shapeCasts_S50000_S50000x1 := by
  after_results <;> rfl
/-- The aggregation: the zero array, the destination numbers as a column, and the first launch's output array. -/
private theorem s7_v20 (X : Valuation τ sig (Elt Ideal)) :
    StableHlo.after hostOps1 X (Proc.devRef .tc main_v20)
      = Host.scatterAdd (F := Ideal) (φ := .f32) scatter_S50000x128_S640000x1_S640000x128_1_0_0_1
          (broadcastInDim S50000x128 ![] bcast_S_S50000x128 (constant (F := Ideal) S_ .f32 0x00000000#32))
          (broadcastInDim S640000x1 ![0] bcast_S640000_S640000x1_0 (X (Proc.devRef .tc main_v3)))
          (X (Proc.devRef .tc main_v17)) := by
  after_results <;> rfl
/-- The first stretch cuts the destination row out of the edge list and lays it out as a vector. -/
private theorem s0_v3 (X : Valuation τ sig (Elt Ideal)) :
    StableHlo.after hostOps0 X (Proc.devRef .tc main_v3)
      = shapeCast _ (extractStridedSlice S1x640000 ![1, 0] (X (Proc.devRef .tc main_arg1)) slices_S2x640000_S1x640000_1_0)
          shapeCasts_S1x640000_S640000 := by
  after_results <;> rfl
/-- Only the first stretch writes the destination vector; the first launch does not stage it. -/
private theorem W8_v3 (c : Dev nD) :
    W8 m ρ c (Proc.devRef .tc main_v3)
      = shapeCast _ (extractStridedSlice S1x640000 ![1, 0] (m ((c : Thread nD τ).loc main_arg1)) slices_S2x640000_S1x640000_1_0)
          shapeCasts_S1x640000_S640000 :=
  (W8_of_ne m ρ c main_v3 (by decide)).trans <|
  (StableHlo.after_of_writes_sub _ _ sub6 (by decide)).trans <|
  (StableHlo.after_of_writes_sub _ _ sub5 (by decide)).trans <|
  (StableHlo.after_of_writes_sub _ _ sub4 (by decide)).trans <|
  (StableHlo.after_of_writes_sub _ _ sub3 (by decide)).trans <|
  (StableHlo.after_of_writes_sub _ _ sub2 (by decide)).trans <|
  (StableHlo.after_of_writes_sub _ _ sub1 (by decide)).trans <| s0_v3 (W0 m ρ c)

/-! ### The arrays the second launch stages -/

theorem V9_arg0 (c : Dev nD) : V9 m ρ c main_arg0 = m ((c : Thread nD τ).loc main_arg0) :=
  W9_launch m ρ c main_arg0 (by decide) (by decide) (by decide) (by decide) (by decide) (by decide) (by decide) (by decide) (by decide)
/-- The aggregated messages: the edge network's output array summed into the destination nodes. -/
theorem V9_v20 (c : Dev nD) :
    V9 m ρ c main_v20 = Host.scatterAdd (F := Ideal) (φ := .f32) scatter_S50000x128_S640000x1_S640000x128_1_0_0_1
      (broadcastInDim S50000x128 ![] bcast_S_S50000x128 (constant (F := Ideal) S_ .f32 0x00000000#32))
      (broadcastInDim S640000x1 ![0] bcast_S640000_S640000x1_0
        (shapeCast _ (extractStridedSlice S1x640000 ![1, 0] (m ((c : Thread nD τ).loc main_arg1)) slices_S2x640000_S1x640000_1_0)
          shapeCasts_S1x640000_S640000))
      ((dat0 (F := Ideal) (V7 m ρ) c).arrAt 13 cfg0.N) := by
  refine (s7_v20 (W8 m ρ c)).trans ?_
  rw [W8_v3 m ρ c, show W8 m ρ c (Proc.devRef .tc main_v17) = (dat0 (F := Ideal) (V7 m ρ) c).arrAt 13 cfg0.N from W8_arr m ρ c 13]
theorem V9_v28 (c : Dev nD) : V9 m ρ c main_v28 = Spec.colVec (m ((c : Thread nD τ).loc main_arg3)) := by
  refine (s7_v28 (W8 m ρ c)).trans ?_
  rw [W8_launch m ρ c main_arg3 (by decide) (by decide) (by decide) (by decide) (by decide) (by decide) (by decide) (by decide)]
  exact cast_col _ _
theorem V9_v21 (c : Dev nD) : V9 m ρ c main_v21 = Spec.rowsOf (n := 128) (m ((c : Thread nD τ).loc main_arg8)) 0 (by decide) := by
  refine (s7_v21 (W8 m ρ c)).trans ?_
  rw [W8_launch m ρ c main_arg8 (by decide) (by decide) (by decide) (by decide) (by decide) (by decide) (by decide) (by decide)]
  exact slice_rows 0 _ _ _
theorem V9_v22 (c : Dev nD) : V9 m ρ c main_v22 = Spec.rowsOf (n := 128) (m ((c : Thread nD τ).loc main_arg8)) 128 (by decide) := by
  refine (s7_v22 (W8 m ρ c)).trans ?_
  rw [W8_launch m ρ c main_arg8 (by decide) (by decide) (by decide) (by decide) (by decide) (by decide) (by decide) (by decide)]
  exact slice_rows 128 _ _ _
theorem V9_v23 (c : Dev nD) : V9 m ρ c main_v23 = Spec.rowsOf (n := 1) (m ((c : Thread nD τ).loc main_arg8)) 256 (by decide) := by
  refine (s7_v23 (W8 m ρ c)).trans ?_
  rw [W8_launch m ρ c main_arg8 (by decide) (by decide) (by decide) (by decide) (by decide) (by decide) (by decide) (by decide)]
  exact slice_rows 256 _ _ _
theorem V9_v24 (c : Dev nD) : V9 m ρ c main_v24 = Spec.rowVec (m ((c : Thread nD τ).loc main_arg9)) := by
  refine (s7_v24 (W8 m ρ c)).trans ?_
  rw [W8_launch m ρ c main_arg9 (by decide) (by decide) (by decide) (by decide) (by decide) (by decide) (by decide) (by decide)]
  exact cast_row _ _
theorem V9_arg10 (c : Dev nD) : V9 m ρ c main_arg10 = m ((c : Thread nD τ).loc main_arg10) :=
  W9_launch m ρ c main_arg10 (by decide) (by decide) (by decide) (by decide) (by decide) (by decide) (by decide) (by decide) (by decide)
theorem V9_v25 (c : Dev nD) : V9 m ρ c main_v25 = Spec.rowVec (m ((c : Thread nD τ).loc main_arg11)) := by
  refine (s7_v25 (W8 m ρ c)).trans ?_
  rw [W8_launch m ρ c main_arg11 (by decide) (by decide) (by decide) (by decide) (by decide) (by decide) (by decide) (by decide)]
  exact cast_row _ _
theorem V9_v26 (c : Dev nD) : V9 m ρ c main_v26 = Spec.rowVec (m ((c : Thread nD τ).loc main_arg12)) := by
  refine (s7_v26 (W8 m ρ c)).trans ?_
  rw [W8_launch m ρ c main_arg12 (by decide) (by decide) (by decide) (by decide) (by decide) (by decide) (by decide) (by decide)]
  exact cast_row _ _
theorem V9_v27 (c : Dev nD) : V9 m ρ c main_v27 = Spec.rowVec (m ((c : Thread nD τ).loc main_arg13)) := by
  refine (s7_v27 (W8 m ρ c)).trans ?_
  rw [W8_launch m ρ c main_arg13 (by decide) (by decide) (by decide) (by decide) (by decide) (by decide) (by decide) (by decide)]
  exact cast_row _ _

end Cert.KHost9

end
-- ==== Proof.KValue.lean ====
/-
  The kernel program's result as one function of its arguments.

  The result buffer ends at what the second pallas_call leaves in its output array: the layer's output computed
  from the arrays that call found. Those are the arguments, laid out by the host, and the aggregated messages: the
  first call's output array, which is the message of every edge computed from the gathered endpoint rows, summed
  into the destination nodes. Where every entry of the edge list is a node number the gathers are plain gathers, and
  the composition is the specification's `layer`.
-/
import proofs.«408877_j34849364640430_1_alg».proof.Proof.KVal0
import proofs.«408877_j34849364640430_1_alg».proof.Proof.KVal1
import proofs.«408877_j34849364640430_1_alg».proof.Proof.KHost
import proofs.«408877_j34849364640430_1_alg».proof.Proof.KHost9

set_option maxRecDepth 16384

noncomputable section

namespace Cert.KValue

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The layer of the arguments as launched, with the gathers and the sum into nodes spelt as the program prints
    them. -/
def result (c : Dev nD) : (⟨S50000x128, .f32⟩ : BufTy).Contents (Elt Ideal) :=
  Spec.layer
    (Host.gather gather_S50000x128_S640000x1_S640000x128_1_0_n_n_0_1_1128 (m ((c : Thread nD τ).loc main_arg0))
      (KHost.normCol (KHost.srcRow (m ((c : Thread nD τ).loc main_arg1)))))
    (Host.gather gather_S50000x128_S640000x1_S640000x128_1_0_n_n_0_1_1128 (m ((c : Thread nD τ).loc main_arg0))
      (KHost.normCol (KHost.dstRow (m ((c : Thread nD τ).loc main_arg1)))))
    (m ((c : Thread nD τ).loc main_arg2))
    (broadcastInDim S640000x1 ![0] bcast_S640000_S640000x1_0
      (Host.gather gather_S50000_S640000x1_S640000_n_0_n_n_0_1_1 (m ((c : Thread nD τ).loc main_arg3))
        (KHost.normCol (KHost.srcRow (m ((c : Thread nD τ).loc main_arg1))))))
    (broadcastInDim S640000x1 ![0] bcast_S640000_S640000x1_0
      (Host.gather gather_S50000_S640000x1_S640000_n_0_n_n_0_1_1 (m ((c : Thread nD τ).loc main_arg3))
        (KHost.normCol (KHost.dstRow (m ((c : Thread nD τ).loc main_arg1))))))
    (fun u => Host.scatterAdd (F := Ideal) (φ := .f32) scatter_S50000x128_S640000x1_S640000x128_1_0_0_1
      (broadcastInDim S50000x128 ![] bcast_S_S50000x128 (constant (F := Ideal) S_ .f32 0x00000000#32))
      (KHost.rawCol (KHost.dstRow (m ((c : Thread nD τ).loc main_arg1)))) u)
    (m ((c : Thread nD τ).loc main_arg0)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13))

set_option maxHeartbeats 4000000 in
/-- Where every entry of the edge list is a node number, the result buffer's contents at the last boundary are the
    layer of the arguments. -/
theorem result_eq (c : Dev nD) (h : Spec.InRange (m ((c : Thread nD τ).loc main_arg1))) :
    W10 m ρ c (Proc.devRef .tc main_v29) = result m c := by
  have e1 : W10 m ρ c (Proc.devRef .tc main_v29) = (dat1 (F := Ideal) (V9 m ρ) c).arrAt 11 cfg1.N := W10_arr m ρ c 11
  rw [e1, KVal1.arr1 (V9 m ρ) c]
  rw [KHost9.V9_arg0 m ρ c, KHost9.V9_v20 m ρ c, KHost9.V9_v28 m ρ c, KHost9.V9_v21 m ρ c, KHost9.V9_v22 m ρ c,
    KHost9.V9_v23 m ρ c, KHost9.V9_v24 m ρ c, KHost9.V9_arg10 m ρ c, KHost9.V9_v25 m ρ c, KHost9.V9_v26 m ρ c,
    KHost9.V9_v27 m ρ c]
  rw [KVal0.arr0 (V7 m ρ) c]
  rw [KHost.V7_v4 m ρ c h, KHost.V7_v5 m ρ c h, KHost.V7_arg2 m ρ c, KHost.V7_v7 m ρ c h, KHost.V7_v9 m ρ c h,
    KHost.V7_v10 m ρ c, KHost.V7_v11 m ρ c, KHost.V7_v12 m ρ c, KHost.V7_v13 m ρ c, KHost.V7_v14 m ρ c,
    KHost.V7_v15 m ρ c, KHost.V7_arg6 m ρ c, KHost.V7_v16 m ρ c]
  rfl

end Cert.KValue

end
-- ==== Proof.PreRange.lean ====
/-
  What the precondition says about the edge list: its last conjunct is the conjunction, over all 2 × 640000 entries,
  of `0 ≤ v` and `v < 50000` as signed comparisons, so under the precondition every entry is a node number.
-/
import proofs.«408877_j34849364640430_1_alg».proof.Defs
import proofs.«408877_j34849364640430_1_alg».proof.Proof.Spec
import Idealize.ShloMosaic.Lib.StableHlo.Predicate
import Idealize.ShloMosaic.Lib.ReduceAll

noncomputable section

namespace Cert.PreRange

open Idealize.ShloMosaic Idealize.SL.Sem

/-- Under the precondition every entry of the edge list is a node number. -/
theorem inRange_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Spec.InRange (m ((c.tc : Thread Cert.KernelIdeal.nD Cert.KernelIdeal.τ).loc Cert.KernelIdeal.main_arg1)) := by
  intro i
  -- the predicate at its one index is a conjunction; its last conjunct is the conjunction over all entries of the edge list
  have h0 := congrFun (h c) ValueIdx.ix0
  dsimp only [Cert.Pre_finite_inputs.fn, Cert.Pre_finite_inputs.fn_part1, Cert.Pre_finite_inputs.fn_part2,
    Cert.Pre_finite_inputs.fn_part3, Cert.Pre_finite_inputs.fn_part4] at h0
  have h1 := (IntOp.andi_eq_one.1 h0).2
  -- a conjunction over all entries that is 1 is 1 at entry i
  haveI : Subsingleton Cert.Pre_finite_inputs.S_.Idx := ⟨fun a b => funext fun d => d.elim0⟩
  have h2 := Host.reduce_andi_all _ _ _ _ _ h1 i
  -- at entry i both signed comparisons hold; a broadcast scalar reads as the scalar, and the two words are 0 and 50000
  obtain ⟨h3, h4⟩ := IntOp.andi_eq_one.1 h2
  have h5 : (0#32 : BitVec 32).toInt
      ≤ (m ((c.tc : Thread Cert.KernelIdeal.nD Cert.KernelIdeal.τ).loc Cert.KernelIdeal.main_arg1) i).toInt :=
    IntOp.cmpi_sge.1 h3
  have h6 : (m ((c.tc : Thread Cert.KernelIdeal.nD Cert.KernelIdeal.τ).loc Cert.KernelIdeal.main_arg1) i).toInt
      < (50000#32 : BitVec 32).toInt :=
    IntOp.cmpi_slt.1 h4
  have e0 : (0#32 : BitVec 32).toInt = 0 := by decide
  have e1 : (50000#32 : BitVec 32).toInt = 50000 := by decide
  rw [e0] at h5
  rw [e1] at h6
  exact ⟨h5, h6⟩

end Cert.PreRange

end
-- ==== Proof.RefResult.lean ====
/-
  The reference's 113 operations run in order from ANY contents of the buffers: the result buffer ends at the last
  stage of what the fourteen argument buffers held at the start.

  The list is cut before and after each of its two concatenates. A piece without a concatenate is read over contents
  that are a variable: what it leaves in the buffers a later piece reads, given what the contents before it hold
  in the buffers it reads, and that it leaves the arguments as they were. A concatenate alone leaves its operands
  side by side in its result and every other buffer as it was. The pieces then meet at the two concatenates' stages.
-/
import proofs.«408877_j34849364640430_1_alg».proof.Proof.RefOps
import proofs.«408877_j34849364640430_1_alg».proof.Proof.RefRead
import Idealize.ShloMosaic.Lib.StableHlo.Run
import Idealize.ShloMosaic.Lib.Pipeline.Frame

noncomputable section

namespace Cert.RefResult

open Cert.ReferenceIdeal Cert.ReferenceIdeal.Gen Cert.ReferenceIdeal.ValueP Cert.ReferenceIdeal.ReadP Idealize.ShloMosaic
  Idealize.ShloMosaic.TcCoe Idealize.SL.Sem Idealize.ShloMosaic.StableHlo

section Pieces

variable {F : FTy → Type} [FloatOps F]

/-- The list cut before and after each of its two concatenates: 42 operations, the first concatenate, 22 operations,
    the second concatenate, 47 operations. -/
abbrev opsA : List (HloOp τ sig (Elt F)) := (ops (F := F)).take 42
abbrev opN1 : List (HloOp τ sig (Elt F)) := ((ops (F := F)).drop 42).take 1
abbrev opsB : List (HloOp τ sig (Elt F)) := ((ops (F := F)).drop 43).take 22
abbrev opN2 : List (HloOp τ sig (Elt F)) := ((ops (F := F)).drop 65).take 1
abbrev opsC : List (HloOp τ sig (Elt F)) := (ops (F := F)).drop 66
set_option maxRecDepth 8192 in
theorem ops_split : (ops : List (HloOp τ sig (Elt F))) = opsA ++ opN1 ++ opsB ++ opN2 ++ opsC := rfl

/-! ### Each piece of the list, run from any contents -/

/-- The first piece: the edge list's two rows, the wrapped indices and the four gathers. Here the destination row. -/
theorem A_v3 (X : Valuation τ sig (Elt F)) :
    after opsA X (Proc.devRef .tc main_v3) = val_main_v3 (F := F) (X (Proc.devRef .tc main_arg1)) := by
  simp only [opsA, ops, List.take_succ_cons, List.take_zero, List.drop_succ_cons, List.drop_zero]
  after_results_simp <;> rfl
/-- The gathered rows of the sources. -/
theorem A_v10 (X : Valuation τ sig (Elt F)) :
    after opsA X (Proc.devRef .tc main_v10)
      = val_main_v10 (F := F) (X (Proc.devRef .tc main_arg0)) (X (Proc.devRef .tc main_arg1)) := by
  simp only [opsA, ops, List.take_succ_cons, List.take_zero, List.drop_succ_cons, List.drop_zero]
  after_results_simp <;> rfl
/-- The gathered rows of the destinations. -/
theorem A_v17 (X : Valuation τ sig (Elt F)) :
    after opsA X (Proc.devRef .tc main_v17)
      = val_main_v17 (F := F) (X (Proc.devRef .tc main_arg0)) (X (Proc.devRef .tc main_arg1)) := by
  simp only [opsA, ops, List.take_succ_cons, List.take_zero, List.drop_succ_cons, List.drop_zero]
  after_results_simp <;> rfl
/-- The gathered coordination numbers of the sources, as a column. -/
theorem A_v25 (X : Valuation τ sig (Elt F)) :
    after opsA X (Proc.devRef .tc main_v25)
      = val_main_v25 (F := F) (X (Proc.devRef .tc main_arg1)) (X (Proc.devRef .tc main_arg3)) := by
  simp only [opsA, ops, List.take_succ_cons, List.take_zero, List.drop_succ_cons, List.drop_zero]
  after_results_simp <;> rfl
/-- The gathered coordination numbers of the destinations, as a column. -/
theorem A_v33 (X : Valuation τ sig (Elt F)) :
    after opsA X (Proc.devRef .tc main_v33)
      = val_main_v33 (F := F) (X (Proc.devRef .tc main_arg1)) (X (Proc.devRef .tc main_arg3)) := by
  simp only [opsA, ops, List.take_succ_cons, List.take_zero, List.drop_succ_cons, List.drop_zero]
  after_results_simp <;> rfl

set_option maxHeartbeats 4000000 in
/-- The first piece leaves the arguments as they were. -/
theorem A_args (X : Valuation τ sig (Elt F)) :
    after opsA X (Proc.devRef .tc main_arg0) = X (Proc.devRef .tc main_arg0)
    ∧ after opsA X (Proc.devRef .tc main_arg1) = X (Proc.devRef .tc main_arg1)
    ∧ after opsA X (Proc.devRef .tc main_arg2) = X (Proc.devRef .tc main_arg2)
    ∧ after opsA X (Proc.devRef .tc main_arg3) = X (Proc.devRef .tc main_arg3)
    ∧ after opsA X (Proc.devRef .tc main_arg4) = X (Proc.devRef .tc main_arg4)
    ∧ after opsA X (Proc.devRef .tc main_arg5) = X (Proc.devRef .tc main_arg5)
    ∧ after opsA X (Proc.devRef .tc main_arg6) = X (Proc.devRef .tc main_arg6)
    ∧ after opsA X (Proc.devRef .tc main_arg7) = X (Proc.devRef .tc main_arg7)
    ∧ after opsA X (Proc.devRef .tc main_arg8) = X (Proc.devRef .tc main_arg8)
    ∧ after opsA X (Proc.devRef .tc main_arg9) = X (Proc.devRef .tc main_arg9)
    ∧ after opsA X (Proc.devRef .tc main_arg10) = X (Proc.devRef .tc main_arg10)
    ∧ after opsA X (Proc.devRef .tc main_arg11) = X (Proc.devRef .tc main_arg11)
    ∧ after opsA X (Proc.devRef .tc main_arg12) = X (Proc.devRef .tc main_arg12)
    ∧ after opsA X (Proc.devRef .tc main_arg13) = X (Proc.devRef .tc main_arg13) := by
  simp only [opsA, ops, List.take_succ_cons, List.take_zero, List.drop_succ_cons, List.drop_zero]
  refine ⟨?_, ?_, ?_, ?_, ?_, ?_, ?_, ?_, ?_, ?_, ?_, ?_, ?_, ?_⟩ <;> (after_results_simp <;> rfl)

/-- The first concatenate, alone: its five operands side by side, each as the contents before it hold it. -/
theorem N1_v34 (Y : Valuation τ sig (Elt F)) :
    after opN1 Y (Proc.devRef .tc main_v34)
      = concatenate S640000x290 1 [⟨S640000x128, Y (Proc.devRef .tc main_v10)⟩, ⟨S640000x128, Y (Proc.devRef .tc main_v17)⟩, ⟨S640000x32, Y (Proc.devRef .tc main_arg2)⟩, ⟨S640000x1, Y (Proc.devRef .tc main_v25)⟩, ⟨S640000x1, Y (Proc.devRef .tc main_v33)⟩] concatenates_S640000x128_S640000x128_S640000x32_S640000x1_S640000x1_S640000x290_d1 := by
  simp only [opN1, ops, List.take_succ_cons, List.take_zero, List.drop_succ_cons, List.drop_zero]
  simp only [after_cons, after_nil]
  rw [nary_result]
  rfl
/-- It writes its own result and nothing else. -/
theorem N1_keep (Y : Valuation τ sig (Elt F)) (r : Ref sig .tc) (h : r ≠ main_v34) :
    after opN1 Y (Proc.devRef .tc r) = Y (Proc.devRef .tc r) := by
  simp only [opN1, ops, List.take_succ_cons, List.take_zero, List.drop_succ_cons, List.drop_zero]
  simp only [after_cons, after_nil]
  rw [nary_result_ne]
  exact h

/-- The second concatenate, alone. -/
theorem N2_v48 (Y : Valuation τ sig (Elt F)) :
    after opN2 Y (Proc.devRef .tc main_v48)
      = concatenate S50000x257 1 [⟨S50000x128, Y (Proc.devRef .tc main_arg0)⟩, ⟨S50000x128, Y (Proc.devRef .tc main_v46)⟩, ⟨S50000x1, Y (Proc.devRef .tc main_v47)⟩] concatenates_S50000x128_S50000x128_S50000x1_S50000x257_d1 := by
  simp only [opN2, ops, List.take_succ_cons, List.take_zero, List.drop_succ_cons, List.drop_zero]
  simp only [after_cons, after_nil]
  rw [nary_result]
  rfl
/-- It writes its own result and nothing else. -/
theorem N2_keep (Y : Valuation τ sig (Elt F)) (r : Ref sig .tc) (h : r ≠ main_v48) :
    after opN2 Y (Proc.devRef .tc r) = Y (Proc.devRef .tc r) := by
  simp only [opN2, ops, List.take_succ_cons, List.take_zero, List.drop_succ_cons, List.drop_zero]
  simp only [after_cons, after_nil]
  rw [nary_result_ne]
  exact h

/-- The piece between the two concatenates: from contents that hold the first concatenate's stage, the edge
    network and the scatter-add give the aggregate's stage. -/
theorem B_v46 (W : Valuation τ sig (Elt F))
    (x0 : (⟨S50000x128, .f32⟩ : BufTy).Contents (Elt F)) (x1 : (⟨S2x640000, .i32⟩ : BufTy).Contents (Elt F))
    (x2 : (⟨S640000x32, .f32⟩ : BufTy).Contents (Elt F)) (x3 : (⟨S50000, .f32⟩ : BufTy).Contents (Elt F))
    (x4 : (⟨S290x128, .f32⟩ : BufTy).Contents (Elt F)) (x5 : (⟨S128, .f32⟩ : BufTy).Contents (Elt F))
    (x6 : (⟨S128x128, .f32⟩ : BufTy).Contents (Elt F)) (x7 : (⟨S128, .f32⟩ : BufTy).Contents (Elt F))
    (h34 : W (Proc.devRef .tc main_v34) = val_main_v34 (F := F) x0 x1 x2 x3)
    (h3 : W (Proc.devRef .tc main_v3) = val_main_v3 (F := F) x1)
    (h4 : W (Proc.devRef .tc main_arg4) = x4) (h5 : W (Proc.devRef .tc main_arg5) = x5)
    (h6 : W (Proc.devRef .tc main_arg6) = x6) (h7 : W (Proc.devRef .tc main_arg7) = x7) :
    after opsB W (Proc.devRef .tc main_v46) = val_main_v46 (F := F) x0 x1 x2 x3 x4 x5 x6 x7 := by
  simp only [opsB, ops, List.take_succ_cons, List.take_zero, List.drop_succ_cons, List.drop_zero]
  after_results_simp
  rw [h34, h3, h4, h5, h6, h7]
  rfl
/-- The coordination numbers as a column, from contents that hold them. -/
theorem B_v47 (W : Valuation τ sig (Elt F)) (x3 : (⟨S50000, .f32⟩ : BufTy).Contents (Elt F))
    (h3 : W (Proc.devRef .tc main_arg3) = x3) :
    after opsB W (Proc.devRef .tc main_v47) = val_main_v47 (F := F) x3 := by
  simp only [opsB, ops, List.take_succ_cons, List.take_zero, List.drop_succ_cons, List.drop_zero]
  after_results_simp
  rw [h3]
  rfl
set_option maxHeartbeats 4000000 in
/-- The piece between the two concatenates leaves the arguments the later pieces read as they were. -/
theorem B_args (W : Valuation τ sig (Elt F)) :
    after opsB W (Proc.devRef .tc main_arg0) = W (Proc.devRef .tc main_arg0)
    ∧ after opsB W (Proc.devRef .tc main_arg8) = W (Proc.devRef .tc main_arg8)
    ∧ after opsB W (Proc.devRef .tc main_arg9) = W (Proc.devRef .tc main_arg9)
    ∧ after opsB W (Proc.devRef .tc main_arg10) = W (Proc.devRef .tc main_arg10)
    ∧ after opsB W (Proc.devRef .tc main_arg11) = W (Proc.devRef .tc main_arg11)
    ∧ after opsB W (Proc.devRef .tc main_arg12) = W (Proc.devRef .tc main_arg12)
    ∧ after opsB W (Proc.devRef .tc main_arg13) = W (Proc.devRef .tc main_arg13) := by
  simp only [opsB, ops, List.take_succ_cons, List.take_zero, List.drop_succ_cons, List.drop_zero]
  refine ⟨?_, ?_, ?_, ?_, ?_, ?_, ?_⟩ <;> (after_results_simp <;> rfl)

/-- The last piece: from contents that hold the second concatenate's stage, the update network and the layer
    norm give the result's stage. -/
theorem C_v82 (W : Valuation τ sig (Elt F))
    (x0 : (⟨S50000x128, .f32⟩ : BufTy).Contents (Elt F)) (x1 : (⟨S2x640000, .i32⟩ : BufTy).Contents (Elt F))
    (x2 : (⟨S640000x32, .f32⟩ : BufTy).Contents (Elt F)) (x3 : (⟨S50000, .f32⟩ : BufTy).Contents (Elt F))
    (x4 : (⟨S290x128, .f32⟩ : BufTy).Contents (Elt F)) (x5 : (⟨S128, .f32⟩ : BufTy).Contents (Elt F))
    (x6 : (⟨S128x128, .f32⟩ : BufTy).Contents (Elt F)) (x7 : (⟨S128, .f32⟩ : BufTy).Contents (Elt F))
    (x8 : (⟨S257x128, .f32⟩ : BufTy).Contents (Elt F)) (x9 : (⟨S128, .f32⟩ : BufTy).Contents (Elt F))
    (x10 : (⟨S128x128, .f32⟩ : BufTy).Contents (Elt F)) (x11 x12 x13 : (⟨S128, .f32⟩ : BufTy).Contents (Elt F))
    (h48 : W (Proc.devRef .tc main_v48) = val_main_v48 (F := F) x0 x1 x2 x3 x4 x5 x6 x7)
    (h0 : W (Proc.devRef .tc main_arg0) = x0) (h8 : W (Proc.devRef .tc main_arg8) = x8)
    (h9 : W (Proc.devRef .tc main_arg9) = x9) (h10 : W (Proc.devRef .tc main_arg10) = x10)
    (h11 : W (Proc.devRef .tc main_arg11) = x11) (h12 : W (Proc.devRef .tc main_arg12) = x12)
    (h13 : W (Proc.devRef .tc main_arg13) = x13) :
    after opsC W (Proc.devRef .tc main_v82) = val_main_v82 (F := F) x0 x1 x2 x3 x4 x5 x6 x7 x8 x9 x10 x11 x12 x13 := by
  simp only [opsC, ops, List.take_succ_cons, List.take_zero, List.drop_succ_cons, List.drop_zero]
  after_results_simp
  rw [h48, h0, h8, h9, h10, h11, h12, h13]
  rfl

end Pieces

/-! ### The whole list -/

/-- **The whole list, run from any contents**: the result buffer ends at the last stage of the contents the fourteen
    argument buffers started with. No step compares two folds: each piece is read over contents that are a variable,
    and the pieces meet at the two concatenates' stages. -/
theorem after_ops_v82 {F : FTy → Type} [FloatOps F] (X : Valuation τ sig (Elt F)) :
    StableHlo.after Cert.ReferenceIdeal.ValueP.ops X (Proc.devRef .tc main_v82)
      = Cert.ReferenceIdeal.ReadP.val_main_v82 (F := F) (X (Proc.devRef .tc main_arg0)) (X (Proc.devRef .tc main_arg1))
          (X (Proc.devRef .tc main_arg2)) (X (Proc.devRef .tc main_arg3)) (X (Proc.devRef .tc main_arg4))
          (X (Proc.devRef .tc main_arg5)) (X (Proc.devRef .tc main_arg6)) (X (Proc.devRef .tc main_arg7))
          (X (Proc.devRef .tc main_arg8)) (X (Proc.devRef .tc main_arg9)) (X (Proc.devRef .tc main_arg10))
          (X (Proc.devRef .tc main_arg11)) (X (Proc.devRef .tc main_arg12)) (X (Proc.devRef .tc main_arg13)) := by
  rw [ops_split, after_append, after_append, after_append, after_append]
  -- the first piece
  obtain ⟨a0, a1, a2, a3, a4, a5, a6, a7, a8, a9, a10, a11, a12, a13⟩ := A_args X
  have f3 := A_v3 X
  have f10 := A_v10 X
  have f17 := A_v17 X
  have f25 := A_v25 X
  have f33 := A_v33 X
  generalize after opsA X = VA at *
  -- the first concatenate
  have h34 : after opN1 VA (Proc.devRef .tc main_v34)
      = val_main_v34 (F := F) (X (Proc.devRef .tc main_arg0)) (X (Proc.devRef .tc main_arg1))
          (X (Proc.devRef .tc main_arg2)) (X (Proc.devRef .tc main_arg3)) := by
    rw [N1_v34, f10, f17, a2, f25, f33]
    rfl
  have g3 := (N1_keep VA main_v3 (by decide)).trans f3
  have g0 := (N1_keep VA main_arg0 (by decide)).trans a0
  have g3' := (N1_keep VA main_arg3 (by decide)).trans a3
  have g4 := (N1_keep VA main_arg4 (by decide)).trans a4
  have g5 := (N1_keep VA main_arg5 (by decide)).trans a5
  have g6 := (N1_keep VA main_arg6 (by decide)).trans a6
  have g7 := (N1_keep VA main_arg7 (by decide)).trans a7
  have g8 := (N1_keep VA main_arg8 (by decide)).trans a8
  have g9 := (N1_keep VA main_arg9 (by decide)).trans a9
  have g10 := (N1_keep VA main_arg10 (by decide)).trans a10
  have g11 := (N1_keep VA main_arg11 (by decide)).trans a11
  have g12 := (N1_keep VA main_arg12 (by decide)).trans a12
  have g13 := (N1_keep VA main_arg13 (by decide)).trans a13
  generalize after opN1 VA = V1 at *
  -- the piece between the concatenates
  have hv46 := B_v46 V1 _ _ _ _ _ _ _ _ h34 g3 g4 g5 g6 g7
  have hv47 := B_v47 V1 _ g3'
  obtain ⟨b0, b8, b9, b10, b11, b12, b13⟩ := B_args V1
  generalize after opsB V1 = VB at *
  -- the second concatenate
  have h48 : after opN2 VB (Proc.devRef .tc main_v48)
      = val_main_v48 (F := F) (X (Proc.devRef .tc main_arg0)) (X (Proc.devRef .tc main_arg1))
          (X (Proc.devRef .tc main_arg2)) (X (Proc.devRef .tc main_arg3)) (X (Proc.devRef .tc main_arg4))
          (X (Proc.devRef .tc main_arg5)) (X (Proc.devRef .tc main_arg6)) (X (Proc.devRef .tc main_arg7)) := by
    rw [N2_v48, b0, g0, hv46, hv47]
    rfl
  have c0 := (N2_keep VB main_arg0 (by decide)).trans (b0.trans g0)
  have c8 := (N2_keep VB main_arg8 (by decide)).trans (b8.trans g8)
  have c9 := (N2_keep VB main_arg9 (by decide)).trans (b9.trans g9)
  have c10 := (N2_keep VB main_arg10 (by decide)).trans (b10.trans g10)
  have c11 := (N2_keep VB main_arg11 (by decide)).trans (b11.trans g11)
  have c12 := (N2_keep VB main_arg12 (by decide)).trans (b12.trans g12)
  have c13 := (N2_keep VB main_arg13 (by decide)).trans (b13.trans g13)
  generalize after opN2 VB = V2 at *
  -- the last piece
  exact C_v82 V2 _ _ _ _ _ _ _ _ _ _ _ _ _ _ h48 c0 c8 c9 c10 c11 c12 c13

end Cert.RefResult

end
-- ==== Proof.SumSplit.lean ====
/-
  A sum over the rows of a weight matrix split along its row bands: 290 = 128 + 128 + 32 + 1 + 1 and
  257 = 128 + 128 + 1. Addition of extended reals is commutative and associative, so the split holds for any
  summands, finite or not.
-/
import Mathlib.Algebra.BigOperators.Fin
import Mathlib.Data.EReal.Basic

noncomputable section

open scoped BigOperators

namespace Cert.SumSplit

/-- A sum over `a + b` indices is the sum over the first `a` of them plus the sum over the last `b`. -/
private theorem sum_split {M : Type*} [AddCommMonoid M] (a b : ℕ) (f : Fin (a + b) → M) :
    ∑ k : Fin (a + b), f k
      = (∑ k : Fin a, f ⟨k.val, by have := k.isLt; omega⟩) + (∑ k : Fin b, f ⟨a + k.val, by have := k.isLt; omega⟩) := by
  rw [Fin.sum_univ_add]
  rfl

/-- A sum over one more index is the sum over the earlier ones plus the last summand. -/
private theorem sum_last {M : Type*} [AddCommMonoid M] (a : ℕ) (f : Fin (a + 1) → M) :
    ∑ k : Fin (a + 1), f k
      = (∑ k : Fin a, f ⟨k.val, by have := k.isLt; omega⟩) + f ⟨a, by omega⟩ := by
  rw [Fin.sum_univ_castSucc]
  rfl

/-- A sum over 290 rows is the sum over rows 0–127, plus rows 128–255, plus rows 256–287, plus row 288, plus row 289. -/
theorem sum290 {M : Type*} [AddCommMonoid M] (f : Fin 290 → M) :
    ∑ k : Fin 290, f k
      = (∑ k : Fin 128, f ⟨k.val, by have := k.isLt; omega⟩) + (∑ k : Fin 128, f ⟨128 + k.val, by have := k.isLt; omega⟩)
        + (∑ k : Fin 32, f ⟨256 + k.val, by have := k.isLt; omega⟩) + f ⟨288, by decide⟩ + f ⟨289, by decide⟩ := by
  have e1 := sum_last 289 f
  have e2 := sum_last 288 (fun k : Fin 289 => f ⟨k.val, by have := k.isLt; omega⟩)
  have e3 := sum_split 256 32 (fun k : Fin 288 => f ⟨k.val, by have := k.isLt; omega⟩)
  have e4 := sum_split 128 128 (fun k : Fin 256 => f ⟨k.val, by have := k.isLt; omega⟩)
  exact e1.trans (congrArg (· + f ⟨289, by decide⟩)
    (e2.trans (congrArg (· + f ⟨288, by decide⟩)
      (e3.trans (congrArg (· + ∑ k : Fin 32, f ⟨256 + k.val, by have := k.isLt; omega⟩) e4)))))

/-- A sum over 257 rows is the sum over rows 0–127, plus rows 128–255, plus row 256. -/
theorem sum257 {M : Type*} [AddCommMonoid M] (f : Fin 257 → M) :
    ∑ k : Fin 257, f k
      = (∑ k : Fin 128, f ⟨k.val, by have := k.isLt; omega⟩) + (∑ k : Fin 128, f ⟨128 + k.val, by have := k.isLt; omega⟩)
        + f ⟨256, by decide⟩ := by
  have e1 := sum_last 256 f
  have e4 := sum_split 128 128 (fun k : Fin 256 => f ⟨k.val, by have := k.isLt; omega⟩)
  exact e1.trans (congrArg (· + f ⟨256, by decide⟩) e4)

end Cert.SumSplit

end
-- ==== Proof.RefValue.lean ====
/-
  What the reference computes, read one operation at a time and index by index: the value of its last operation is
  the layer of the specification, with the four gathers and the scatter-add kept as the functions they are.
-/
import proofs.«408877_j34849364640430_1_alg».proof.Proof.RefRead
import proofs.«408877_j34849364640430_1_alg».proof.Proof.Spec
import proofs.«408877_j34849364640430_1_alg».proof.Proof.SumSplit

noncomputable section

open scoped BigOperators

namespace Cert.RefValue

open Cert.ReferenceIdeal Cert.ReferenceIdeal.Gen Cert.ReferenceIdeal.ReadP Idealize.ShloMosaic Idealize.ShloMosaic.ValueIdx

/-! ### The two concatenated rows and their products with a weight matrix, band by band -/

section EdgeRow
variable (ns nd : S640000x128.Idx → EReal) (ef : S640000x32.Idx → EReal) (cs cd : S640000x1.Idx → EReal)

/-- An edge's five operands laid side by side along the feature axis: 128 + 128 + 32 + 1 + 1 = 290 columns. -/
def edgeRow : S640000x290.Idx → EReal :=
  concatenate S640000x290 1 [⟨S640000x128, ns⟩, ⟨S640000x128, nd⟩, ⟨S640000x32, ef⟩, ⟨S640000x1, cs⟩, ⟨S640000x1, cd⟩]
    concatenates_S640000x128_S640000x128_S640000x32_S640000x1_S640000x1_S640000x290_d1

/-- Columns 0–127 of the row are the source node's features. -/
theorem edgeRow_src (e : Fin 640000) (k : Fin 128) (h : k.val < 290) :
    edgeRow ns nd ef cs cd (ix2 e (⟨k.val, h⟩ : Fin 290)) = ns (ix2 e k) := by
  unfold edgeRow
  exact concatenate_apply_piece (1 : Fin S640000x290.rank) _ _ _ 0 (by show (0 : Nat) < 5; decide) S640000x128 ns rfl rfl 0 rfl (ix2 e k)
    (fun b hb => by match b with | ⟨0, _⟩ => rfl | ⟨1, _⟩ => exact absurd rfl hb) (Nat.zero_add _)

/-- Columns 128–255 are the destination node's features. -/
theorem edgeRow_dst (e : Fin 640000) (k : Fin 128) (h : 128 + k.val < 290) :
    edgeRow ns nd ef cs cd (ix2 e (⟨128 + k.val, h⟩ : Fin 290)) = nd (ix2 e k) := by
  unfold edgeRow
  exact concatenate_apply_piece (1 : Fin S640000x290.rank) _ _ _ 1 (by show (1 : Nat) < 5; decide) S640000x128 nd rfl rfl 128 rfl (ix2 e k)
    (fun b hb => by match b with | ⟨0, _⟩ => rfl | ⟨1, _⟩ => exact absurd rfl hb) rfl

/-- Columns 256–287 are the edge's own features. -/
theorem edgeRow_feat (e : Fin 640000) (k : Fin 32) (h : 256 + k.val < 290) :
    edgeRow ns nd ef cs cd (ix2 e (⟨256 + k.val, h⟩ : Fin 290)) = ef (ix2 e k) := by
  unfold edgeRow
  exact concatenate_apply_piece (1 : Fin S640000x290.rank) _ _ _ 2 (by show (2 : Nat) < 5; decide) S640000x32 ef rfl rfl 256 rfl (ix2 e k)
    (fun b hb => by match b with | ⟨0, _⟩ => rfl | ⟨1, _⟩ => exact absurd rfl hb) rfl

/-- Column 288 is the source's coordination number. -/
theorem edgeRow_cs (e : Fin 640000) :
    edgeRow ns nd ef cs cd (ix2 e (⟨288, by decide⟩ : Fin 290)) = cs (ix2 e (0 : Fin 1)) := by
  unfold edgeRow
  exact concatenate_apply_piece (1 : Fin S640000x290.rank) _ _ _ 3 (by show (3 : Nat) < 5; decide) S640000x1 cs rfl rfl 288 rfl (ix2 e (0 : Fin 1))
    (fun b hb => by match b with | ⟨0, _⟩ => rfl | ⟨1, _⟩ => exact absurd rfl hb) rfl

/-- Column 289 is the destination's coordination number. -/
theorem edgeRow_cd (e : Fin 640000) :
    edgeRow ns nd ef cs cd (ix2 e (⟨289, by decide⟩ : Fin 290)) = cd (ix2 e (0 : Fin 1)) := by
  unfold edgeRow
  exact concatenate_apply_piece (1 : Fin S640000x290.rank) _ _ _ 4 (by show (4 : Nat) < 5; decide) S640000x1 cd rfl rfl 289 rfl (ix2 e (0 : Fin 1))
    (fun b hb => by match b with | ⟨0, _⟩ => rfl | ⟨1, _⟩ => exact absurd rfl hb) rfl

/-- The 290-column row of an edge against the first weight matrix is the sum of its five bands against the
    matrix's five row bands. -/
theorem edge_dot (W : S290x128.Idx → EReal) (e : Fin 640000) (j : Fin 128) :
    ∑ k : Fin 290, edgeRow ns nd ef cs cd (ix2 e k) * W (ix2 k j)
      = (∑ k : Fin 128, ns (ix2 e k) * Spec.rowsOf (n := 128) W 0 (by decide) (ix2 k j))
        + (∑ k : Fin 128, nd (ix2 e k) * Spec.rowsOf (n := 128) W 128 (by decide) (ix2 k j))
        + (∑ k : Fin 32, ef (ix2 e k) * Spec.rowsOf (n := 32) W 256 (by decide) (ix2 k j))
        + cs (ix2 e (0 : Fin 1)) * Spec.rowsOf (n := 1) W 288 (by decide) (ix2 (0 : Fin 1) j)
        + cd (ix2 e (0 : Fin 1)) * Spec.rowsOf (n := 1) W 289 (by decide) (ix2 (0 : Fin 1) j) := by
  have hW : ∀ (n off : Nat) (h : off + n ≤ 290) (k : Fin n) (hk : off + k.val < 290),
      W (ix2 (⟨off + k.val, hk⟩ : Fin 290) j) = Spec.rowsOf (n := n) W off h (ix2 k j) := fun _ _ _ _ _ => rfl
  have hW0 : ∀ (k : Fin 128) (hk : k.val < 290),
      W (ix2 (⟨k.val, hk⟩ : Fin 290) j) = Spec.rowsOf (n := 128) W 0 (by decide) (ix2 k j) := fun k hk =>
    congrArg W (funext fun a => Fin.ext (by match a with | ⟨0, _⟩ => exact (Nat.zero_add _).symm | ⟨1, _⟩ => rfl))
  rw [SumSplit.sum290]
  refine congrArg₂ (· + ·) (congrArg₂ (· + ·) (congrArg₂ (· + ·) (congrArg₂ (· + ·) ?_ ?_) ?_) ?_) ?_
  · exact Finset.sum_congr rfl fun k _ => congrArg₂ (· * ·) (edgeRow_src ns nd ef cs cd e k _) (hW0 k _)
  · exact Finset.sum_congr rfl fun k _ => congrArg₂ (· * ·) (edgeRow_dst ns nd ef cs cd e k _) (hW 128 128 _ k _)
  · exact Finset.sum_congr rfl fun k _ => congrArg₂ (· * ·) (edgeRow_feat ns nd ef cs cd e k _) (hW 32 256 _ k _)
  · exact congrArg₂ (· * ·) (edgeRow_cs ns nd ef cs cd e) (hW 1 288 (by decide) (0 : Fin 1) (by decide))
  · exact congrArg₂ (· * ·) (edgeRow_cd ns nd ef cs cd e) (hW 1 289 (by decide) (0 : Fin 1) (by decide))

end EdgeRow

section NodeRow
variable (nf agg : S50000x128.Idx → EReal) (co : S50000x1.Idx → EReal)

/-- A node's three operands laid side by side along the feature axis: 128 + 128 + 1 = 257 columns. -/
def nodeRow : S50000x257.Idx → EReal :=
  concatenate S50000x257 1 [⟨S50000x128, nf⟩, ⟨S50000x128, agg⟩, ⟨S50000x1, co⟩]
    concatenates_S50000x128_S50000x128_S50000x1_S50000x257_d1

/-- Columns 0–127 of the row are the node's own features. -/
theorem nodeRow_self (n : Fin 50000) (k : Fin 128) (h : k.val < 257) :
    nodeRow nf agg co (ix2 n (⟨k.val, h⟩ : Fin 257)) = nf (ix2 n k) := by
  unfold nodeRow
  exact concatenate_apply_piece (1 : Fin S50000x257.rank) _ _ _ 0 (by show (0 : Nat) < 3; decide) S50000x128 nf rfl rfl 0 rfl (ix2 n k)
    (fun b hb => by match b with | ⟨0, _⟩ => rfl | ⟨1, _⟩ => exact absurd rfl hb) (Nat.zero_add _)

/-- Columns 128–255 are the messages summed into the node. -/
theorem nodeRow_agg (n : Fin 50000) (k : Fin 128) (h : 128 + k.val < 257) :
    nodeRow nf agg co (ix2 n (⟨128 + k.val, h⟩ : Fin 257)) = agg (ix2 n k) := by
  unfold nodeRow
  exact concatenate_apply_piece (1 : Fin S50000x257.rank) _ _ _ 1 (by show (1 : Nat) < 3; decide) S50000x128 agg rfl rfl 128 rfl (ix2 n k)
    (fun b hb => by match b with | ⟨0, _⟩ => rfl | ⟨1, _⟩ => exact absurd rfl hb) rfl

/-- Column 256 is the node's coordination number. -/
theorem nodeRow_co (n : Fin 50000) :
    nodeRow nf agg co (ix2 n (⟨256, by decide⟩ : Fin 257)) = co (ix2 n (0 : Fin 1)) := by
  unfold nodeRow
  exact concatenate_apply_piece (1 : Fin S50000x257.rank) _ _ _ 2 (by show (2 : Nat) < 3; decide) S50000x1 co rfl rfl 256 rfl (ix2 n (0 : Fin 1))
    (fun b hb => by match b with | ⟨0, _⟩ => rfl | ⟨1, _⟩ => exact absurd rfl hb) rfl

/-- The 257-column row of a node against the update's first weight matrix is the sum of its three bands against
    the matrix's three row bands. -/
theorem node_dot (U : S257x128.Idx → EReal) (n : Fin 50000) (j : Fin 128) :
    ∑ k : Fin 257, nodeRow nf agg co (ix2 n k) * U (ix2 k j)
      = (∑ k : Fin 128, nf (ix2 n k) * Spec.rowsOf (n := 128) U 0 (by decide) (ix2 k j))
        + (∑ k : Fin 128, agg (ix2 n k) * Spec.rowsOf (n := 128) U 128 (by decide) (ix2 k j))
        + co (ix2 n (0 : Fin 1)) * Spec.rowsOf (n := 1) U 256 (by decide) (ix2 (0 : Fin 1) j) := by
  have hU : ∀ (m off : Nat) (h : off + m ≤ 257) (k : Fin m) (hk : off + k.val < 257),
      U (ix2 (⟨off + k.val, hk⟩ : Fin 257) j) = Spec.rowsOf (n := m) U off h (ix2 k j) := fun _ _ _ _ _ => rfl
  have hU0 : ∀ (k : Fin 128) (hk : k.val < 257),
      U (ix2 (⟨k.val, hk⟩ : Fin 257) j) = Spec.rowsOf (n := 128) U 0 (by decide) (ix2 k j) := fun k hk =>
    congrArg U (funext fun a => Fin.ext (by match a with | ⟨0, _⟩ => exact (Nat.zero_add _).symm | ⟨1, _⟩ => rfl))
  rw [SumSplit.sum257]
  refine congrArg₂ (· + ·) (congrArg₂ (· + ·) ?_ ?_) ?_
  · exact Finset.sum_congr rfl fun k _ => congrArg₂ (· * ·) (nodeRow_self nf agg co n k _) (hU0 k _)
  · exact Finset.sum_congr rfl fun k _ => congrArg₂ (· * ·) (nodeRow_agg nf agg co n k _) (hU 128 128 _ k _)
  · exact congrArg₂ (· * ·) (nodeRow_co nf agg co n) (hU 1 256 (by decide) (0 : Fin 1) (by decide))

end NodeRow

/-! ### The operations between the products, each read at a node or an edge and a feature -/

section Stages

variable (x0 : (⟨S50000x128, .f32⟩ : BufTy).Contents (Elt Ideal)) (x1 : (⟨S2x640000, .i32⟩ : BufTy).Contents (Elt Ideal))
  (x2 : (⟨S640000x32, .f32⟩ : BufTy).Contents (Elt Ideal)) (x3 : (⟨S50000, .f32⟩ : BufTy).Contents (Elt Ideal))
  (x4 : (⟨S290x128, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal))
  (x8 : (⟨S257x128, .f32⟩ : BufTy).Contents (Elt Ideal)) (x9 : (⟨S128, .f32⟩ : BufTy).Contents (Elt Ideal))
  (x10 : (⟨S128x128, .f32⟩ : BufTy).Contents (Elt Ideal)) (x11 x12 x13 : (⟨S128, .f32⟩ : BufTy).Contents (Elt Ideal))

/-- The first edge bias, broadcast over the edges, is the bias at the feature. -/
theorem v37_at (e : Fin 640000) (j : Fin 128) :
    val_main_v37 (F := Ideal) x5 (ix2 e j) = Spec.rowVec x5 (ix2 (0 : Fin 1) j) := by
  rw [val_main_v37_apply, val_main_v36_apply]
  show x5 _ = x5 (ix1 j)
  exact congrArg x5 (funext fun a => Fin.ext (by match a with | ⟨0, _⟩ => rfl))

/-- The second edge bias, broadcast over the edges. -/
theorem v42_at (e : Fin 640000) (j : Fin 128) :
    val_main_v42 (F := Ideal) x7 (ix2 e j) = Spec.rowVec x7 (ix2 (0 : Fin 1) j) := by
  rw [val_main_v42_apply, val_main_v41_apply]
  show x7 _ = x7 (ix1 j)
  exact congrArg x7 (funext fun a => Fin.ext (by match a with | ⟨0, _⟩ => rfl))

/-- The first update bias, broadcast over the nodes. -/
theorem v51_at (n : Fin 50000) (j : Fin 128) :
    val_main_v51 (F := Ideal) x9 (ix2 n j) = Spec.rowVec x9 (ix2 (0 : Fin 1) j) := by
  rw [val_main_v51_apply, val_main_v50_apply]
  show x9 _ = x9 (ix1 j)
  exact congrArg x9 (funext fun a => Fin.ext (by match a with | ⟨0, _⟩ => rfl))

/-- The second update bias, broadcast over the nodes. -/
theorem v56_at (n : Fin 50000) (j : Fin 128) :
    val_main_v56 (F := Ideal) x11 (ix2 n j) = Spec.rowVec x11 (ix2 (0 : Fin 1) j) := by
  rw [val_main_v56_apply, val_main_v55_apply]
  show x11 _ = x11 (ix1 j)
  exact congrArg x11 (funext fun a => Fin.ext (by match a with | ⟨0, _⟩ => rfl))

/-- The layer norm's scale, broadcast over the nodes. -/
theorem v78_at (n : Fin 50000) (j : Fin 128) :
    val_main_v78 (F := Ideal) x12 (ix2 n j) = Spec.rowVec x12 (ix2 (0 : Fin 1) j) := by
  rw [val_main_v78_apply, val_main_v77_apply]
  show x12 _ = x12 (ix1 j)
  exact congrArg x12 (funext fun a => Fin.ext (by match a with | ⟨0, _⟩ => rfl))

/-- The layer norm's shift, broadcast over the nodes. -/
theorem v81_at (n : Fin 50000) (j : Fin 128) :
    val_main_v81 (F := Ideal) x13 (ix2 n j) = Spec.rowVec x13 (ix2 (0 : Fin 1) j) := by
  rw [val_main_v81_apply, val_main_v80_apply]
  show x13 _ = x13 (ix1 j)
  exact congrArg x13 (funext fun a => Fin.ext (by match a with | ⟨0, _⟩ => rfl))

/-- The coordination numbers as a column. -/
theorem v47_at (n : Fin 50000) :
    val_main_v47 (F := Ideal) x3 (ix2 n (0 : Fin 1)) = Spec.colVec x3 (ix2 n (0 : Fin 1)) := by
  rw [val_main_v47_apply]
  show x3 _ = x3 (ix1 n)
  exact congrArg x3 (funext fun a => Fin.ext (by match a with | ⟨0, _⟩ => rfl))

/-- `x · (1 / (1 + e⁻ˣ))` with the word of 1.0 for both ones is `silu x`. -/
theorem silu_read (y : EReal) :
    y * Ideal.div (Ideal.ofBits .f32 0x3F800000#32) (Ideal.ofBits .f32 0x3F800000#32 + Ideal.exp (-y)) = Spec.silu y := by
  rw [Spec.ofBits_one_f32]
  rfl

/-- The edge network's activation is `silu` of what it is applied to. -/
theorem v39_at (i : S640000x128.Idx) :
    val_main_v39 (F := Ideal) x0 x1 x2 x3 x4 x5 i = Spec.silu (val_main_v38 (F := Ideal) x0 x1 x2 x3 x4 x5 i) := by
  rw [val_main_v39_apply, val_main_call0_v5_apply, val_main_call0_v4_apply, val_main_call0_cst_0_apply,
    val_main_call0_v3_apply, val_main_call0_v2_apply, val_main_call0_cst_apply, val_main_call0_v1_apply,
    val_main_call0_v0_apply]
  generalize val_main_v38 (F := Ideal) x0 x1 x2 x3 x4 x5 i = y
  simp only [Ideal.mulf_def, Ideal.hostDivf_def, Ideal.ofBits_def, Ideal.addf_def, Ideal.hostUnary_exp_def,
    Ideal.hostNegf_def, Ideal.negf_def]
  exact silu_read y

/-- The update network's activation is `silu` of what it is applied to. -/
theorem v53_at (i : S50000x128.Idx) :
    val_main_v53 (F := Ideal) x0 x1 x2 x3 x4 x5 x6 x7 x8 x9 i
      = Spec.silu (val_main_v52 (F := Ideal) x0 x1 x2 x3 x4 x5 x6 x7 x8 x9 i) := by
  rw [val_main_v53_apply, val_main_call1_v5_apply, val_main_call1_v4_apply, val_main_call1_cst_0_apply,
    val_main_call1_v3_apply, val_main_call1_v2_apply, val_main_call1_cst_apply, val_main_call1_v1_apply,
    val_main_call1_v0_apply]
  generalize val_main_v52 (F := Ideal) x0 x1 x2 x3 x4 x5 x6 x7 x8 x9 i = y
  simp only [Ideal.mulf_def, Ideal.hostDivf_def, Ideal.ofBits_def, Ideal.addf_def, Ideal.hostUnary_exp_def,
    Ideal.hostNegf_def, Ideal.negf_def]
  exact silu_read y

/-! ### The edge network -/

/-- The edge network's first layer before its activation. -/
theorem v38_at (e : Fin 640000) (k : Fin 128) :
    val_main_v38 (F := Ideal) x0 x1 x2 x3 x4 x5 (ix2 e k)
      = Spec.edgePre (val_main_v10 (F := Ideal) x0 x1) (val_main_v17 (F := Ideal) x0 x1) x2
          (val_main_v25 (F := Ideal) x1 x3) (val_main_v33 (F := Ideal) x1 x3)
          (Spec.rowsOf (n := 128) x4 0 (by decide)) (Spec.rowsOf (n := 128) x4 128 (by decide))
          (Spec.rowsOf (n := 32) x4 256 (by decide)) (Spec.rowsOf (n := 1) x4 288 (by decide))
          (Spec.rowsOf (n := 1) x4 289 (by decide)) (Spec.rowVec x5) e k := by
  rw [val_main_v38_apply, val_main_v35_apply, v37_at, Ideal.addf_def]
  have e34 : val_main_v34 (F := Ideal) x0 x1 x2 x3
      = edgeRow (val_main_v10 (F := Ideal) x0 x1) (val_main_v17 (F := Ideal) x0 x1) x2
          (val_main_v25 (F := Ideal) x1 x3) (val_main_v33 (F := Ideal) x1 x3) := rfl
  rw [e34]
  unfold Spec.edgePre
  refine congrArg (· + _) ((Finset.sum_congr rfl fun q _ => ?_).trans
    (edge_dot (val_main_v10 (F := Ideal) x0 x1) (val_main_v17 (F := Ideal) x0 x1) x2
      (val_main_v25 (F := Ideal) x1 x3) (val_main_v33 (F := Ideal) x1 x3) x4 e k))
  have hl : lidx_main_v35 (ix2 e k) q = ix2 e q :=
    funext fun a => Fin.ext (by match a with | ⟨0, _⟩ => rfl | ⟨1, _⟩ => rfl)
  have hr : ridx_main_v35 (ix2 e k) q = ix2 q k :=
    funext fun a => Fin.ext (by match a with | ⟨0, _⟩ => rfl | ⟨1, _⟩ => rfl)
  rw [hl, hr]

/-- The message of an edge at a feature. -/
theorem v43_at (e : Fin 640000) (j : Fin 128) :
    val_main_v43 (F := Ideal) x0 x1 x2 x3 x4 x5 x6 x7 (ix2 e j)
      = Spec.edgeMsg (val_main_v10 (F := Ideal) x0 x1) (val_main_v17 (F := Ideal) x0 x1) x2
          (val_main_v25 (F := Ideal) x1 x3) (val_main_v33 (F := Ideal) x1 x3)
          (Spec.rowsOf (n := 128) x4 0 (by decide)) (Spec.rowsOf (n := 128) x4 128 (by decide))
          (Spec.rowsOf (n := 32) x4 256 (by decide)) (Spec.rowsOf (n := 1) x4 288 (by decide))
          (Spec.rowsOf (n := 1) x4 289 (by decide)) (Spec.rowVec x5) x6 (Spec.rowVec x7) e j := by
  rw [val_main_v43_apply, val_main_v40_apply, v42_at, Ideal.addf_def]
  unfold Spec.edgeMsg
  refine congrArg (· + _) (Finset.sum_congr rfl fun q _ => ?_)
  have hl : lidx_main_v40 (ix2 e j) q = ix2 e q :=
    funext fun a => Fin.ext (by match a with | ⟨0, _⟩ => rfl | ⟨1, _⟩ => rfl)
  have hr : ridx_main_v40 (ix2 e j) q = ix2 q j :=
    funext fun a => Fin.ext (by match a with | ⟨0, _⟩ => rfl | ⟨1, _⟩ => rfl)
  rw [hl, hr, v39_at, v38_at]

/-- The array of messages is the specification's message at every edge and feature. -/
theorem v43_eq :
    val_main_v43 (F := Ideal) x0 x1 x2 x3 x4 x5 x6 x7
      = fun i' : (⟨2, ![640000, 128]⟩ : Shape).Idx =>
          Spec.edgeMsg (val_main_v10 (F := Ideal) x0 x1) (val_main_v17 (F := Ideal) x0 x1) x2
            (val_main_v25 (F := Ideal) x1 x3) (val_main_v33 (F := Ideal) x1 x3)
            (Spec.rowsOf (n := 128) x4 0 (by decide)) (Spec.rowsOf (n := 128) x4 128 (by decide))
            (Spec.rowsOf (n := 32) x4 256 (by decide)) (Spec.rowsOf (n := 1) x4 288 (by decide))
            (Spec.rowsOf (n := 1) x4 289 (by decide)) (Spec.rowVec x5) x6 (Spec.rowVec x7) (i' 0) (i' 1) := by
  funext i'
  obtain ⟨e, j, rfl⟩ : ∃ (e : Fin 640000) (j : Fin 128), i' = ix2 e j := ⟨i' 0, i' 1, eq_ix2 i'⟩
  exact v43_at x0 x1 x2 x3 x4 x5 x6 x7 e j

/-- The messages summed into their destination nodes: the scatter-add applied to the specification's messages. -/
theorem v46_eq :
    val_main_v46 (F := Ideal) x0 x1 x2 x3 x4 x5 x6 x7
      = Host.scatterAdd (F := Ideal) (φ := .f32) scatter_S50000x128_S640000x1_S640000x128_1_0_0_1 (val_main_v44 (F := Ideal))
          (val_main_v45 (F := Ideal) x1)
          (fun i' : (⟨2, ![640000, 128]⟩ : Shape).Idx =>
            Spec.edgeMsg (val_main_v10 (F := Ideal) x0 x1) (val_main_v17 (F := Ideal) x0 x1) x2
              (val_main_v25 (F := Ideal) x1 x3) (val_main_v33 (F := Ideal) x1 x3)
              (Spec.rowsOf (n := 128) x4 0 (by decide)) (Spec.rowsOf (n := 128) x4 128 (by decide))
              (Spec.rowsOf (n := 32) x4 256 (by decide)) (Spec.rowsOf (n := 1) x4 288 (by decide))
              (Spec.rowsOf (n := 1) x4 289 (by decide)) (Spec.rowVec x5) x6 (Spec.rowVec x7) (i' 0) (i' 1)) := by
  unfold val_main_v46
  exact congrArg (Host.scatterAdd (F := Ideal) (φ := .f32) scatter_S50000x128_S640000x1_S640000x128_1_0_0_1 (val_main_v44 (F := Ideal))
    (val_main_v45 (F := Ideal) x1)) (v43_eq x0 x1 x2 x3 x4 x5 x6 x7)

/-! ### The update network, over whatever array `A` the messages were summed into -/

/-- The update network's first layer before its activation. -/
theorem v52_at (A : (⟨2, ![50000, 128]⟩ : Shape).Idx → EReal)
    (hA : val_main_v46 (F := Ideal) x0 x1 x2 x3 x4 x5 x6 x7 = A) (n : Fin 50000) (k : Fin 128) :
    val_main_v52 (F := Ideal) x0 x1 x2 x3 x4 x5 x6 x7 x8 x9 (ix2 n k)
      = Spec.nodePre x0 A (Spec.colVec x3) (Spec.rowsOf (n := 128) x8 0 (by decide))
          (Spec.rowsOf (n := 128) x8 128 (by decide)) (Spec.rowsOf (n := 1) x8 256 (by decide)) (Spec.rowVec x9) n k := by
  subst hA
  rw [val_main_v52_apply, val_main_v49_apply, v51_at, Ideal.addf_def]
  have e48 : val_main_v48 (F := Ideal) x0 x1 x2 x3 x4 x5 x6 x7
      = nodeRow x0 (val_main_v46 (F := Ideal) x0 x1 x2 x3 x4 x5 x6 x7) (val_main_v47 (F := Ideal) x3) := rfl
  rw [e48]
  unfold Spec.nodePre
  refine congrArg (· + _) ((Finset.sum_congr rfl fun q _ => ?_).trans
    ((node_dot x0 (val_main_v46 (F := Ideal) x0 x1 x2 x3 x4 x5 x6 x7) (val_main_v47 (F := Ideal) x3) x8 n k).trans ?_))
  · have hl : lidx_main_v49 (ix2 n k) q = ix2 n q :=
      funext fun a => Fin.ext (by match a with | ⟨0, _⟩ => rfl | ⟨1, _⟩ => rfl)
    have hr : ridx_main_v49 (ix2 n k) q = ix2 q k :=
      funext fun a => Fin.ext (by match a with | ⟨0, _⟩ => rfl | ⟨1, _⟩ => rfl)
    rw [hl, hr]
  · rw [v47_at]

/-- A node's features plus its update, before the layer norm. -/
theorem v58_at (A : (⟨2, ![50000, 128]⟩ : Shape).Idx → EReal)
    (hA : val_main_v46 (F := Ideal) x0 x1 x2 x3 x4 x5 x6 x7 = A) (n : Fin 50000) (j : Fin 128) :
    val_main_v58 (F := Ideal) x0 x1 x2 x3 x4 x5 x6 x7 x8 x9 x10 x11 (ix2 n j)
      = Spec.resid x0 A (Spec.colVec x3) (Spec.rowsOf (n := 128) x8 0 (by decide))
          (Spec.rowsOf (n := 128) x8 128 (by decide)) (Spec.rowsOf (n := 1) x8 256 (by decide)) (Spec.rowVec x9)
          x10 (Spec.rowVec x11) n j := by
  rw [val_main_v58_apply, val_main_v57_apply, val_main_v54_apply, v56_at]
  simp only [Ideal.addf_def]
  unfold Spec.resid
  refine congrArg (_ + ·) (congrArg (· + _) (Finset.sum_congr rfl fun q _ => ?_))
  have hl : lidx_main_v54 (ix2 n j) q = ix2 n q :=
    funext fun a => Fin.ext (by match a with | ⟨0, _⟩ => rfl | ⟨1, _⟩ => rfl)
  have hr : ridx_main_v54 (ix2 n j) q = ix2 q j :=
    funext fun a => Fin.ext (by match a with | ⟨0, _⟩ => rfl | ⟨1, _⟩ => rfl)
  rw [hl, hr, v53_at, v52_at x0 x1 x2 x3 x4 x5 x6 x7 x8 x9 A hA]

/-! ### The layer norm over a node's 128 features -/

/-- The mean of a node's row. -/
theorem v62_at (n : Fin 50000) :
    val_main_v62 (F := Ideal) x0 x1 x2 x3 x4 x5 x6 x7 x8 x9 x10 x11 (ix2 n (0 : Fin 1))
      = Spec.rowMean (fun k : Fin 128 => val_main_v58 (F := Ideal) x0 x1 x2 x3 x4 x5 x6 x7 x8 x9 x10 x11 (ix2 n k)) := by
  rw [val_main_v62_apply, val_main_v60_apply, val_main_v59_apply, val_main_cst_7_apply, val_main_v61_apply,
    val_main_cst_8_apply]
  generalize val_main_v58 (F := Ideal) x0 x1 x2 x3 x4 x5 x6 x7 x8 x9 x10 x11 = y
  simp only [Ideal.hostDivf_def, Ideal.ofBits_def, Ideal.ofBits_zero_f32, zero_add]
  unfold Spec.rowMean Spec.c128
  refine congrArg (Ideal.div · _) (Finset.sum_congr rfl fun q _ => congrArg y ?_)
  exact funext fun a => Fin.ext (by match a with | ⟨0, _⟩ => rfl | ⟨1, _⟩ => rfl)

/-- A row's entry less the row's mean (the copy the variance is taken of). -/
theorem v64_at (n : Fin 50000) (k : Fin 128) :
    val_main_v64 (F := Ideal) x0 x1 x2 x3 x4 x5 x6 x7 x8 x9 x10 x11 (ix2 n k)
      = val_main_v58 (F := Ideal) x0 x1 x2 x3 x4 x5 x6 x7 x8 x9 x10 x11 (ix2 n k)
        - Spec.rowMean (fun k : Fin 128 => val_main_v58 (F := Ideal) x0 x1 x2 x3 x4 x5 x6 x7 x8 x9 x10 x11 (ix2 n k)) := by
  have hi : idx_main_v63 (ix2 n k) = ix2 n (0 : Fin 1) :=
    funext fun a => Fin.ext (by match a with | ⟨0, _⟩ => rfl | ⟨1, _⟩ => rfl)
  rw [val_main_v64_apply, val_main_v63_apply, hi, v62_at, Ideal.subf_def]

/-- A row's entry less the row's mean (the copy that is scaled). -/
theorem v71_at (n : Fin 50000) (j : Fin 128) :
    val_main_v71 (F := Ideal) x0 x1 x2 x3 x4 x5 x6 x7 x8 x9 x10 x11 (ix2 n j)
      = val_main_v58 (F := Ideal) x0 x1 x2 x3 x4 x5 x6 x7 x8 x9 x10 x11 (ix2 n j)
        - Spec.rowMean (fun k : Fin 128 => val_main_v58 (F := Ideal) x0 x1 x2 x3 x4 x5 x6 x7 x8 x9 x10 x11 (ix2 n k)) := by
  have hi : idx_main_v70 (ix2 n j) = ix2 n (0 : Fin 1) :=
    funext fun a => Fin.ext (by match a with | ⟨0, _⟩ => rfl | ⟨1, _⟩ => rfl)
  rw [val_main_v71_apply, val_main_v70_apply, hi, v62_at, Ideal.subf_def]

/-- The variance of a node's row: the mean of the squared centred entries. -/
theorem v69_at (n : Fin 50000) :
    val_main_v69 (F := Ideal) x0 x1 x2 x3 x4 x5 x6 x7 x8 x9 x10 x11 (ix2 n (0 : Fin 1))
      = Spec.rowMean (fun k : Fin 128 =>
          (val_main_v58 (F := Ideal) x0 x1 x2 x3 x4 x5 x6 x7 x8 x9 x10 x11 (ix2 n k)
            - Spec.rowMean (fun k : Fin 128 => val_main_v58 (F := Ideal) x0 x1 x2 x3 x4 x5 x6 x7 x8 x9 x10 x11 (ix2 n k)))
          * (val_main_v58 (F := Ideal) x0 x1 x2 x3 x4 x5 x6 x7 x8 x9 x10 x11 (ix2 n k)
            - Spec.rowMean (fun k : Fin 128 => val_main_v58 (F := Ideal) x0 x1 x2 x3 x4 x5 x6 x7 x8 x9 x10 x11 (ix2 n k)))) := by
  rw [val_main_v69_apply, val_main_v67_apply, val_main_v66_apply, val_main_cst_9_apply, val_main_v68_apply,
    val_main_cst_10_apply]
  simp only [Ideal.hostDivf_def, Ideal.ofBits_def, Ideal.ofBits_zero_f32, zero_add]
  unfold Spec.rowMean Spec.c128
  refine congrArg (Ideal.div · _) (Finset.sum_congr rfl fun q _ => ?_)
  have hi : idx_main_v66 (idx_main_v67 (ix2 n (0 : Fin 1))) q = ix2 n q :=
    funext fun a => Fin.ext (by match a with | ⟨0, _⟩ => rfl | ⟨1, _⟩ => rfl)
  rw [hi, val_main_v65_apply, v64_at, Ideal.mulf_def]
  rfl

/-- The reciprocal square root of the variance plus ε, broadcast along a node's row. -/
theorem v75_at (n : Fin 50000) (j : Fin 128) :
    val_main_v75 (F := Ideal) x0 x1 x2 x3 x4 x5 x6 x7 x8 x9 x10 x11 (ix2 n j)
      = Ideal.rsqrt (Spec.rowMean (fun k : Fin 128 =>
          (val_main_v58 (F := Ideal) x0 x1 x2 x3 x4 x5 x6 x7 x8 x9 x10 x11 (ix2 n k)
            - Spec.rowMean (fun k : Fin 128 => val_main_v58 (F := Ideal) x0 x1 x2 x3 x4 x5 x6 x7 x8 x9 x10 x11 (ix2 n k)))
          * (val_main_v58 (F := Ideal) x0 x1 x2 x3 x4 x5 x6 x7 x8 x9 x10 x11 (ix2 n k)
            - Spec.rowMean (fun k : Fin 128 => val_main_v58 (F := Ideal) x0 x1 x2 x3 x4 x5 x6 x7 x8 x9 x10 x11 (ix2 n k))))
        + Spec.ceps) := by
  have hi : idx_main_v75 (ix2 n j) = ix2 n (0 : Fin 1) :=
    funext fun a => Fin.ext (by match a with | ⟨0, _⟩ => rfl | ⟨1, _⟩ => rfl)
  rw [val_main_v75_apply, hi, val_main_v74_apply, val_main_v73_apply, v69_at, val_main_v72_apply, val_main_cst_11_apply,
    Ideal.hostUnary_rsqrt_def, Ideal.addf_def, Ideal.ofBits_def]
  rfl

/-- The reference's result at a node and a feature is the layer norm of the node's row before it. -/
theorem v82_ln (n : Fin 50000) (j : Fin 128) :
    val_main_v82 (F := Ideal) x0 x1 x2 x3 x4 x5 x6 x7 x8 x9 x10 x11 x12 x13 (ix2 n j)
      = Spec.layerNorm (fun k : Fin 128 => val_main_v58 (F := Ideal) x0 x1 x2 x3 x4 x5 x6 x7 x8 x9 x10 x11 (ix2 n k))
          (Spec.rowVec x12) (Spec.rowVec x13) j := by
  rw [val_main_v82_apply, val_main_v79_apply, val_main_v76_apply, v71_at, v75_at, v78_at, v81_at]
  simp only [Ideal.addf_def, Ideal.mulf_def]
  rfl

/-- The reference's result at a node and a feature is the specification's output there. -/
theorem v82_at (A : (⟨2, ![50000, 128]⟩ : Shape).Idx → EReal)
    (hA : val_main_v46 (F := Ideal) x0 x1 x2 x3 x4 x5 x6 x7 = A) (n : Fin 50000) (j : Fin 128) :
    val_main_v82 (F := Ideal) x0 x1 x2 x3 x4 x5 x6 x7 x8 x9 x10 x11 x12 x13 (ix2 n j)
      = Spec.nodeOut x0 A (Spec.colVec x3) (Spec.rowsOf (n := 128) x8 0 (by decide))
          (Spec.rowsOf (n := 128) x8 128 (by decide)) (Spec.rowsOf (n := 1) x8 256 (by decide)) (Spec.rowVec x9)
          x10 (Spec.rowVec x11) (Spec.rowVec x12) (Spec.rowVec x13) n j := by
  have hR : (fun k : Fin 128 => val_main_v58 (F := Ideal) x0 x1 x2 x3 x4 x5 x6 x7 x8 x9 x10 x11 (ix2 n k))
      = fun k : Fin 128 => Spec.resid x0 A (Spec.colVec x3) (Spec.rowsOf (n := 128) x8 0 (by decide))
          (Spec.rowsOf (n := 128) x8 128 (by decide)) (Spec.rowsOf (n := 1) x8 256 (by decide)) (Spec.rowVec x9)
          x10 (Spec.rowVec x11) n k :=
    funext fun k => v58_at x0 x1 x2 x3 x4 x5 x6 x7 x8 x9 x10 x11 A hA n k
  rw [v82_ln, hR]
  rfl

end Stages

/-- **The reference is the specification**: the value of the reference's last operation is the layer, with the
    gathered endpoint rows and coordination numbers and the scatter-add into the nodes as the reference has them. -/
theorem ref_eq (x0 : (⟨S50000x128, .f32⟩ : BufTy).Contents (Elt Ideal)) (x1 : (⟨S2x640000, .i32⟩ : BufTy).Contents (Elt Ideal)) (x2 : (⟨S640000x32, .f32⟩ : BufTy).Contents (Elt Ideal)) (x3 : (⟨S50000, .f32⟩ : BufTy).Contents (Elt Ideal)) (x4 : (⟨S290x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S257x128, .f32⟩ : BufTy).Contents (Elt Ideal)) (x9 : (⟨S128, .f32⟩ : BufTy).Contents (Elt Ideal)) (x10 : (⟨S128x128, .f32⟩ : BufTy).Contents (Elt Ideal)) (x11 x12 x13 : (⟨S128, .f32⟩ : BufTy).Contents (Elt Ideal)) :
    ReadP.val_main_v82 (F := Ideal) x0 x1 x2 x3 x4 x5 x6 x7 x8 x9 x10 x11 x12 x13
      = Spec.layer (ReadP.val_main_v10 (F := Ideal) x0 x1) (ReadP.val_main_v17 (F := Ideal) x0 x1) x2 (ReadP.val_main_v25 (F := Ideal) x1 x3) (ReadP.val_main_v33 (F := Ideal) x1 x3)
          (fun u => Host.scatterAdd (F := Ideal) (φ := .f32) scatter_S50000x128_S640000x1_S640000x128_1_0_0_1 (ReadP.val_main_v44 (F := Ideal)) (ReadP.val_main_v45 (F := Ideal) x1) u)
          x0 x3 x4 x5 x6 x7 x8 x9 x10 x11 x12 x13 := by
  funext i
  obtain ⟨n, j, rfl⟩ : ∃ (n : Fin 50000) (j : Fin 128), i = ix2 n j := ⟨i 0, i 1, eq_ix2 i⟩
  rw [v82_at x0 x1 x2 x3 x4 x5 x6 x7 x8 x9 x10 x11 x12 x13 _ (v46_eq x0 x1 x2 x3 x4 x5 x6 x7) n j]
  rfl

end Cert.RefValue

end
-- ==== Proof.Bridge.lean ====
/-
  The two programs spell the gathers and the sum into nodes with the same operations: each printed term of the one
  is, read over the same arrays, the term of the other.
-/
import proofs.«408877_j34849364640430_1_alg».proof.Proof.KHost
import proofs.«408877_j34849364640430_1_alg».proof.Proof.RefRead

noncomputable section

namespace Cert.Bridge

open Idealize.ShloMosaic Idealize.ShloMosaic.TcCoe Idealize.SL.Sem
open Cert.KernelIdeal Cert.KernelIdeal.Gen

variable (x0 : (⟨S50000x128, .f32⟩ : BufTy).Contents (Elt Ideal))
  (x1 : (⟨S2x640000, .i32⟩ : BufTy).Contents (Elt Ideal))
  (x3 : (⟨S50000, .f32⟩ : BufTy).Contents (Elt Ideal))

/-- The rows gathered at the sources. -/
theorem srcRows : Cert.ReferenceIdeal.ReadP.val_main_v10 (F := Ideal) x0 x1
    = Host.gather gather_S50000x128_S640000x1_S640000x128_1_0_n_n_0_1_1128 x0
        (Cert.KHost.normCol (Cert.KHost.srcRow x1)) := rfl

/-- The rows gathered at the destinations. -/
theorem dstRows : Cert.ReferenceIdeal.ReadP.val_main_v17 (F := Ideal) x0 x1
    = Host.gather gather_S50000x128_S640000x1_S640000x128_1_0_n_n_0_1_1128 x0
        (Cert.KHost.normCol (Cert.KHost.dstRow x1)) := rfl

/-- The coordination numbers gathered at the sources, as a column. -/
theorem srcCoord : Cert.ReferenceIdeal.ReadP.val_main_v25 (F := Ideal) x1 x3
    = broadcastInDim S640000x1 ![0] bcast_S640000_S640000x1_0
        (Host.gather gather_S50000_S640000x1_S640000_n_0_n_n_0_1_1 x3
          (Cert.KHost.normCol (Cert.KHost.srcRow x1))) := rfl

/-- The coordination numbers gathered at the destinations, as a column. -/
theorem dstCoord : Cert.ReferenceIdeal.ReadP.val_main_v33 (F := Ideal) x1 x3
    = broadcastInDim S640000x1 ![0] bcast_S640000_S640000x1_0
        (Host.gather gather_S50000_S640000x1_S640000_n_0_n_n_0_1_1 x3
          (Cert.KHost.normCol (Cert.KHost.dstRow x1))) := rfl

/-- The sum of an array of messages into the destination nodes. -/
theorem aggregate (u : (⟨S640000x128, .f32⟩ : BufTy).Contents (Elt Ideal)) :
    Host.scatterAdd (F := Ideal) (φ := .f32) Cert.ReferenceIdeal.scatter_S50000x128_S640000x1_S640000x128_1_0_0_1
        (Cert.ReferenceIdeal.ReadP.val_main_v44 (F := Ideal)) (Cert.ReferenceIdeal.ReadP.val_main_v45 (F := Ideal) x1) u
      = Host.scatterAdd (F := Ideal) (φ := .f32) scatter_S50000x128_S640000x1_S640000x128_1_0_0_1
        (broadcastInDim S50000x128 ![] bcast_S_S50000x128
          (constant (F := Ideal) S_ .f32 0x00000000#32))
        (Cert.KHost.rawCol (Cert.KHost.dstRow x1)) u := rfl

end Cert.Bridge

end
-- ==== Proof.lean ====
/-
  The certificate of one message-passing layer of a graph network: the kernel against its reference.

  Both programs gather, for every edge, the feature rows and coordination numbers of its two endpoints, run a
  two-layer network with a silu between the layers over them and the edge's own features, sum the messages into
  their destination nodes, and update every node by a second such network over its features, its aggregated
  messages and its coordination number, followed by a residual connection and a layer norm. The reference
  concatenates the operands of each first layer and multiplies by the whole weight matrix; the kernel multiplies
  each operand by its own band of rows of that matrix and adds the products, tile by tile, in two pallas_calls.
  A sum over the rows of the matrix is the sum of the sums over its bands — addition of extended reals is
  commutative and associative, whatever the summands — so the two are one function of the arguments, entry by
  entry. The kernel's gather fills an out-of-range row with a not-a-number word where the reference's clamps the
  index: the precondition confines the edge list to node numbers, where neither happens.

  The three frames are the programs' runs; the idealization of the kernel rewrites nothing; the value claim is the
  kernel's run with its result named (the two calls' output arrays read back tile by tile), the reference's run read
  one operation at a time, and the identification of both with the specification's `layer`.
-/
import proofs.«408877_j34849364640430_1_alg».proof.Defs
import proofs.«408877_j34849364640430_1_alg».proof.Proof.Gen.Kernel
import proofs.«408877_j34849364640430_1_alg».proof.Proof.Gen.Kernel.Frame
import proofs.«408877_j34849364640430_1_alg».proof.Proof.Gen.KernelIdeal
import proofs.«408877_j34849364640430_1_alg».proof.Proof.Gen.KernelIdeal.Frame
import proofs.«408877_j34849364640430_1_alg».proof.Proof.Gen.ReferenceIdeal
import proofs.«408877_j34849364640430_1_alg».proof.Proof.Gen.Pre_finite_inputs
import proofs.«408877_j34849364640430_1_alg».proof.Proof.KRun
import proofs.«408877_j34849364640430_1_alg».proof.Proof.KValue
import proofs.«408877_j34849364640430_1_alg».proof.Proof.PreRange
import proofs.«408877_j34849364640430_1_alg».proof.Proof.RefRun
import proofs.«408877_j34849364640430_1_alg».proof.Proof.RefRead
import proofs.«408877_j34849364640430_1_alg».proof.Proof.RefValue
import proofs.«408877_j34849364640430_1_alg».proof.Proof.Bridge
import Idealize.ShloMosaic.Adequacy
import Idealize.ShloMosaic.Init

noncomputable section

namespace Cert.Proof

open Idealize.ShloMosaic Idealize.SL.Sem

namespace Claims

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The reference's result term, over arrays that agree with the kernel's arguments, is the kernel's result. -/
theorem ref_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    Cert.ReferenceIdeal.ValueP.res_main_v82 (F := Ideal) m' c = Cert.KValue.result m c := by
  rw [Cert.ReferenceIdeal.ReadP.val_main_v82_eq, h0, h1, h2, h3, h4, h5, h6, h7, h8, h9, h10, h11, h12, h13, Cert.RefValue.ref_eq,
    Cert.Bridge.srcRows, Cert.Bridge.dstRows, Cert.Bridge.srcCoord, Cert.Bridge.dstCoord]
  unfold Cert.KValue.result
  exact congrArg (fun a => Spec.layer _ _ _ _ _ a _ _ _ _ _ _ _ _ _ _ _ _) (funext fun u => Cert.Bridge.aggregate _ u)

/-- The value claim: both runs end with the layer of the arguments in their result buffers. -/
theorem algebraic : Cert.algebraic_KernelIdeal_ReferenceIdeal := by
  intro m ρ m' ρ' hpre hagree
  refine ⟨fun c => Cert.KValue.result m c, ?_, ?_⟩
  · exact (θ_run Cert.KernelIdeal.defs _ _).mono
      (fun _ h c => ⟨(h c).1.trans (Cert.KValue.result_eq m ρ c (Cert.PreRange.inRange_of_pre m hpre c)), (h c).2⟩)
      (Cert.KernelIdeal.GenP.run_result (F := Ideal) m ρ)
  · refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5, h6, h7, h8, h9, h10, h11, h12, h13⟩ := hagree c
    exact ref_result m m' c h0 h1 h2 h3 h4 h5 h6 h7 h8 h9 h10 h11 h12 h13

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, trivial, Claims.algebraic⟩

end Cert.Proof

end
